-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S6144x2048 : Shape := ⟨2, ![6144, 2048]⟩
abbrev S6144 : Shape := ⟨1, ![6144]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_

variable [Facts]

def fn {F : FTy → Type} [FloatOps F] (main_arg0 : FVec F S2x2048x2048 .f32) (main_arg1 : FVec F S6144x2048 .f32) (main_arg2 : FVec F S6144 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  main_v13
-- ==== Kernel.lean ====
abbrev S2x2048x2048 : Shape := ⟨3, ![2, 2048, 2048]⟩
abbrev S6144x2048 : Shape := ⟨2, ![6144, 2048]⟩
abbrev S6144 : Shape := ⟨1, ![6144]⟩
abbrev S4096x2048 : Shape := ⟨2, ![4096, 2048]⟩
abbrev S1x6144 : Shape := ⟨2, ![1, 6144]⟩
abbrev S4096x6144 : Shape := ⟨2, ![4096, 6144]⟩
abbrev S512x512 : Shape := ⟨2, ![512, 512]⟩
abbrev S1x512 : Shape := ⟨2, ![1, 512]⟩
abbrev S2x2048x6144 : Shape := ⟨3, ![2, 2048, 6144]⟩
abbrev S2x2048x16x128 : Shape := ⟨4, ![2, 2048, 16, 128]⟩
abbrev S2x16x2048x128 : Shape := ⟨4, ![2, 16, 2048, 128]⟩
abbrev S32x2048x128 : Shape := ⟨3, ![32, 2048, 128]⟩
abbrev S1x512x128 : Shape := ⟨3, ![1, 512, 128]⟩
abbrev S512x128 : Shape := ⟨2, ![512, 128]⟩
abbrev S128x512 : Shape := ⟨2, ![128, 512]⟩

abbrev nBuf : Space → Nat
  | .hbm => 25
  | .vmem => 18
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S4096x2048, .f32⟩
  | .hbm, ⟨4, _⟩ => ⟨S4096x2048, .bf16⟩
  | .hbm, ⟨5, _⟩ => ⟨S6144x2048, .bf16⟩
  | .hbm, ⟨6, _⟩ => ⟨S1x6144, .f32⟩
  | .hbm, ⟨7, _⟩ => ⟨S4096x6144, .bf16⟩
  | .hbm, ⟨8, _⟩ => ⟨S2x2048x6144, .bf16⟩
  | .hbm, ⟨9, _⟩ => ⟨S2x2048x2048, .bf16⟩
  | .hbm, ⟨10, _⟩ => ⟨S2x2048x2048, .bf16⟩
  | .hbm, ⟨11, _⟩ => ⟨S2x2048x2048, .bf16⟩
  | .hbm, ⟨12, _⟩ => ⟨S2x2048x16x128, .bf16⟩
  | .hbm, ⟨13, _⟩ => ⟨S2x16x2048x128, .bf16⟩
  | .hbm, ⟨14, _⟩ => ⟨S32x2048x128, .bf16⟩
  | .hbm, ⟨15, _⟩ => ⟨S2x2048x16x128, .bf16⟩
  | .hbm, ⟨16, _⟩ => ⟨S2x16x2048x128, .bf16⟩
  | .hbm, ⟨17, _⟩ => ⟨S32x2048x128, .bf16⟩
  | .hbm, ⟨18, _⟩ => ⟨S2x2048x16x128, .bf16⟩
  | .hbm, ⟨19, _⟩ => ⟨S2x16x2048x128, .bf16⟩
  | .hbm, ⟨20, _⟩ => ⟨S32x2048x128, .bf16⟩
  | .hbm, ⟨21, _⟩ => ⟨S32x2048x128, .f32⟩
  | .hbm, ⟨22, _⟩ => ⟨S2x16x2048x128, .f32⟩
  | .hbm, ⟨23, _⟩ => ⟨S2x2048x16x128, .f32⟩
  | .hbm, ⟨24, _⟩ => ⟨S2x2048x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .f32⟩
  | .local _ .vmem, ⟨16, _⟩ => ⟨S1x512x128, .f32⟩
  | .local _ .vmem, ⟨17, _⟩ => ⟨S512x128, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![8, 12, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![32, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S2x2048x2048_S4096x2048 : S2x2048x2048.ShapeCasts S4096x2048
  bitsLt_bf16_f32 : FTy.bits .bf16 < FTy.bits .f32
  shapeCasts_S6144_S1x6144 : S6144.ShapeCasts S1x6144
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  packedbf16_S512x512_S512x512_0_0 : (Rect.unit (s := S512x512) ![0, 0] S512x512.size inb_S512x512_S512x512_0_0).PackedRows (EltTy.packing .bf16)
  shapeCasts_S4096x6144_S2x2048x6144 : S4096x6144.ShapeCasts S2x2048x6144
  slices_S2x2048x6144_S2x2048x2048_0_0_0 : S2x2048x6144.Slices ![0, 0, 0] S2x2048x2048
  slices_S2x2048x6144_S2x2048x2048_0_0_2048 : S2x2048x6144.Slices ![0, 0, 2048] S2x2048x2048
  slices_S2x2048x6144_S2x2048x2048_0_0_4096 : S2x2048x6144.Slices ![0, 0, 4096] S2x2048x2048
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  shapeCasts_S2x16x2048x128_S32x2048x128 : S2x16x2048x128.ShapeCasts S32x2048x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  transposes_S512x128_p1_0_S128x512 : S512x128.Transposes [1, 0] S128x512
  iota_S512x512_d0_w32 : S512x512.Iotas .tc 32 [0]
  iota_S512x512_d1_w32 : S512x512.Iotas .tc 32 [1]
  shapeCasts_S512x128_S1x512x128 : S512x128.ShapeCasts S1x512x128
  shapeCasts_S32x2048x128_S2x16x2048x128 : S32x2048x128.ShapeCasts S2x16x2048x128
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S512x512_S512x512_S512x512_1_1_0_0_n_n_wf : DotDims.WF S512x512 S512x512 S512x512 [1] [1] [0] [0] [] []
  dot_S512x128_S128x512_S512x512_1_0_0_1_n_n_wf : DotDims.WF S512x128 S128x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x2048.size a
  hwx0_0 : ∀ i : grid0.Coords, EltTy.bits .bf16 = 32 ∨ (Rect.block (s := S4096x2048) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S6144x2048.size a
  hwx0_1 : ∀ i : grid0.Coords, EltTy.bits .bf16 = 32 ∨ (Rect.block (s := S6144x2048) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x6144.size a
  hwx0_2 : ∀ i : grid0.Coords, EltTy.bits .f32 = 32 ∨ (Rect.block (s := S1x6144) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x6144.size a
  hwx0_3 : ∀ i : grid0.Coords, EltTy.bits .bf16 = 32 ∨ (Rect.block (s := S4096x6144) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S32x2048x128.size a
  hwx1_0 : ∀ i : grid1.Coords, EltTy.bits .bf16 = 32 ∨ (Rect.block (s := S32x2048x128) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S32x2048x128.size a
  hwx1_1 : ∀ i : grid1.Coords, EltTy.bits .bf16 = 32 ∨ (Rect.block (s := S32x2048x128) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S32x2048x128.size a
  hwx1_2 : ∀ i : grid1.Coords, EltTy.bits .bf16 = 32 ∨ (Rect.block (s := S32x2048x128) S1x512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S32x2048x128.size a
  hwx1_3 : ∀ i : grid1.Coords, EltTy.bits .f32 = 32 ∨ (Rect.block (s := S32x2048x128) S1x512x128.size (cc1_transform_3 i) (hinb1_3 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v11) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S6144x2048 : Shape := ⟨2, ![6144, 2048]⟩
abbrev S6144 : Shape := ⟨1, ![6144]⟩
abbrev S2x2048x6144 : Shape := ⟨3, ![2, 2048, 6144]⟩
abbrev S1x1x6144 : Shape := ⟨3, ![1, 1, 6144]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2048x2048 : Shape := ⟨2, ![2048, 2048]⟩
abbrev S1x1x2048x2048 : Shape := ⟨4, ![1, 1, 2048, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S2x2048x6144, .f32⟩
  | .hbm, ⟨4, _⟩ => ⟨S1x1x6144, .f32⟩
  | .hbm, ⟨5, _⟩ => ⟨S2x2048x6144, .f32⟩
  | .hbm, ⟨6, _⟩ => ⟨S2x2048x6144, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x16x128, .f32⟩
  | .hbm, ⟨11, _⟩ => ⟨S2x16x2048x128, .f32⟩
  | .hbm, ⟨12, _⟩ => ⟨S2x2048x16x128, .f32⟩
  | .hbm, ⟨13, _⟩ => ⟨S2x16x2048x128, .f32⟩
  | .hbm, ⟨14, _⟩ => ⟨S2x2048x16x128, .f32⟩
  | .hbm, ⟨15, _⟩ => ⟨S2x16x2048x128, .f32⟩
  | .hbm, ⟨16, _⟩ => ⟨S2x16x2048x2048, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S_, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S1x1x2048x2048, .i1⟩
  | .hbm, ⟨32, _⟩ => ⟨S_, .f32⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S_, .f32⟩
  | .hbm, ⟨37, _⟩ => ⟨S2x16x2048x2048, .i1⟩
  | .hbm, ⟨38, _⟩ => ⟨S2x16x2048x2048, .f32⟩
  | .hbm, ⟨39, _⟩ => ⟨S2x16x2048x2048, .f32⟩
  | .hbm, ⟨40, _⟩ => ⟨S2x16x2048x128, .f32⟩
  | .hbm, ⟨41, _⟩ => ⟨S2x2048x16x128, .f32⟩
  | .hbm, ⟨42, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v17 : Ref sig .tc := ⟨.hbm, 30, rfl⟩
abbrev main_v18 : Ref sig .tc := ⟨.hbm, 31, rfl⟩
abbrev main_call1_cst : Ref sig .tc := ⟨.hbm, 32, rfl⟩
abbrev main_call1_v0 : Ref sig .tc := ⟨.hbm, 33, rfl⟩
abbrev main_v19 : Ref sig .tc := ⟨.hbm, 34, rfl⟩
abbrev main_cst_0 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]

class Facts₀ : Prop where
  bcast_S6144_S1x1x6144_2 : S6144.BroadcastsInDim S1x1x6144 (![2] : Fin 1 → Fin S1x1x6144.rank)
  bcast_S1x1x6144_S2x2048x6144_0_1_2 : S1x1x6144.BroadcastsInDim S2x2048x6144 (![0, 1, 2] : Fin 3 → Fin S2x2048x6144.rank)
  slices_S2x2048x6144_S2x2048x2048_0_0_0 : S2x2048x6144.Slices ![0, 0, 0] S2x2048x2048
  slices_S2x2048x6144_S2x2048x2048_0_0_2048 : S2x2048x6144.Slices ![0, 0, 2048] S2x2048x2048
  slices_S2x2048x6144_S2x2048x2048_0_0_4096 : S2x2048x6144.Slices ![0, 0, 4096] S2x2048x2048
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S6144x2048_S2x2048x6144_2_1_01_0_n_n_wf : DotDims.WF S2x2048x2048 S6144x2048 S2x2048x6144 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x2048x2048_S6144x2048_S2x2048x6144_2_1_01_0_n_n : DotDims S2x2048x2048 S6144x2048 S2x2048x6144 where
  lhsContracting := [2]
  rhsContracting := [1]
  lhsNonContracting := [0, 1]
  rhsNonContracting := [0]
  lhsBatch := []
  rhsBatch := []
  wf := dot_S2x2048x2048_S6144x2048_S2x2048x6144_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.ProjBody.lean ====
/-
  The first pallas_call: the projection  out[r, n] = (Σ_k a[r, k] · w[n, k]) + b[n]  on a grid (8, 12, 4) of
  512 × 512 blocks, the contraction cut in four along the grid's last axis. The body keeps a 512 × 512 accumulator
  in a scratch buffer across the four steps of one output block: reset to zero at step 0, the step's block product
  added at every step, and at step 3 the bias row added and the block stored into the output window.

  This module states, for any contents `V` of the device's buffers at the region's entry, what the scratch holds
  after each grid point (`acc`, by recursion on the point), what the output window's staging buffer holds after the
  points that store it (`outAt`), the region's invariant (`Phi`: the scratch at `acc`, every other scoped buffer at
  anything), the proof data, and the body obligation: three runs of the body, one per way its two conditionals
  fall (first step, middle steps, last step).
-/
import proofs.«113924_j1580547972719_1_alg».proof.Proof.Gen.KernelIdeal.Launch
import proofs.«113924_j1580547972719_1_alg».proof.Proof.Gen.KernelIdeal.Skeleton
import proofs.«113924_j1580547972719_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at their literal types: the 512 × 512 block of the left operand, of the right operand,
    and the 1 × 512 piece of the bias row. -/
abbrev ablk (c : Dev nD) (t : Fin cfg0.N) : Vec F S512x512 .bf16 := iblk V c 0 t
abbrev wblk (c : Dev nD) (t : Fin cfg0.N) : Vec F S512x512 .bf16 := iblk V c 1 t
abbrev bblk (c : Dev nD) (t : Fin cfg0.N) : Vec F S1x512 .f32 := iblk V c 2 t

/-- An input window's staging buffer holds its block at every point, fetched there or not (where it is not fetched
    its block index has not moved): for any proof data whose array is `V`'s and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions, in closed form over the grid -/

/-- The condition of the reset, `program_id(2) == 0`, as the body computes it. -/
abbrev condFirst (i : grid0.Coords) : BitVec 1 :=
  Scalar.cmpi .ne (Scalar.extui (Scalar.cmpi .eq (BitVec.ofNat 32 (i 2).val) 0#32)) 0#32

theorem condFirst_iff : ∀ t : Fin cfg0.N, condFirst (grid0.coords t) = 1#1 ↔ t.val % 4 = 0 :=
  (by decide +kernel : ∀ t : Fin grid0.N, condFirst (grid0.coords t) = 1#1 ↔ t.val % 4 = 0)
theorem condLast_iff : ∀ t : Fin cfg0.N, k0_cond2 (grid0.coords t) = 1#1 ↔ t.val % 4 = 3 :=
  (by decide +kernel : ∀ t : Fin grid0.N, k0_cond2 (grid0.coords t) = 1#1 ↔ t.val % 4 = 3)

/-! ## What the scratch and the output window hold -/

/-- The scratch accumulator after the body at point `n`: at the first of a block's four steps the step's block
    product added to the zero block, afterwards added to what the step before left. -/
def acc (c : Dev nD) : (n : ℕ) → n < cfg0.N → Vec F S512x512 .f32
  | 0, h => k0_pay2 (k0_pay1 (F := F)) (ablk V c ⟨0, h⟩) (wblk V c ⟨0, h⟩)
  | n + 1, h =>
    if (n + 1) % 4 = 0 then k0_pay2 (k0_pay1 (F := F)) (ablk V c ⟨n + 1, h⟩) (wblk V c ⟨n + 1, h⟩)
    else k0_pay2 (acc c n (Nat.lt_of_succ_lt h)) (ablk V c ⟨n + 1, h⟩) (wblk V c ⟨n + 1, h⟩)

theorem acc_first (c : Dev nD) (t : Fin cfg0.N) (h : t.val % 4 = 0) :
    acc V c t.val t.isLt = k0_pay2 (k0_pay1 (F := F)) (ablk V c t) (wblk V c t) := by
  obtain ⟨n, hn⟩ := t
  cases n with
  | zero => rfl
  | succ n => exact if_pos h

theorem acc_next (c : Dev nD) (t : Fin cfg0.N) (h : ¬ t.val % 4 = 0) :
    acc V c t.val t.isLt = k0_pay2 (acc V c (t.val - 1) (Nat.lt_of_le_of_lt (Nat.sub_le _ _) t.isLt)) (ablk V c t) (wblk V c t) := by
  obtain ⟨n, hn⟩ := t
  cases n with
  | zero => exact absurd (Nat.zero_mod _) h
  | succ n => exact if_neg h

/-- What the output window's staging buffer holds after the body at a last step: the accumulator plus the bias row,
    at the output's format. (At the other points the window is idle and this is not consulted.) -/
def outAt (c : Dev nD) (t : Fin cfg0.N) : Vec F S512x512 .bf16 :=
  k0_pay3 (acc V c t.val t.isLt) (bblk V c t)

/-! ## The invariant -/

/-- The kernel's scratch accumulator, whole. -/
abbrev scr : Memref sig .tc .vmem S512x512 .f32 := Memref.whole cc0_scratch0

/-- Every scoped buffer that is neither a staging buffer of this call nor its accumulator, at some contents: the
    other call's staging buffers and scratch, carried unopened. -/
abbrev others (c : Dev nD) : sProp 𝕄 :=
  Pipeline.scopedRestBut (Ix := Unit) (Name := ℕ) (U := UR sig nD τ) (Lvl := ℕ) (Val := Elt F) spec0 c [cc0_scratch0]

/-- The class invariant split at the accumulator: its buffer at some contents, the other scoped buffers, the
    generator register at some state. -/
theorem PhiA_eq (c : Dev nD) :
    (Pipeline.ΦA spec0 c : sProp 𝕄)
      = iprop(iprop((∃ d, owns (c : Thread nD τ) scr fullShare d) ∗ others (F := F) c) ∗ (∃ r, prngReg c r)) := by
  unfold Pipeline.ΦA
  rw [Pipeline.scopedRest_split_of_list spec0 c [cc0_scratch0] (by decide) (by decide)]
  simp only [scr, owns_whole]; try rfl

/-- The region's invariant before position `n`: before the first point the class's (the accumulator at anything);
    afterwards the accumulator at what the point before left in it, the other scoped buffers at anything, the generator
    register at some state. -/
def Phi (c : Dev nD) : (n : ℕ) → n ≤ cfg0.N → sProp 𝕄
  | 0, _ => Pipeline.ΦA spec0 c
  | n + 1, hn => iprop(iprop(owns (c : Thread nD τ) scr fullShare (acc V c n hn) ∗ others (F := F) c) ∗ (∃ r, prngReg c r))

theorem Phi_zero (c : Dev nD) (n : ℕ) (h : n ≤ cfg0.N) (hz : n = 0) : Phi V c n h = Pipeline.ΦA spec0 c := by
  subst hz; rfl
theorem Phi_succ (c : Dev nD) (n : ℕ) (hn : n < cfg0.N) :
    Phi V c (n + 1) hn = iprop(iprop(owns (c : Thread nD τ) scr fullShare (acc V c n hn) ∗ others (F := F) c) ∗ (∃ r, prngReg c r)) := rfl
theorem Phi_pos (c : Dev nD) (n : ℕ) (h : n ≤ cfg0.N) (hz : n ≠ 0) :
    Phi V c n h = iprop(iprop(owns (c : Thread nD τ) scr fullShare (acc V c (n - 1) (by omega)) ∗ others (F := F) c) ∗ (∃ r, prngReg c r)) := by
  cases n with
  | zero => exact absurd rfl hz
  | succ n => rfl

/-- Whatever the position, the invariant holds the accumulator at SOME contents. -/
theorem Phi_any (c : Dev nD) (n : ℕ) (h : n ≤ cfg0.N) :
    Phi V c n h ⊢ iprop(iprop((∃ d, owns (c : Thread nD τ) scr fullShare d) ∗ others (F := F) c) ∗ (∃ r, prngReg c r)) := by
  by_cases hz : n = 0
  · rw [Phi_zero V c n h hz, PhiA_eq]
  · rw [Phi_pos V c n h hz]
    iintro ⟨⟨HS, Ho⟩, Hg⟩
    isplitl [HS Ho]
    · isplitl [HS]
      · iexists _; iexact HS
      iexact Ho
    iexact Hg

/-! ## The pipeline's proof data -/

/-- The proof data of the projection's pipeline on core `c`: the arrays as the region finds them; after the body
    each input's buffer at its block and the output's at `outAt`; the invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = Phi V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outAt V c t := by dsimp only [dat]
theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d
theorem before_2 (c : Dev nD) (t : Fin cfg0.N) (d) : (dat V c).before 2 t d = iblk V c 2 t :=
  before2_of V (dat V c) (A_eq V c 2) (after_2 V c) t d

/-! ## The body, once per way its conditionals fall -/

theorem hz2 : (![0, 0] : Fin 2 → Nat) = fun _ => 0 := funext fun a => by fin_cases a <;> rfl

abbrev rAcc : Rect S512x512 := Rect.unit (s := S512x512) ![0, 0] S512x512.size inb_S512x512_S512x512_0_0

/-- One store of the whole 512 × 512 rectangle covers the buffer. -/
theorem cover1 {e : EltTy} (p : Vec F S512x512 e) (y : S512x512.Idx) :
    ∃ pc ∈ ([⟨rAcc, p⟩] : List (View.Piece (Elt F) S512x512 e)), y ∈ pc.1.set :=
  View.cover_of_tiled [⟨rAcc, p⟩] S512x512.size (by rfl) y

/-- Of two stores of the whole rectangle the later one already covers the buffer. -/
theorem cover2 {e : EltTy} (p q : Vec F S512x512 e) (y : S512x512.Idx) :
    ∃ pc ∈ ([⟨rAcc, p⟩, ⟨rAcc, q⟩] : List (View.Piece (Elt F) S512x512 e)), y ∈ pc.1.set := by
  obtain ⟨pc, hpc, hy⟩ := cover1 p y
  rw [List.mem_singleton] at hpc; subst hpc
  exact ⟨_, List.mem_cons_self .., hy⟩

set_option maxHeartbeats 1000000 in
/-- A MIDDLE step (neither the first nor the last of a block's four): the accumulator, holding `s`, ends holding
    `s` plus the product of the two input blocks; nothing else is touched. -/
theorem run_mid (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .bf16) (harg6 : arg6.IsWhole)
    (arg7 : Memref sig .tc .vmem S512x512 .f32) (harg7 : arg7.IsWhole)
    (hfirst : ¬ condFirst i = 1#1) (hlast : ¬ k0_cond2 i = 1#1)
    (a w : Vec F S512x512 .bf16) (s : Vec F S512x512 .f32) (K : PUnit → sProp 𝕄) :
    iprop(owns (c : Thread nD τ) arg3 fullShare a ∗ owns (c : Thread nD τ) arg4 fullShare w ∗ owns (c : Thread nD τ) arg7 fullShare s
        ∗ (iprop(owns (c : Thread nD τ) arg3 fullShare a ∗ owns (c : Thread nD τ) arg4 fullShare w
            ∗ owns (c : Thread nD τ) arg7 fullShare (k0_pay2 s a w)) -∗ K ⟨⟩))
      ⊢ wp frame (wpE (defs₀ (F := F)) Variants.none c none) E (cc0_matmul_bias_kernel i arg3 harg3 arg4 harg4 arg5 harg5 arg6 harg6 arg7 harg7) K := by
  simp only [cc0_matmul_bias_kernel_eq_skeleton]; unfold cc0_matmul_bias_kernel_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact hfirst | exact hlast)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (cover1 _), View.canon_unit_zero hz2]
  simp only [View.readAt_eq_ld, harg3.read_unread, harg4.read_unread, harg7.read_unread, View.ld_unit_zero (S := S512x512) hz2]

set_option maxHeartbeats 1000000 in
/-- The FIRST step: the accumulator, holding anything, is reset to zero and ends holding zero plus the product. -/
theorem run_first (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .bf16) (harg6 : arg6.IsWhole)
    (arg7 : Memref sig .tc .vmem S512x512 .f32) (harg7 : arg7.IsWhole)
    (hfirst : condFirst i = 1#1) (hlast : ¬ k0_cond2 i = 1#1)
    (a w : Vec F S512x512 .bf16) (K : PUnit → sProp 𝕄) :
    iprop(owns (c : Thread nD τ) arg3 fullShare a ∗ owns (c : Thread nD τ) arg4 fullShare w ∗ (∃ d, owns (c : Thread nD τ) arg7 fullShare d)
        ∗ (iprop(owns (c : Thread nD τ) arg3 fullShare a ∗ owns (c : Thread nD τ) arg4 fullShare w
            ∗ owns (c : Thread nD τ) arg7 fullShare (k0_pay2 (k0_pay1 (F := F)) a w)) -∗ K ⟨⟩))
      ⊢ wp frame (wpE (defs₀ (F := F)) Variants.none c none) E (cc0_matmul_bias_kernel i arg3 harg3 arg4 harg4 arg5 harg5 arg6 harg6 arg7 harg7) K := by
  simp only [cc0_matmul_bias_kernel_eq_skeleton]; unfold cc0_matmul_bias_kernel_skel
  unfold owns
  iintro ⟨⟨%f3, %hf3, H3⟩, ⟨%f4, %hf4, H4⟩, ⟨%d7, %f7, -, H7⟩, Hk⟩
  obtain rfl := harg3.eq_unread hf3; obtain rfl := harg4.eq_unread hf4
  sl_exec (disch := first | exact hfirst | exact hlast)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (cover2 _ _)]
  rw [View.canon_cons_unit_zero (S := S512x512) hz2, View.readCov_unit_zero (S := S512x512) _ hz2]
  simp only [View.readAt_eq_ld, harg3.read_unread, harg4.read_unread, View.ld_unit_zero (S := S512x512) hz2]

set_option maxHeartbeats 1000000 in
/-- The LAST step: the accumulator, holding `s`, ends holding `s` plus the product, and the output window's buffer,
    holding anything, ends holding that sum plus the bias row, at the output's format. -/
theorem run_last (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .bf16) (harg6 : arg6.IsWhole)
    (arg7 : Memref sig .tc .vmem S512x512 .f32) (harg7 : arg7.IsWhole)
    (hfirst : ¬ condFirst i = 1#1) (hlast : k0_cond2 i = 1#1)
    (a w : Vec F S512x512 .bf16) (bb : Vec F S1x512 .f32) (s : Vec F S512x512 .f32) (K : PUnit → sProp 𝕄) :
    iprop(owns (c : Thread nD τ) arg3 fullShare a ∗ owns (c : Thread nD τ) arg4 fullShare w ∗ owns (c : Thread nD τ) arg5 fullShare bb
        ∗ (∃ d, owns (c : Thread nD τ) arg6 fullShare d) ∗ owns (c : Thread nD τ) arg7 fullShare s
        ∗ (iprop(owns (c : Thread nD τ) arg3 fullShare a ∗ owns (c : Thread nD τ) arg4 fullShare w ∗ owns (c : Thread nD τ) arg5 fullShare bb
            ∗ owns (c : Thread nD τ) arg6 fullShare (k0_pay3 (k0_pay2 s a w) bb)
            ∗ owns (c : Thread nD τ) arg7 fullShare (k0_pay2 s a w)) -∗ K ⟨⟩))
      ⊢ wp frame (wpE (defs₀ (F := F)) Variants.none c none) E (cc0_matmul_bias_kernel i arg3 harg3 arg4 harg4 arg5 harg5 arg6 harg6 arg7 harg7) K := by
  simp only [cc0_matmul_bias_kernel_eq_skeleton]; unfold cc0_matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact hfirst | exact hlast)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (cover1 _), View.canon_unit_zero hz2]
    simp only [View.readAt_eq_ld, harg3.read_unread, harg4.read_unread, harg5.read_unread, harg7.read_unread,
      View.ld_unit_zero (S := S512x512) hz2, View.ld_unit_zero (S := S1x512) hz2, View.readCov_unit_zero (S := S512x512) _ hz2]
  iexists _; isplitr
  swap; · iexact H7
  ipureintro
  sl_unfold_words
  rw [View.read_writes_eq_canon _ _ _ (cover1 _), View.canon_unit_zero hz2]
  simp only [View.readAt_eq_ld, harg3.read_unread, harg4.read_unread, harg7.read_unread, View.ld_unit_zero (S := S512x512) hz2]

/-! ## The schedule, in closed form: which windows the body leaves untouched where -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The output window is idle off the last step, and not written back there; -/
theorem idle_3 : ∀ t : Fin cfg0.N, ¬ t.val % 4 = 3 → cfg0.idle 3 (grid0.coords t) = true :=
  (by decide +kernel : ∀ t : Fin grid0.N, ¬ t.val % 4 = 3 → cfg0.idle 3 (grid0.coords t) = true)
theorem noFlush_3 (t : Fin cfg0.N) (h : ¬ t.val % 4 = 3) : (cfg0.win 3).flush t = false := by
  cases hf : (cfg0.win 3).flush t
  · rfl
  · exact absurd ((flush0_3 t).mp hf) h
/-- and live at the last step. -/
theorem live_3 : ∀ t : Fin cfg0.N, t.val % 4 = 3 → cfg0.idle 3 (grid0.coords t) = false :=
  (by decide +kernel : ∀ t : Fin grid0.N, t.val % 4 = 3 → cfg0.idle 3 (grid0.coords t) = false)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg0.N) :
    (dat V c).leavesExact 0 t = owns (c : Thread nD τ) (st0_0 t) fullShare (iblk V c 0 t) := by
  unfold Dat.leavesExact; rw [live_0 t, after_0]
theorem leaves_1 (c : Dev nD) (t : Fin cfg0.N) :
    (dat V c).leavesExact 1 t = owns (c : Thread nD τ) (st0_1 t) fullShare (iblk V c 1 t) := by
  unfold Dat.leavesExact; rw [live_1 t, after_1]
theorem leaves_2 (c : Dev nD) (t : Fin cfg0.N) :
    (dat V c).leavesExact 2 t = owns (c : Thread nD τ) (st0_2 t) fullShare (iblk V c 2 t) := by
  unfold Dat.leavesExact; rw [live_2 t, after_2]
theorem leaves_3_last (c : Dev nD) (t : Fin cfg0.N) (h : t.val % 4 = 3) :
    (dat V c).leavesExact 3 t = owns (c : Thread nD τ) (st0_3 t) fullShare (outAt V c t) := by
  unfold Dat.leavesExact; rw [live_3 t h, after_3]

set_option maxHeartbeats 4000000 in
/-- The body at any point. The inputs' buffers hold their blocks; the step (the point modulo 4) says which of the
    three runs applies; the invariant hands the body the accumulator at what the point before left (at anything, at a
    first step) and takes it back at this point's contents; off the last step the output window's buffer passes
    through untouched; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2, Phi_castSucc]
  by_cases h0 : t.val % 4 = 0
  · -- a first step
    have h3 : ¬ t.val % 4 = 3 := by omega
    rw [Dat.leavesExact_idle (dat V c) 3 t (idle_3 t h3) (noFlush_3 t h3), acc_first V c t h0]
    iintro ⟨HΦ, Ho, ⟨%d0, H0⟩, ⟨%d1, H1⟩, ⟨%d2, H2⟩, H3⟩
    ihave HΦ' := Phi_any V c _ _ $$ HΦ
    icases HΦ' with ⟨⟨HS, Hoth⟩, Hg⟩
    iapply (run_first c Set.univ (grid0.coords t) _ _ _ _ _ _ _ _ _ _ ((condFirst_iff t).mpr h0) (fun h => h3 ((condLast_iff t).mp h))
      (ablk V c t) (wblk V c t) _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hz : t.val ≠ 0 := fun e => h0 (by rw [e])
    rw [Phi_pos V c _ _ hz, acc_next V c t h0]
    by_cases h3 : t.val % 4 = 3
    · -- a last step
      rw [leaves_3_last V c t h3]
      unfold outAt
      rw [acc_next V c t h0]
      iintro ⟨⟨⟨HS, Hoth⟩, Hg⟩, Ho, ⟨%d0, H0⟩, ⟨%d1, H1⟩, ⟨%d2, H2⟩, ⟨%d3, H3⟩⟩
      iapply (run_last c Set.univ (grid0.coords t) _ _ _ _ _ _ _ _ _ _ (fun h => h0 ((condFirst_iff t).mp h)) ((condLast_iff t).mpr h3)
        (ablk V c t) (wblk V c t) (bblk V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · -- a middle step
      rw [Dat.leavesExact_idle (dat V c) 3 t (idle_3 t h3) (noFlush_3 t h3)]
      iintro ⟨⟨⟨HS, Hoth⟩, Hg⟩, Ho, ⟨%d0, H0⟩, ⟨%d1, H1⟩, ⟨%d2, H2⟩, H3⟩
      iapply (run_mid c Set.univ (grid0.coords t) _ _ _ _ _ _ _ _ _ _ (fun h => h0 ((condFirst_iff t).mp h)) (fun h => h3 ((condLast_iff t).mp h))
        (ablk V c t) (wblk V c t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant's two ends -/

/-- What the region's entry hands the body (the class invariant) is the invariant before the first point. -/
theorem Phi_in (c : Dev nD) : Pipeline.ΦA spec0 c ⊢ (dat V c).Φ 0 := by
  rw [show (dat V c).Φ 0 = Phi V c 0 (Nat.zero_le _) from rfl, Phi_zero V c 0 _ rfl]

/-- After the last point the invariant gives the class invariant back: the accumulator's contents are forgotten. -/
theorem Phi_out (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl, PhiA_eq]
  exact Phi_any V c _ _

end Cert.KernelIdeal.Proj

end
-- ==== Proof.AttnBody.lean ====
/-
  The second pallas_call: causal attention with rectified scores, per head, on a grid (32, 4, 4) — head, query block,
  key block — of 512-row blocks. The body keeps a 512 × 128 accumulator in a scratch buffer across the four key
  blocks of one query block: reset to zero at key block 0; at a key block not after the query block (`ki ≤ qi`) the
  block's scores, scaled, rectified and masked to the causal triangle, are multiplied with the value block and
  added; key blocks wholly above the diagonal are skipped; at key block 3 the accumulator is stored into the
  output window.

  This module states, for any contents `V` of the device's buffers at the region's entry, what the scratch holds
  after each grid point (`acc`, by recursion on the point), what the output window's staging buffer holds after the
  points that store it (`outAt`), the region's invariant (`Phi`), the proof data, and the body obligation: five
  runs of the body, one per way its three conditionals fall on the grid.
-/
import proofs.«113924_j1580547972719_1_alg».proof.Proof.Gen.KernelIdeal.Launch
import proofs.«113924_j1580547972719_1_alg».proof.Proof.Gen.KernelIdeal.Skeleton
import proofs.«113924_j1580547972719_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at their literal types: 512 query rows, 512 key rows, 512 value rows of one head. -/
abbrev qblk (c : Dev nD) (t : Fin cfg1.N) : Vec F S1x512x128 .bf16 := iblk V c 0 t
abbrev kblk (c : Dev nD) (t : Fin cfg1.N) : Vec F S1x512x128 .bf16 := iblk V c 1 t
abbrev vblk (c : Dev nD) (t : Fin cfg1.N) : Vec F S1x512x128 .bf16 := iblk V c 2 t

/-- An input window's staging buffer holds its block at every point, fetched there or not (where it is not fetched
    its block index has not moved): for any proof data whose array is `V`'s and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The three conditions, in closed form over the grid

A point `t` of the grid (32, 4, 4) has key block `t % 4` and query block `(t / 4) % 4`. -/

/-- The condition of the reset, `ki == 0`, as the body computes it. -/
abbrev condFirst (i : grid1.Coords) : BitVec 1 :=
  Scalar.cmpi .ne (Scalar.extui (Scalar.cmpi .eq (BitVec.ofNat 32 (i 2).val) 0#32)) 0#32
/-- The condition of the accumulation, `ki <= qi`, as the body computes it. -/
abbrev condTri (i : grid1.Coords) : BitVec 1 :=
  Scalar.cmpi .ne (Scalar.extui (Scalar.cmpi .sle (BitVec.ofNat 32 (i 2).val) (BitVec.ofNat 32 (i 1).val))) 0#32

theorem condFirst_iff : ∀ t : Fin cfg1.N, condFirst (grid1.coords t) = 1#1 ↔ t.val % 4 = 0 :=
  (by decide +kernel : ∀ t : Fin grid1.N, condFirst (grid1.coords t) = 1#1 ↔ t.val % 4 = 0)
theorem condTri_iff : ∀ t : Fin cfg1.N, condTri (grid1.coords t) = 1#1 ↔ t.val % 4 ≤ (t.val / 4) % 4 :=
  (by decide +kernel : ∀ t : Fin grid1.N, condTri (grid1.coords t) = 1#1 ↔ t.val % 4 ≤ (t.val / 4) % 4)
theorem condLast_iff : ∀ t : Fin cfg1.N, k1_cond3 (grid1.coords t) = 1#1 ↔ t.val % 4 = 3 :=
  (by decide +kernel : ∀ t : Fin grid1.N, k1_cond3 (grid1.coords t) = 1#1 ↔ t.val % 4 = 3)

/-! ## What the scratch and the output window hold -/

/-- One point's step on the accumulator: at a key block not after the query block the block's contribution added
    to `s`; at a key block above the diagonal nothing. -/
def step (c : Dev nD) (t : Fin cfg1.N) (s : Vec F S512x128 .f32) : Vec F S512x128 .f32 :=
  if t.val % 4 ≤ (t.val / 4) % 4 then k1_pay2 (grid1.coords t) (qblk V c t) (kblk V c t) (vblk V c t) s else s

/-- The scratch accumulator after the body at point `n`: the point's step from the zero block at key block 0,
    from what the point before left otherwise. -/
def acc (c : Dev nD) : (n : ℕ) → n < cfg1.N → Vec F S512x128 .f32
  | 0, h => step V c ⟨0, h⟩ (k1_pay1 (F := F))
  | n + 1, h =>
    if (n + 1) % 4 = 0 then step V c ⟨n + 1, h⟩ (k1_pay1 (F := F))
    else step V c ⟨n + 1, h⟩ (acc c n (Nat.lt_of_succ_lt h))

theorem acc_first (c : Dev nD) (t : Fin cfg1.N) (h : t.val % 4 = 0) :
    acc V c t.val t.isLt = step V c t (k1_pay1 (F := F)) := by
  obtain ⟨n, hn⟩ := t
  cases n with
  | zero => rfl
  | succ n => exact if_pos h

theorem acc_next (c : Dev nD) (t : Fin cfg1.N) (h : ¬ t.val % 4 = 0) :
    acc V c t.val t.isLt = step V c t (acc V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at key block 3: the accumulator, as a 1 × 512 × 128
    block. (At the other points the window is idle and this is not consulted.) -/
def outAt (c : Dev nD) (t : Fin cfg1.N) : Vec F S1x512x128 .f32 :=
  k1_pay3 (acc V c t.val t.isLt)

/-! ## The invariant -/

/-- The kernel's scratch accumulator, whole. -/
abbrev scr : Memref sig .tc .vmem S512x128 .f32 := Memref.whole cc1_scratch0

/-- Every scoped buffer that is neither a staging buffer of this call nor its accumulator, at some contents. -/
abbrev others (c : Dev nD) : sProp 𝕄 :=
  Pipeline.scopedRestBut (Ix := Unit) (Name := ℕ) (U := UR sig nD τ) (Lvl := ℕ) (Val := Elt F) spec1 c [cc1_scratch0]

/-- The class invariant split at the accumulator. -/
theorem PhiA_eq (c : Dev nD) :
    (Pipeline.ΦA spec1 c : sProp 𝕄)
      = iprop(iprop((∃ d, owns (c : Thread nD τ) scr fullShare d) ∗ others (F := F) c) ∗ (∃ r, prngReg c r)) := by
  unfold Pipeline.ΦA
  rw [Pipeline.scopedRest_split_of_list spec1 c [cc1_scratch0] (by decide) (by decide)]
  simp only [scr, owns_whole]; try rfl

/-- The region's invariant before position `n`: before the first point the class's (the accumulator at anything);
    afterwards the accumulator at what the point before left in it, the other scoped buffers at anything, the generator
    register at some state. -/
def Phi (c : Dev nD) : (n : ℕ) → n ≤ cfg1.N → sProp 𝕄
  | 0, _ => Pipeline.ΦA spec1 c
  | n + 1, hn => iprop(iprop(owns (c : Thread nD τ) scr fullShare (acc V c n hn) ∗ others (F := F) c) ∗ (∃ r, prngReg c r))

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = iprop(iprop(owns (c : Thread nD τ) scr fullShare (acc V c n hn) ∗ others (F := F) c) ∗ (∃ r, prngReg c r)) := rfl
theorem Phi_pos (c : Dev nD) (n : ℕ) (h : n ≤ cfg1.N) (hz : n ≠ 0) :
    Phi V c n h = iprop(iprop(owns (c : Thread nD τ) scr fullShare (acc V c (n - 1) (by omega)) ∗ others (F := F) c) ∗ (∃ r, prngReg c r)) := by
  cases n with
  | zero => exact absurd rfl hz
  | succ n => rfl

/-- Whatever the position, the invariant holds the accumulator at SOME contents. -/
theorem Phi_any (c : Dev nD) (n : ℕ) (h : n ≤ cfg1.N) :
    Phi V c n h ⊢ iprop(iprop((∃ d, owns (c : Thread nD τ) scr fullShare d) ∗ others (F := F) c) ∗ (∃ r, prngReg c r)) := by
  by_cases hz : n = 0
  · rw [Phi_zero V c n h hz, PhiA_eq]
  · rw [Phi_pos V c n h hz]
    iintro ⟨⟨HS, Ho⟩, Hg⟩
    isplitl [HS Ho]
    · isplitl [HS]
      · iexists _; iexact HS
      iexact Ho
    iexact Hg

/-! ## The pipeline's proof data -/

/-- The proof data of the attention's pipeline on core `c`: the arrays as the region finds them; after the body
    each input's buffer at its block and the output's at `outAt`; the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = Phi V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]
theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d

/-! ## The body, once per way its conditionals fall

The body has three conditionals: the reset at key block 0, the accumulation at a key block not after the query
block, the store at key block 3. On the grid they fall five ways. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The whole accumulator, and a whole window buffer, as the rectangles the body loads and stores through. -/
abbrev rAcc : Rect S512x128 := Rect.unit (s := S512x128) ![0, 0] S512x128.size inb_S512x128_S512x128_0_0
abbrev rWin : Rect S1x512x128 := Rect.unit (s := S1x512x128) ![0, 0, 0] S1x512x128.size inb_S1x512x128_S1x512x128_0_0_0

/-- One store of the whole 512 × 128 rectangle covers the accumulator. -/
theorem cover1 {e : EltTy} (p : Vec F S512x128 e) (y : S512x128.Idx) :
    ∃ pc ∈ ([⟨rAcc, p⟩] : List (View.Piece (Elt F) S512x128 e)), y ∈ pc.1.set :=
  ⟨_, List.mem_singleton_self _, View.mem_set_unit_zero hz2 inb_S512x128_S512x128_0_0 y⟩

/-- Of two stores of the whole rectangle the later one already covers it. -/
theorem cover2 {e : EltTy} (p q : Vec F S512x128 e) (y : S512x128.Idx) :
    ∃ pc ∈ ([⟨rAcc, p⟩, ⟨rAcc, q⟩] : List (View.Piece (Elt F) S512x128 e)), y ∈ pc.1.set :=
  ⟨_, List.mem_cons_self .., View.mem_set_unit_zero hz2 inb_S512x128_S512x128_0_0 y⟩

/-- One store of the whole 1 × 512 × 128 rectangle covers a window's buffer. -/
theorem coverW {e : EltTy} (p : Vec F S1x512x128 e) (y : S1x512x128.Idx) :
    ∃ pc ∈ ([⟨rWin, p⟩] : List (View.Piece (Elt F) S1x512x128 e)), y ∈ pc.1.set :=
  ⟨_, List.mem_singleton_self _, View.mem_set_unit_zero hz3 inb_S1x512x128_S1x512x128_0_0_0 y⟩

set_option maxHeartbeats 1000000 in
/-- Key block 0 (it is never after the query block, and never the last): the accumulator, holding anything, is reset
    to zero and ends holding zero plus the block's contribution. -/
theorem run_first (c : Dev nD) (E : Set ℕ) (i : grid1.Coords)
    (arg3 : Memref sig .tc .vmem S1x512x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x512x128 .f32) (harg6 : arg6.IsWhole)
    (arg7 : Memref sig .tc .vmem S512x128 .f32) (harg7 : arg7.IsWhole)
    (hfirst : condFirst i = 1#1) (htri : condTri i = 1#1) (hlast : ¬ k1_cond3 i = 1#1)
    (q k v : Vec F S1x512x128 .bf16) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg7 fullShare d)
        ∗ (iprop(owns (c : Thread nD τ) arg3 fullShare q ∗ owns (c : Thread nD τ) arg4 fullShare k ∗ owns (c : Thread nD τ) arg5 fullShare v
            ∗ owns (c : Thread nD τ) arg7 fullShare (k1_pay2 i q k v (k1_pay1 (F := F)))) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%d7, %f7, -, H7⟩, Hk⟩
  obtain rfl := harg3.eq_unread hf3; obtain rfl := harg4.eq_unread hf4; obtain rfl := harg5.eq_unread hf5
  sl_exec (disch := first | sl_exact hfirst | sl_exact htri | sl_exact hlast)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H7
  ipureintro
  sl_unfold_words
  rw [View.read_writes_eq_canon _ _ _ (cover2 _ _)]
  rw [View.canon_cons_unit_zero (S := S512x128) hz2, View.readCov_unit_zero (S := S512x128) _ hz2]
  simp only [View.readAt_eq_ld, harg3.read_unread, harg4.read_unread, harg5.read_unread,
    View.ld_unit_zero (S := S1x512x128) hz3, View.ld_unit_zero (S := S512x128) hz2]

set_option maxHeartbeats 1000000 in
/-- A MIDDLE key block (neither 0 nor 3) not after the query block: the accumulator, holding `s`, ends holding `s`
    plus the block's contribution; nothing else is touched. -/
theorem run_mid_acc (c : Dev nD) (E : Set ℕ) (i : grid1.Coords)
    (arg3 : Memref sig .tc .vmem S1x512x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x512x128 .f32) (harg6 : arg6.IsWhole)
    (arg7 : Memref sig .tc .vmem S512x128 .f32) (harg7 : arg7.IsWhole)
    (hfirst : ¬ condFirst i = 1#1) (htri : condTri i = 1#1) (hlast : ¬ k1_cond3 i = 1#1)
    (q k v : Vec F S1x512x128 .bf16) (s : Vec F S512x128 .f32) (K : PUnit → sProp 𝕄) :
    iprop(owns (c : Thread nD τ) arg3 fullShare q ∗ owns (c : Thread nD τ) arg4 fullShare k ∗ owns (c : Thread nD τ) arg5 fullShare v
        ∗ owns (c : Thread nD τ) arg7 fullShare s
        ∗ (iprop(owns (c : Thread nD τ) arg3 fullShare q ∗ owns (c : Thread nD τ) arg4 fullShare k ∗ owns (c : Thread nD τ) arg5 fullShare v
            ∗ owns (c : Thread nD τ) arg7 fullShare (k1_pay2 i q k v s)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%f7, %hf7, H7⟩, Hk⟩
  obtain rfl := harg3.eq_unread hf3; obtain rfl := harg4.eq_unread hf4; obtain rfl := harg5.eq_unread hf5
  obtain rfl := harg7.eq_unread hf7
  sl_exec (disch := first | sl_exact hfirst | sl_exact htri | sl_exact hlast)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H7
  ipureintro
  sl_unfold_words
  rw [View.read_writes_eq_canon _ _ _ (cover1 _), View.canon_unit_zero hz2]
  simp only [View.readAt_eq_ld, harg3.read_unread, harg4.read_unread, harg5.read_unread, harg7.read_unread,
    View.ld_unit_zero (S := S1x512x128) hz3, View.ld_unit_zero (S := S512x128) hz2]

set_option maxHeartbeats 1000000 in
/-- A MIDDLE key block after the query block: the body runs through three untaken branches and touches nothing. -/
theorem run_mid_skip (c : Dev nD) (E : Set ℕ) (i : grid1.Coords)
    (arg3 : Memref sig .tc .vmem S1x512x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x512x128 .f32) (harg6 : arg6.IsWhole)
    (arg7 : Memref sig .tc .vmem S512x128 .f32) (harg7 : arg7.IsWhole)
    (hfirst : ¬ condFirst i = 1#1) (htri : ¬ condTri i = 1#1) (hlast : ¬ k1_cond3 i = 1#1)
    (K : PUnit → sProp 𝕄) :
    K ⟨⟩ ⊢ wp frame (wpE (defs₀ (F := F)) Variants.none c none) E (cc1_kernel i arg3 harg3 arg4 harg4 arg5 harg5 arg6 harg6 arg7 harg7) K := by
  simp only [cc1_kernel_eq_skeleton]; unfold cc1_kernel_skel
  iintro Hk
  sl_exec (disch := first | sl_exact hfirst | sl_exact htri | sl_exact hlast)
  sl_step
  iexact Hk

set_option maxHeartbeats 1000000 in
/-- Key block 3 at query block 3: the accumulator, holding `s`, ends holding `s` plus the block's contribution, and
    the output window's buffer, holding anything, ends holding that sum as a 1 × 512 × 128 block. -/
theorem run_last_acc (c : Dev nD) (E : Set ℕ) (i : grid1.Coords)
    (arg3 : Memref sig .tc .vmem S1x512x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x512x128 .f32) (harg6 : arg6.IsWhole)
    (arg7 : Memref sig .tc .vmem S512x128 .f32) (harg7 : arg7.IsWhole)
    (hfirst : ¬ condFirst i = 1#1) (htri : condTri i = 1#1) (hlast : k1_cond3 i = 1#1)
    (q k v : Vec F S1x512x128 .bf16) (s : Vec F S512x128 .f32) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d) ∗ owns (c : Thread nD τ) arg7 fullShare s
        ∗ (iprop(owns (c : Thread nD τ) arg3 fullShare q ∗ owns (c : Thread nD τ) arg4 fullShare k ∗ owns (c : Thread nD τ) arg5 fullShare v
            ∗ owns (c : Thread nD τ) arg6 fullShare (k1_pay3 (k1_pay2 i q k v s))
            ∗ owns (c : Thread nD τ) arg7 fullShare (k1_pay2 i q k v s)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | sl_exact hfirst | sl_exact htri | sl_exact hlast)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (coverW _), View.canon_unit_zero hz3]
    simp only [View.readAt_eq_ld, harg3.read_unread, harg4.read_unread, harg5.read_unread, harg7.read_unread,
      View.ld_unit_zero (S := S1x512x128) hz3, View.ld_unit_zero (S := S512x128) hz2,
      View.readCov_unit_zero (S := S512x128) _ hz2]
  iexists _; isplitr
  swap; · iexact H7
  ipureintro
  sl_unfold_words
  rw [View.read_writes_eq_canon _ _ _ (cover1 _), View.canon_unit_zero hz2]
  simp only [View.readAt_eq_ld, harg3.read_unread, harg4.read_unread, harg5.read_unread, harg7.read_unread,
    View.ld_unit_zero (S := S1x512x128) hz3, View.ld_unit_zero (S := S512x128) hz2]

set_option maxHeartbeats 1000000 in
/-- Key block 3 at a query block before it: the accumulation is skipped, the accumulator keeps `s`, and the output
    window's buffer, holding anything, ends holding `s` as a 1 × 512 × 128 block. -/
theorem run_last_skip (c : Dev nD) (E : Set ℕ) (i : grid1.Coords)
    (arg3 : Memref sig .tc .vmem S1x512x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x512x128 .f32) (harg6 : arg6.IsWhole)
    (arg7 : Memref sig .tc .vmem S512x128 .f32) (harg7 : arg7.IsWhole)
    (hfirst : ¬ condFirst i = 1#1) (htri : ¬ condTri i = 1#1) (hlast : k1_cond3 i = 1#1)
    (s : Vec F S512x128 .f32) (K : PUnit → sProp 𝕄) :
    iprop((∃ d, owns (c : Thread nD τ) arg6 fullShare d) ∗ owns (c : Thread nD τ) arg7 fullShare s
        ∗ (iprop(owns (c : Thread nD τ) arg6 fullShare (k1_pay3 s) ∗ owns (c : Thread nD τ) arg7 fullShare s) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%d6, %f6, -, H6⟩, ⟨%f7, %hf7, H7⟩, Hk⟩
  obtain rfl := harg7.eq_unread hf7
  sl_exec (disch := first | sl_exact hfirst | sl_exact htri | sl_exact hlast)
  sl_step
  iapply Hk
  isplitl [H6]
  · iexists _; isplitr
    swap; · iexact H6
    ipureintro
    sl_unfold_words
    rw [View.read_writes_eq_canon _ _ _ (coverW _), View.canon_unit_zero hz3]
    simp only [View.readAt_eq_ld, harg7.read_unread, View.ld_unit_zero (S := S512x128) hz2]
  iexists _; isplitr; · ipureintro; exact harg7.read_unread _
  iexact H7

/-! ## The schedule, in closed form: which windows the body leaves untouched where -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- The output window is idle off key block 3, and not written back there; -/
theorem idle_3 : ∀ t : Fin cfg1.N, ¬ t.val % 4 = 3 → cfg1.idle 3 (grid1.coords t) = true :=
  (by decide +kernel : ∀ t : Fin grid1.N, ¬ t.val % 4 = 3 → cfg1.idle 3 (grid1.coords t) = true)
theorem noFlush_3 (t : Fin cfg1.N) (h : ¬ t.val % 4 = 3) : (cfg1.win 3).flush t = false := by
  cases hf : (cfg1.win 3).flush t
  · rfl
  · exact absurd ((flush1_3 t).mp hf) h
/-- and live at key block 3. -/
theorem live_3 : ∀ t : Fin cfg1.N, t.val % 4 = 3 → cfg1.idle 3 (grid1.coords t) = false :=
  (by decide +kernel : ∀ t : Fin grid1.N, t.val % 4 = 3 → cfg1.idle 3 (grid1.coords t) = false)

/-! ## The body obligation, at a generic point -/

/-- One point's step, at a key block not after the query block and at one after it. -/
theorem step_pos (c : Dev nD) (t : Fin cfg1.N) (s : Vec F S512x128 .f32) (h : t.val % 4 ≤ (t.val / 4) % 4) :
    step V c t s = k1_pay2 (grid1.coords t) (qblk V c t) (kblk V c t) (vblk V c t) s := if_pos h
theorem step_neg (c : Dev nD) (t : Fin cfg1.N) (s : Vec F S512x128 .f32) (h : ¬ t.val % 4 ≤ (t.val / 4) % 4) :
    step V c t s = s := if_neg h

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg1.N) :
    (dat V c).leavesExact 0 t = owns (c : Thread nD τ) (st1_0 t) fullShare (iblk V c 0 t) := by
  unfold Dat.leavesExact; rw [live_0 t, after_0]
theorem leaves_1 (c : Dev nD) (t : Fin cfg1.N) :
    (dat V c).leavesExact 1 t = owns (c : Thread nD τ) (st1_1 t) fullShare (iblk V c 1 t) := by
  unfold Dat.leavesExact; rw [live_1 t, after_1]
theorem leaves_2 (c : Dev nD) (t : Fin cfg1.N) :
    (dat V c).leavesExact 2 t = owns (c : Thread nD τ) (st1_2 t) fullShare (iblk V c 2 t) := by
  unfold Dat.leavesExact; rw [live_2 t, after_2]
theorem leaves_3_last (c : Dev nD) (t : Fin cfg1.N) (h : t.val % 4 = 3) :
    (dat V c).leavesExact 3 t = owns (c : Thread nD τ) (st1_3 t) fullShare (outAt V c t) := by
  unfold Dat.leavesExact; rw [live_3 t h, after_3]

set_option maxHeartbeats 4000000 in
/-- The body at any point. The inputs' buffers hold their blocks; the key block (the point modulo 4) and whether it
    is after the query block say which of the five runs applies; the invariant hands the body the accumulator at what
    the point before left (at anything, at key block 0) and takes it back at this point's contents; off key block 3
    the output window's buffer passes through untouched; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2, Phi_castSucc]
  by_cases h0 : t.val % 4 = 0
  · -- key block 0: never after the query block
    have h3 : ¬ t.val % 4 = 3 := by omega
    have hle : t.val % 4 ≤ (t.val / 4) % 4 := by omega
    rw [Dat.leavesExact_idle (dat V c) 3 t (idle_3 t h3) (noFlush_3 t h3), acc_first V c t h0, step_pos V c t _ hle]
    iintro ⟨HΦ, Ho, ⟨%d0, H0⟩, ⟨%d1, H1⟩, ⟨%d2, H2⟩, H3⟩
    ihave HΦ' := Phi_any V c _ _ $$ HΦ
    icases HΦ' with ⟨⟨HS, Hoth⟩, Hg⟩
    iapply (run_first c Set.univ (grid1.coords t) _ _ _ _ _ _ _ _ _ _ ((condFirst_iff t).mpr h0) ((condTri_iff t).mpr hle)
      (fun h => h3 ((condLast_iff t).mp h)) (qblk V c t) (kblk V c t) (vblk V c t) _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hz : t.val ≠ 0 := fun e => h0 (by rw [e])
    rw [Phi_pos V c _ _ hz, acc_next V c t h0]
    by_cases h3 : t.val % 4 = 3
    · rw [leaves_3_last V c t h3]
      unfold outAt
      rw [acc_next V c t h0]
      by_cases hle : t.val % 4 ≤ (t.val / 4) % 4
      · -- key block 3 at query block 3
        rw [step_pos V c t _ hle]
        iintro ⟨⟨⟨HS, Hoth⟩, Hg⟩, Ho, ⟨%d0, H0⟩, ⟨%d1, H1⟩, ⟨%d2, H2⟩, ⟨%d3, H3⟩⟩
        iapply (run_last_acc c Set.univ (grid1.coords t) _ _ _ _ _ _ _ _ _ _ (fun h => h0 ((condFirst_iff t).mp h)) ((condTri_iff t).mpr hle)
          ((condLast_iff t).mpr h3) (qblk V c t) (kblk V c t) (vblk V c t) _ _)
        isplitl [H0]; · iexact H0
        isplitl [H1]; · iexact H1
        isplitl [H2]; · iexact H2
        isplitl [H3]; · iexists _; iexact H3
        isplitl [HS]; · iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
      · -- key block 3 at an earlier query block
        rw [step_neg V c t _ hle]
        iintro ⟨⟨⟨HS, Hoth⟩, Hg⟩, Ho, ⟨%d0, H0⟩, ⟨%d1, H1⟩, ⟨%d2, H2⟩, ⟨%d3, H3⟩⟩
        iapply (run_last_skip c Set.univ (grid1.coords t) _ _ _ _ _ _ _ _ _ _ (fun h => h0 ((condFirst_iff t).mp h))
          (fun h => hle ((condTri_iff t).mp h)) ((condLast_iff t).mpr h3) _ _)
        isplitl [H3]; · iexists _; iexact H3
        isplitl [HS]; · iexact HS
        iintro ⟨H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
    · rw [Dat.leavesExact_idle (dat V c) 3 t (idle_3 t h3) (noFlush_3 t h3)]
      by_cases hle : t.val % 4 ≤ (t.val / 4) % 4
      · -- a middle key block, accumulating
        rw [step_pos V c t _ hle]
        iintro ⟨⟨⟨HS, Hoth⟩, Hg⟩, Ho, ⟨%d0, H0⟩, ⟨%d1, H1⟩, ⟨%d2, H2⟩, H3⟩
        iapply (run_mid_acc c Set.univ (grid1.coords t) _ _ _ _ _ _ _ _ _ _ (fun h => h0 ((condFirst_iff t).mp h)) ((condTri_iff t).mpr hle)
          (fun h => h3 ((condLast_iff t).mp h)) (qblk V c t) (kblk V c t) (vblk V c t) _ _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
      · -- a middle key block, skipped
        rw [step_neg V c t _ hle]
        iintro ⟨⟨⟨HS, Hoth⟩, Hg⟩, Ho, ⟨%d0, H0⟩, ⟨%d1, H1⟩, ⟨%d2, H2⟩, H3⟩
        iapply (run_mid_skip c Set.univ (grid1.coords t) _ _ _ _ _ _ _ _ _ _ (fun h => h0 ((condFirst_iff t).mp h))
          (fun h => hle ((condTri_iff t).mp h)) (fun h => h3 ((condLast_iff t).mp h)) _)
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant's two ends -/

/-- What the region's entry hands the body (the class invariant) is the invariant before the first point. -/
theorem Phi_in (c : Dev nD) : Pipeline.ΦA spec1 c ⊢ (dat V c).Φ 0 := by
  rw [show (dat V c).Φ 0 = Phi V c 0 (Nat.zero_le _) from rfl, Phi_zero V c 0 _ rfl]

/-- After the last point the invariant gives the class invariant back: the accumulator's contents are forgotten. -/
theorem Phi_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl, PhiA_eq]
  exact Phi_any V c _ _

end Cert.KernelIdeal.Attn

end
-- ==== Proof.Run.lean ====
/-
  The run of @main: three stretches of host operations around the two pallas_calls. The buffers' contents at each
  boundary are a fold from the launch memory — a host stretch applies its operations (`StableHlo.after`), a
  pallas_call leaves its arrays at what its write-backs leave (`Dat.arrAt … N`) and every other buffer as it was —,
  each pallas_call is entered with its proof data at the contents the fold gives at its entry, and every weakly fair
  execution terminates with every unscoped buffer at the fold's last stage. The frame claim reads the three arguments
  off that stage (no item writes one); a value claim reads the result.
-/
import proofs.«113924_j1580547972719_1_alg».proof.Proof.ProjBody
import proofs.«113924_j1580547972719_1_alg».proof.Proof.AttnBody
import proofs.«113924_j1580547972719_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention's exit. -/
def W4 (c : Dev nD) : Valuation τ sig (Elt F) :=
  Pipeline.withArrays spec1 c (W3 m ρ c) fun w => (Attn.dat (V3 m ρ) c).arrAt w cfg1.N
theorem W4_arr (c : Dev nD) (w : Fin cfg1.W) :
    W4 m ρ c (Proc.devRef .tc (Pipeline.arrRef spec1 w)) = (Attn.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Attn.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: what the program returns with. -/
abbrev W5 : Dev nD → Valuation τ sig (Elt F) := fun c => StableHlo.after hostOps2 (W4 m ρ c)

/-! ### The arguments end as launched -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

/-- A buffer no host stretch writes and no pallas_call has a window on ends as launched. -/
theorem W5_untouched (c : Dev nD) (r : Ref sig .tc) (h0 : r ∉ hostOps0_W) (h1 : r ∉ hostOps1_W) (h2 : r ∉ hostOps2_W)
    (ha : ∀ w, Pipeline.arrRef spec0 w ≠ r) (hb : ∀ w, Pipeline.arrRef spec1 w ≠ r) :
    W5 m ρ c r = m ((c : Thread nD τ).loc r) :=
  (W5_of m ρ c r h2).trans <| (W4_of_ne m ρ c r hb).trans <| (W3_of m ρ c r h1).trans <| (W2_of_ne m ρ c r ha).trans <|
    (W1_of m ρ c r h0).trans rfl

theorem W5_main_arg0 (c : Dev nD) : W5 m ρ c main_arg0 = m ((c : Thread nD τ).loc main_arg0) :=
  W5_untouched m ρ c main_arg0 (by decide) (by decide) (by decide) (by decide) (by decide)
theorem W5_main_arg1 (c : Dev nD) : W5 m ρ c main_arg1 = m ((c : Thread nD τ).loc main_arg1) :=
  W5_untouched m ρ c main_arg1 (by decide) (by decide) (by decide) (by decide) (by decide)
theorem W5_main_arg2 (c : Dev nD) : W5 m ρ c main_arg2 = m ((c : Thread nD τ).loc main_arg2) :=
  W5_untouched m ρ c main_arg2 (by decide) (by decide) (by decide) (by decide) (by decide)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The pallas_calls as segments -/

set_option backward.isDefEq.respectTransparency.types false in
/-- The projection over the thread state: entered from every unscoped buffer at `W1`, left at `W2`. Its arrays are
    split out of the unscoped buffers and put back at the exit contents; the generator register and the scoped rest go
    into the invariant (the accumulator tracked inside it) and come back; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Proj.Phi_in (V1 m ρ) c)
    unfold Pipeline.ΦA
    iintro ⟨Hp, -, Hr⟩
    isplitl [Hr]; · iexact Hr
    iexact Hp
  hout c := by
    rw [Pipeline.ownSems0_none]
    refine (Proj.Phi_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Attn.Phi_in (V3 m ρ) c)
    unfold Pipeline.ΦA
    iintro ⟨Hp, -, Hr⟩
    isplitl [Hr]; · iexact Hr
    iexact Hp
  hout c := by
    rw [Pipeline.ownSems0_none]
    refine (Attn.Phi_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the fold's last stage `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution of @main terminates, nothing faulting, the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Run

end
-- ==== Proof.Spec.lean ====
/-
  What the two pallas_calls compute, as functions of the arrays they are handed, at the ideal instance (a float an
  extended real, every operation exact, a change of format the identity):

    proj a w b [r, n]      = (Σ_k a[r, k] · w[n, k]) + b[0, n]                       -- the fused q/k/v projection
    score q k [g, t, s]    = max ((Σ_d q[g, t, d] · k[g, s, d]) · scale, 0)  if s ≤ t,  else 0
    attn q k v [g, t, d]   = Σ_s score q k [g, t, s] · v[g, s, d]                    -- causal attention, ReLU scores

  with `scale` the one f32 word both programs print (0x3DB504F3). Nothing here mentions a program's run.
-/
import proofs.«113924_j1580547972719_1_alg».proof.KernelIdeal
import Idealize.ShloMosaic.PureOps.Ideal
import Idealize.ShloMosaic.Lib.ValueIdx

noncomputable section

open scoped BigOperators

namespace Cert.KernelIdeal.Spec

open Idealize.ShloMosaic Idealize.ShloMosaic.ValueIdx Cert.KernelIdeal

/-- The scale both programs multiply the scores by: the f32 word they both print, never evaluated. -/
abbrev scale : EReal := Ideal.ofBits .f32 0x3DB504F3#32

/-- The projection: each row of `a` against each row of `w`, plus the bias row. -/
def proj (a : Vec Ideal S4096x2048 .bf16) (w : Vec Ideal S6144x2048 .bf16) (b : Vec Ideal S1x6144 .f32) :
    Vec Ideal S4096x6144 .bf16 :=
  fun j => (∑ k : Fin 2048, a (ix2 (j 0) k) * w (ix2 (j 1) k)) + b (ix2 (0 : Fin 1) (j 1))

/-- The rectified, causally masked score of query row `t` against key row `s` in head `g`. -/
def score (q k : Vec Ideal S32x2048x128 .bf16) (g : Fin 32) (t s : Fin 2048) : EReal :=
  if s.val ≤ t.val then max ((∑ d : Fin 128, q (ix3 g t d) * k (ix3 g s d)) * scale) 0 else 0

/-- Causal attention with ReLU scores, per head: the scores against the value rows. -/
def attn (q k v : Vec Ideal S32x2048x128 .bf16) : Vec Ideal S32x2048x128 .f32 :=
  fun j => ∑ s : Fin 2048, score q k (j 0) (j 1) s * v (ix3 (j 0) s (j 2))

end Cert.KernelIdeal.Spec

end
-- ==== Proof.ProjValue.lean ====
/-
  The first pallas_call read as a value, at the ideal instance: after the region the output array holds, at row r
  and column n, the sum over all 2048 contraction indices of a[r, k] · w[n, k], plus the bias b[0, n]. The body's
  accumulator after the four steps of a block is 0 + the four block products in order; over the extended reals that
  ordered sum is the one sum over the contraction axis cut in four (addition there is commutative and associative:
  no finiteness is needed), the block read through a window is the array at the block's offset, and the twelve by
  eight output blocks, each written back at its fourth step, tile the array.
-/
import proofs.«113924_j1580547972719_1_alg».proof.Proof.ProjBody
import proofs.«113924_j1580547972719_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Data.Fintype.BigOperators
import Mathlib.Logic.Equiv.Fin.Basic

set_option maxRecDepth 16384

noncomputable section

open scoped BigOperators

namespace Cert.KernelIdeal.ProjValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three arrays the projection reads, as the region finds them, at their literal vector types. -/
abbrev arrA (c : Dev nD) : Vec Ideal S4096x2048 .bf16 := V c main_v1
abbrev arrW (c : Dev nD) : Vec Ideal S6144x2048 .bf16 := V c main_v2
abbrev arrB (c : Dev nD) : Vec Ideal S1x6144 .f32 := V c main_v3

/-! ## The three payloads at an element -/

/-- The zero block at an element. -/
theorem pay1_apply (p q : Fin 512) : (k0_pay1 (F := Ideal)) (ix2 p q) = 0 := by
  unfold k0_pay1
  rw [shapeCast_self]
  show Ideal.ofBits .f32 0x00000000#32 = 0
  exact Ideal.ofBits_zero_f32

/-- The bias step at an element. -/
theorem pay3_apply (s : Vec Ideal S512x512 .f32) (b : Vec Ideal S1x512 .f32) (p q : Fin 512) :
    k0_pay3 s b (ix2 p q) = s (ix2 p q) + b (ix2 (0 : Fin 1) q) := by
  unfold k0_pay3
  rw [shapeCast_self]
  show s (ix2 p q) + broadcastTo S512x512 b broadcasts_S1x512_S512x512 (ix2 p q) = _
  rw [broadcastTo_apply b broadcasts_S1x512_S512x512 (ix2 p q) (ix2 (0 : Fin 1) q) (fun a => match a with
    | ⟨0, _⟩ => by show (0 : Nat) = if (1 : Nat) = 1 then 0 else _; rw [if_pos rfl]
    | ⟨1, _⟩ => by show q.val = if (512 : Nat) = 1 then 0 else q.val; rw [if_neg (by decide)])]

/-- The block product's dimension numbers: axis 1 of both operands contracted, so the output's row indexes the left
    operand's rows and its column the right operand's rows. The four axis facts, one per operand axis. -/
abbrev D512 := dot_S512x512_S512x512_S512x512_1_1_0_0_n_n

theorem lhs_0 (i : S512x512.Idx) (k : D512.contr.Idx) : (D512.lhsIdx i k 0).val = (i 0).val := by
  unfold DotDims.lhsIdx
  rw [dif_neg (show ¬(0 : Fin S512x512.rank) ∈ D512.lhsBatch by decide), dif_pos (show (0 : Fin S512x512.rank) ∈ D512.lhsNonContracting by decide)]
  rfl
theorem lhs_1 (i : S512x512.Idx) (k : D512.contr.Idx) : (D512.lhsIdx i k 1).val = (k ⟨0, by decide⟩).val :=
  D512.lhsIdx_val_of_single rfl i k
theorem rhs_0 (i : S512x512.Idx) (k : D512.contr.Idx) : (D512.rhsIdx i k 0).val = (i 1).val := by
  unfold DotDims.rhsIdx
  rw [dif_neg (show ¬(0 : Fin S512x512.rank) ∈ D512.rhsBatch by decide), dif_pos (show (0 : Fin S512x512.rank) ∈ D512.rhsNonContracting by decide)]
  rfl
theorem rhs_1 (i : S512x512.Idx) (k : D512.contr.Idx) : (D512.rhsIdx i k 1).val = (k ⟨0, by decide⟩).val :=
  D512.rhsIdx_val_of_single rfl i k

/-- The accumulation step at an element: what was there plus the block product's entry, a sum over the block's
    512 contraction indices of the left block's row against the right block's row. -/
theorem pay2_apply (s : Vec Ideal S512x512 .f32) (a w : Vec Ideal S512x512 .bf16) (p q : Fin 512) :
    k0_pay2 s a w (ix2 p q) = s (ix2 p q) + ∑ kk : Fin 512, a (ix2 p kk) * w (ix2 q kk) := by
  unfold k0_pay2
  rw [shapeCast_self, shapeCast_self, shapeCast_self]
  show s (ix2 p q) + matmul (F := Ideal) D512 none a w (constant (F := Ideal) S512x512 .f32 0x00000000#32) (ix2 p q) = _
  simp only [matmul]
  rw [Ideal.matmul_constant_zero_apply, ← Equiv.sum_comp (contrEquiv1 D512 512 rfl rfl).symm]
  congr 1
  refine Finset.sum_congr rfl fun kk _ => ?_
  have hk := contrEquiv1_symm_val D512 512 rfl rfl kk
  have el : D512.lhsIdx (ix2 p q) ((contrEquiv1 D512 512 rfl rfl).symm kk) = ix2 p kk := funext fun x => Fin.ext (by
    match x with
    | ⟨0, _⟩ => exact lhs_0 _ _
    | ⟨1, _⟩ => exact (lhs_1 _ _).trans hk)
  have er : D512.rhsIdx (ix2 p q) ((contrEquiv1 D512 512 rfl rfl).symm kk) = ix2 q kk := funext fun x => Fin.ext (by
    match x with
    | ⟨0, _⟩ => exact rhs_0 _ _
    | ⟨1, _⟩ => exact (rhs_1 _ _).trans hk)
  rw [el, er]

/-! ## A block read through its window is the array at the block's offsets -/

/-- The printed index maps over the grid (8, 12, 4): a point t has row block t / 48, column block (t / 4) % 12 and
    contraction block t % 4. -/
theorem idx_facts : ∀ t : Fin cfg0.N,
    win0_0.index t (0 : Fin 2) = t.val / 48 ∧ win0_0.index t (1 : Fin 2) = t.val % 4
    ∧ win0_1.index t (0 : Fin 2) = t.val / 4 % 12 ∧ win0_1.index t (1 : Fin 2) = t.val % 4
    ∧ win0_2.index t (0 : Fin 2) = 0 ∧ win0_2.index t (1 : Fin 2) = t.val / 4 % 12
    ∧ win0_3.index t (0 : Fin 2) = t.val / 48 ∧ win0_3.index t (1 : Fin 2) = t.val / 4 % 12 :=
  (by decide +kernel : ∀ t : Fin grid0.N, _)

/-- The left operand's block at a point is the array at the block's offsets. -/
theorem ablk_apply (c : Dev nD) (t : Fin cfg0.N) (p kk : Fin 512) (r : Fin 4096) (K : Fin 2048)
    (hr : r.val = t.val / 48 * 512 + p.val) (hK : K.val = t.val % 4 * 512 + kk.val) :
    Proj.ablk V c t (ix2 p kk) = arrA V c (ix2 r K) := by
  obtain ⟨e0, e1, -⟩ := idx_facts t
  unfold Proj.ablk Proj.iblk
  rw [View.read_apply]
  show arrA V c _ = _
  congr 1
  funext x; apply Fin.ext
  match x with
  | ⟨0, _⟩ => show win0_0.index t (0 : Fin 2) * 512 + 1 * p.val = r.val; omega
  | ⟨1, _⟩ => show win0_0.index t (1 : Fin 2) * 512 + 1 * kk.val = K.val; omega

/-- The right operand's block at a point is the array at the block's offsets. -/
theorem wblk_apply (c : Dev nD) (t : Fin cfg0.N) (q kk : Fin 512) (n : Fin 6144) (K : Fin 2048)
    (hn : n.val = t.val / 4 % 12 * 512 + q.val) (hK : K.val = t.val % 4 * 512 + kk.val) :
    Proj.wblk V c t (ix2 q kk) = arrW V c (ix2 n K) := by
  obtain ⟨-, -, e2, e3, -⟩ := idx_facts t
  unfold Proj.wblk Proj.iblk
  rw [View.read_apply]
  show arrW V c _ = _
  congr 1
  funext x; apply Fin.ext
  match x with
  | ⟨0, _⟩ => show win0_1.index t (0 : Fin 2) * 512 + 1 * q.val = n.val; omega
  | ⟨1, _⟩ => show win0_1.index t (1 : Fin 2) * 512 + 1 * kk.val = K.val; omega

/-- The bias row's piece at a point is the row at the piece's offset. -/
theorem bblk_apply (c : Dev nD) (t : Fin cfg0.N) (q : Fin 512) (n : Fin 6144)
    (hn : n.val = t.val / 4 % 12 * 512 + q.val) :
    Proj.bblk V c t (ix2 (0 : Fin 1) q) = arrB V c (ix2 (0 : Fin 1) n) := by
  obtain ⟨-, -, -, -, e4, e5, -⟩ := idx_facts t
  unfold Proj.bblk Proj.iblk
  rw [View.read_apply]
  show arrB V c _ = _
  congr 1
  funext x; apply Fin.ext
  match x with
  | ⟨0, _⟩ => show win0_2.index t (0 : Fin 2) * 1 + 1 * 0 = 0; omega
  | ⟨1, _⟩ => show win0_2.index t (1 : Fin 2) * 512 + 1 * q.val = n.val; omega

/-! ## The accumulator at a block's fourth step is the whole contraction -/

/-- A sum over 2048 indices is the sum of its four runs of 512. -/
theorem sum_four {M : Type*} [AddCommMonoid M] (f : Fin 2048 → M) :
    ∑ K : Fin 2048, f K
      = (∑ kk : Fin 512, f ⟨kk.val, by have := kk.isLt; omega⟩) + (∑ kk : Fin 512, f ⟨512 + kk.val, by have := kk.isLt; omega⟩)
        + (∑ kk : Fin 512, f ⟨1024 + kk.val, by have := kk.isLt; omega⟩) + (∑ kk : Fin 512, f ⟨1536 + kk.val, by have := kk.isLt; omega⟩) := by
  rw [← (finProdFinEquiv (m := 4) (n := 512)).sum_comp f, Fintype.sum_prod_type, Fin.sum_univ_four]
  refine congrArg₂ (· + ·) (congrArg₂ (· + ·) (congrArg₂ (· + ·) ?_ ?_) ?_) ?_
  · exact Finset.sum_congr rfl fun kk _ => congrArg f (Fin.ext (by show kk.val + 512 * 0 = kk.val; omega))
  · exact Finset.sum_congr rfl fun kk _ => congrArg f (Fin.ext (by show kk.val + 512 * 1 = 512 + kk.val; omega))
  · exact Finset.sum_congr rfl fun kk _ => congrArg f (Fin.ext (by show kk.val + 512 * 2 = 1024 + kk.val; omega))
  · exact Finset.sum_congr rfl fun kk _ => congrArg f (Fin.ext (by show kk.val + 512 * 3 = 1536 + kk.val; omega))

/-- One step's block product at an element is a run of 512 of the whole contraction: the products of the left
    array's row against the right array's row, at the step's contraction offset. -/
theorem blockSum_apply (c : Dev nD) (t : Fin cfg0.N) (p q : Fin 512) (r : Fin 4096) (n : Fin 6144)
    (hr : r.val = t.val / 48 * 512 + p.val) (hn : n.val = t.val / 4 % 12 * 512 + q.val)
    (Kof : Fin 512 → Fin 2048) (hK : ∀ kk, (Kof kk).val = t.val % 4 * 512 + kk.val) :
    ∑ kk : Fin 512, Proj.ablk V c t (ix2 p kk) * Proj.wblk V c t (ix2 q kk)
      = ∑ kk : Fin 512, arrA V c (ix2 r (Kof kk)) * arrW V c (ix2 n (Kof kk)) :=
  Finset.sum_congr rfl fun kk _ => by
    rw [ablk_apply V c t p kk r (Kof kk) hr (hK kk), wblk_apply V c t q kk n (Kof kk) hn (hK kk)]

/-- The accumulator after the fourth step of an output block (the steps are the points b, b + 1, b + 2, b + 3 with
    b a multiple of four), at an element: zero plus the four block products in order, which is the whole contraction,
    the sum over all 2048 indices of the left array's row against the right array's row. -/
theorem acc_four_apply (c : Dev nD) (b : ℕ) (hb : b % 4 = 0) (h : b + 3 < cfg0.N) (p q : Fin 512) (r : Fin 4096) (n : Fin 6144)
    (hr : r.val = b / 48 * 512 + p.val) (hn : n.val = b / 4 % 12 * 512 + q.val) :
    Proj.acc V c (b + 3) h (ix2 p q) = ∑ K : Fin 2048, arrA V c (ix2 r K) * arrW V c (ix2 n K) := by
  have h2 : b + 2 < cfg0.N := by omega
  have h1 : b + 1 < cfg0.N := by omega
  have h0 : b < cfg0.N := by omega
  have e3 : Proj.acc V c (b + 3) h = k0_pay2 (Proj.acc V c (b + 2) h2) (Proj.ablk V c ⟨b + 3, h⟩) (Proj.wblk V c ⟨b + 3, h⟩) :=
    Proj.acc_next V c ⟨b + 3, h⟩ (by show ¬(b + 3) % 4 = 0; omega)
  have e2 : Proj.acc V c (b + 2) h2 = k0_pay2 (Proj.acc V c (b + 1) h1) (Proj.ablk V c ⟨b + 2, h2⟩) (Proj.wblk V c ⟨b + 2, h2⟩) :=
    Proj.acc_next V c ⟨b + 2, h2⟩ (by show ¬(b + 2) % 4 = 0; omega)
  have e1 : Proj.acc V c (b + 1) h1 = k0_pay2 (Proj.acc V c b h0) (Proj.ablk V c ⟨b + 1, h1⟩) (Proj.wblk V c ⟨b + 1, h1⟩) :=
    Proj.acc_next V c ⟨b + 1, h1⟩ (by show ¬(b + 1) % 4 = 0; omega)
  have e0 : Proj.acc V c b h0 = k0_pay2 (k0_pay1 (F := Ideal)) (Proj.ablk V c ⟨b, h0⟩) (Proj.wblk V c ⟨b, h0⟩) :=
    Proj.acc_first V c ⟨b, h0⟩ hb
  rw [e3, pay2_apply (Proj.acc V c (b + 2) h2) (Proj.ablk V c ⟨b + 3, h⟩) (Proj.wblk V c ⟨b + 3, h⟩) p q,
    e2, pay2_apply (Proj.acc V c (b + 1) h1) (Proj.ablk V c ⟨b + 2, h2⟩) (Proj.wblk V c ⟨b + 2, h2⟩) p q,
    e1, pay2_apply (Proj.acc V c b h0) (Proj.ablk V c ⟨b + 1, h1⟩) (Proj.wblk V c ⟨b + 1, h1⟩) p q,
    e0, pay2_apply (k0_pay1 (F := Ideal)) (Proj.ablk V c ⟨b, h0⟩) (Proj.wblk V c ⟨b, h0⟩) p q,
    pay1_apply, zero_add, sum_four]
  refine congrArg₂ (· + ·) (congrArg₂ (· + ·) (congrArg₂ (· + ·) ?_ ?_) ?_) ?_
  · exact blockSum_apply V c ⟨b, h0⟩ p q r n (by show r.val = b / 48 * 512 + p.val; omega)
      (by show n.val = b / 4 % 12 * 512 + q.val; omega) (fun kk => ⟨kk.val, by have := kk.isLt; omega⟩)
      (fun kk => by show kk.val = b % 4 * 512 + kk.val; omega)
  · exact blockSum_apply V c ⟨b + 1, h1⟩ p q r n (by show r.val = (b + 1) / 48 * 512 + p.val; omega)
      (by show n.val = (b + 1) / 4 % 12 * 512 + q.val; omega) (fun kk => ⟨512 + kk.val, by have := kk.isLt; omega⟩)
      (fun kk => by show 512 + kk.val = (b + 1) % 4 * 512 + kk.val; omega)
  · exact blockSum_apply V c ⟨b + 2, h2⟩ p q r n (by show r.val = (b + 2) / 48 * 512 + p.val; omega)
      (by show n.val = (b + 2) / 4 % 12 * 512 + q.val; omega) (fun kk => ⟨1024 + kk.val, by have := kk.isLt; omega⟩)
      (fun kk => by show 1024 + kk.val = (b + 2) % 4 * 512 + kk.val; omega)
  · exact blockSum_apply V c ⟨b + 3, h⟩ p q r n (by show r.val = (b + 3) / 48 * 512 + p.val; omega)
      (by show n.val = (b + 3) / 4 % 12 * 512 + q.val; omega) (fun kk => ⟨1536 + kk.val, by have := kk.isLt; omega⟩)
      (fun kk => by show 1536 + kk.val = (b + 3) % 4 * 512 + kk.val; omega)

/-! ## What a write-back writes, and the cover -/

/-- What a point that writes the output block back writes: its block of the projection of the three arrays. At an
    element of the block, the bias step's value is the accumulator plus the bias row's entry, the accumulator is the
    whole contraction, and the element sits in the array at the block's offsets. -/
theorem flushed_eq (c : Dev nD) (t : Fin cfg0.N) (hf : (cfg0.win 3).flush t = true) :
    (Proj.dat (F := Ideal) V c).flushed 3 t
      = ((cfg0.win 3).blk t).view.read (Elt Ideal) (Spec.proj (arrA V c) (arrW V c) (arrB V c)) := by
  have h3 : t.val % 4 = 3 := (flush0_3 t).mp hf
  obtain ⟨-, -, -, -, -, -, e6, e7⟩ := idx_facts t
  have hN : cfg0.N = 384 := N_0
  have htl := t.isLt
  show (cfg0.win 3).cut (grid0.coords t) ((Proj.dat (F := Ideal) V c).after 3 t) = _
  rw [Proj.after_3]
  refine funext fun (y : S512x512.Idx) => ?_
  obtain ⟨p, q, rfl⟩ : ∃ (p q : Fin 512), y = ix2 p q := ⟨y 0, y 1, eq_ix2 y⟩
  have hp := p.isLt
  have hq := q.isLt
  -- the element's place in the output array
  have hemb : ((cfg0.win 3).blk t).view.emb (ix2 p q)
      = (ix2 (⟨t.val / 48 * 512 + p.val, by omega⟩ : Fin 4096) (⟨t.val / 4 % 12 * 512 + q.val, by omega⟩ : Fin 6144) : S4096x6144.Idx) := by
    funext x; apply Fin.ext
    match x with
    | ⟨0, _⟩ => show win0_3.index t (0 : Fin 2) * 512 + 1 * p.val = t.val / 48 * 512 + p.val; omega
    | ⟨1, _⟩ => show win0_3.index t (1 : Fin 2) * 512 + 1 * q.val = t.val / 4 % 12 * 512 + q.val; omega
  rw [View.read_apply, hemb]
  show Proj.outAt V c t (ix2 p q) = _
  unfold Proj.outAt
  rw [pay3_apply (Proj.acc V c t.val t.isLt) (Proj.bblk V c t) p q,
    bblk_apply V c t q ⟨t.val / 4 % 12 * 512 + q.val, by omega⟩ rfl]
  -- the point is the fourth of its block's steps
  obtain ⟨tv, htv⟩ := t
  obtain ⟨b, rfl⟩ : ∃ b, tv = b + 3 := ⟨tv - 3, by have : tv % 4 = 3 := h3; omega⟩
  rw [acc_four_apply V c b (by have : (b + 3) % 4 = 3 := h3; omega) htv p q
    ⟨(b + 3) / 48 * 512 + p.val, by have : b + 3 < cfg0.N := htv; omega⟩ ⟨(b + 3) / 4 % 12 * 512 + q.val, by have : b + 3 < cfg0.N := htv; omega⟩
    (by show (b + 3) / 48 * 512 + p.val = b / 48 * 512 + p.val; have : (b + 3) % 4 = 3 := h3; omega)
    (by show (b + 3) / 4 % 12 * 512 + q.val = b / 4 % 12 * 512 + q.val; have : (b + 3) % 4 = 3 := h3; omega)]
  rfl

/-- An index of the output array is in a point's block iff each coordinate is in the block's range on its axis. -/
theorem mem_blk (t : Fin cfg0.N) (i : S4096x6144.Idx) :
    i ∈ ((cfg0.win 3).blk t).view.set
      ↔ ∀ a : Fin 2, win0_3.index t a * S512x512.size a ≤ (i a).val ∧ (i a).val < win0_3.index t a * S512x512.size a + S512x512.size a := by
  show i ∈ ((View.whole main_v4).slice (win0_3.rect t)).set ↔ _
  rw [View.set_slice_whole, Rect.mem_set_unit]
  exact Iff.rfl

/-- The eight by twelve output blocks tile the array: the element at row r and column n lies in the block of the
    points with row block r / 512 and column block n / 512, and the fourth of those four points writes it back. -/
theorem cover (i : S4096x6144.Idx) :
    ∃ t : Fin cfg0.N, (cfg0.win 3).flush t = true ∧ i ∈ ((cfg0.win 3).blk t).view.set := by
  have h0 : (i 0).val < 4096 := (i 0).isLt
  have h1 : (i 1).val < 6144 := (i 1).isLt
  have hN : cfg0.N = 384 := N_0
  obtain ⟨t, ht⟩ : ∃ t : Fin cfg0.N, t.val = ((i 0).val / 512 * 12 + (i 1).val / 512) * 4 + 3 := ⟨⟨_, by omega⟩, rfl⟩
  obtain ⟨-, -, -, -, -, -, e6, e7⟩ := idx_facts t
  refine ⟨t, (flush0_3 t).mpr (by omega), ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-! ## The output array -/

/-- What the projection leaves in its output array. -/
theorem final (c : Dev nD) :
    (Proj.dat (F := Ideal) V c).arrAt 3 cfg0.N = Spec.proj (V c main_v1) (V c main_v2) (V c main_v3) :=
  (Proj.dat (F := Ideal) V c).arrAt_eq_of_cover 3 (Spec.proj (arrA V c) (arrW V c) (arrB V c)) (flushed_eq V c) cover

end Cert.KernelIdeal.ProjValue

end
-- ==== Proof.AttnPayload.lean ====
/-
  The attention body's arithmetic read at one element, at the ideal instance. With the point's query block `qi` and
  key block `ki` (512 rows each), local query row p, local key row kk and feature d:

    the step's payload  =  s[p, d] + Σ_kk blockScore[p, kk] · v[kk, d]
    blockScore[p, kk]   =  max ((Σ_dd q[p, dd] · k[kk, dd]) · scale, 0)   if ki·512 + kk ≤ qi·512 + p,   else 0

  — the first matrix product against the transposed key block, the scale, the comparison of the two global row
  numbers (32-bit words that cannot wrap: both are below 2048), the rectification and the select, the change of
  format (the identity here), and the second matrix product into a zero accumulator. The reset's payload is the
  zero block and the store's payload is the accumulator under another shape.
-/
import proofs.«113924_j1580547972719_1_alg».proof.Proof.Gen.KernelIdeal.Skeleton
import proofs.«113924_j1580547972719_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open scoped BigOperators

namespace Cert.KernelIdeal.AttnPayload

open Cert.KernelIdeal Cert.KernelIdeal.Gen
open Idealize.ShloMosaic Idealize.ShloMosaic.ValueIdx

/-- The rectified, causally masked score of local query row `p` against local key row `kk` at the grid point of
    coordinates `i` (head, query block, key block). -/
def blockScore (i : grid1.Coords) (q k : Vec Ideal S1x512x128 .bf16) (p kk : Fin 512) : EReal :=
  if (i 2).val * 512 + kk.val ≤ (i 1).val * 512 + p.val then
    max ((∑ d : Fin 128, q (ix3 (0 : Fin 1) p d) * k (ix3 (0 : Fin 1) kk d)) * Spec.scale) 0
  else 0

/-! ## The two matrix products read at an element

Each product contracts one axis of each operand (the left operand's second, the right operand's first) into a zero
accumulator, so at an output element it is the sum over that axis's coordinate of the products. The four coordinate
facts of each product's operand indices come first. -/

/-! The first product's operand indices. -/
theorem lhs1_0 (j : S512x512.Idx) (q : dot_S512x128_S128x512_S512x512_1_0_0_1_n_n.contr.Idx) :
    (dot_S512x128_S128x512_S512x512_1_0_0_1_n_n.lhsIdx j q 0).val = (j 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem lhs1_1 (j : S512x512.Idx) (q : dot_S512x128_S128x512_S512x512_1_0_0_1_n_n.contr.Idx) :
    (dot_S512x128_S128x512_S512x512_1_0_0_1_n_n.lhsIdx j q 1).val = (q ⟨0, by decide⟩).val :=
  dot_S512x128_S128x512_S512x512_1_0_0_1_n_n.lhsIdx_val_of_single rfl j q
theorem rhs1_0 (j : S512x512.Idx) (q : dot_S512x128_S128x512_S512x512_1_0_0_1_n_n.contr.Idx) :
    (dot_S512x128_S128x512_S512x512_1_0_0_1_n_n.rhsIdx j q 0).val = (q ⟨0, by decide⟩).val :=
  dot_S512x128_S128x512_S512x512_1_0_0_1_n_n.rhsIdx_val_of_single rfl j q
theorem rhs1_1 (j : S512x512.Idx) (q : dot_S512x128_S128x512_S512x512_1_0_0_1_n_n.contr.Idx) :
    (dot_S512x128_S128x512_S512x512_1_0_0_1_n_n.rhsIdx j q 1).val = (j 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- The first product at (p, kk): the query row against the (transposed) key block's column, summed over the 128 features. -/
theorem dot1_apply (x : FVec Ideal S512x128 .bf16) (y : FVec Ideal S128x512 .bf16) (p kk : Fin 512) :
    matmul (F := Ideal) dot_S512x128_S128x512_S512x512_1_0_0_1_n_n none x y (constant (F := Ideal) S512x512 .f32 0x00000000#32) (ix2 p kk)
      = ∑ dd : Fin 128, x (ix2 p dd) * y (ix2 dd kk) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p kk) ((contrEquiv1 dot_S512x128_S128x512_S512x512_1_0_0_1_n_n 128 rfl rfl).symm k) = ix2 p k := funext fun a => Fin.ext (by
    match a with
    | ⟨0, _⟩ => exact lhs1_0 _ _
    | ⟨1, _⟩ => exact (lhs1_1 _ _).trans hk)
  have er : dot_S512x128_S128x512_S512x512_1_0_0_1_n_n.rhsIdx (ix2 p kk) ((contrEquiv1 dot_S512x128_S128x512_S512x512_1_0_0_1_n_n 128 rfl rfl).symm k) = ix2 k kk := funext fun a => Fin.ext (by
    match a with
    | ⟨0, _⟩ => exact (rhs1_0 _ _).trans hk
    | ⟨1, _⟩ => exact rhs1_1 _ _)
  rw [el, er]

/-! The second product's operand indices. -/
theorem lhs2_0 (j : S512x128.Idx) (q : dot_S512x512_S512x128_S512x128_1_0_0_1_n_n.contr.Idx) :
    (dot_S512x512_S512x128_S512x128_1_0_0_1_n_n.lhsIdx j q 0).val = (j 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs2_1 (j : S512x128.Idx) (q : dot_S512x512_S512x128_S512x128_1_0_0_1_n_n.contr.Idx) :
    (dot_S512x512_S512x128_S512x128_1_0_0_1_n_n.lhsIdx j q 1).val = (q ⟨0, by decide⟩).val :=
  dot_S512x512_S512x128_S512x128_1_0_0_1_n_n.lhsIdx_val_of_single rfl j q
theorem rhs2_0 (j : S512x128.Idx) (q : dot_S512x512_S512x128_S512x128_1_0_0_1_n_n.contr.Idx) :
    (dot_S512x512_S512x128_S512x128_1_0_0_1_n_n.rhsIdx j q 0).val = (q ⟨0, by decide⟩).val :=
  dot_S512x512_S512x128_S512x128_1_0_0_1_n_n.rhsIdx_val_of_single rfl j q
theorem rhs2_1 (j : S512x128.Idx) (q : dot_S512x512_S512x128_S512x128_1_0_0_1_n_n.contr.Idx) :
    (dot_S512x512_S512x128_S512x128_1_0_0_1_n_n.rhsIdx j q 1).val = (j 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- The second product at (p, d): the score row against the value block's column, summed over the 512 key rows. -/
theorem dot2_apply (x : FVec Ideal S512x512 .bf16) (y : FVec Ideal S512x128 .bf16) (p : Fin 512) (d : Fin 128) :
    matmul (F := Ideal) dot_S512x512_S512x128_S512x128_1_0_0_1_n_n none x y (constant (F := Ideal) S512x128 .f32 0x00000000#32) (ix2 p d)
      = ∑ kk : Fin 512, x (ix2 p kk) * y (ix2 kk d) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 p d) ((contrEquiv1 dot_S512x512_S512x128_S512x128_1_0_0_1_n_n 512 rfl rfl).symm k) = ix2 p k := funext fun a => Fin.ext (by
    match a with
    | ⟨0, _⟩ => exact lhs2_0 _ _
    | ⟨1, _⟩ => exact (lhs2_1 _ _).trans hk)
  have er : dot_S512x512_S512x128_S512x128_1_0_0_1_n_n.rhsIdx (ix2 p d) ((contrEquiv1 dot_S512x512_S512x128_S512x128_1_0_0_1_n_n 512 rfl rfl).symm k) = ix2 k d := funext fun a => Fin.ext (by
    match a with
    | ⟨0, _⟩ => exact (rhs2_0 _ _).trans hk
    | ⟨1, _⟩ => exact rhs2_1 _ _)
  rw [el, er]

/-! ## The causal comparison

A global row number is the block number (below 4) times 512 plus the local row (below 512): below 2048, so the 32-bit
word holds it exactly and the signed comparison of two such words is the comparison of the numbers. -/

/-- A global row number as a 32-bit word: block number (below 4) times 512 plus the local row (below 512). -/
theorem rowWord_toNat (a r : Nat) (ha : a < 4) (hr : r < 512) :
    (IntOp.addi (Scalar.muli (BitVec.ofNat 32 a) 512#32) (BitVec.ofNat 32 r)).toNat = a * 512 + r := by
  unfold IntOp.addi Scalar.muli IntOp.muli
  simp only [BitVec.toNat_add, BitVec.toNat_mul, BitVec.toNat_ofNat]
  omega

/-- The signed comparison of the query's and the key's global row words holds exactly when the key row is not after the query row. -/
theorem mask_iff (i : grid1.Coords) (p kk : Fin 512) :
    IntOp.cmpi .sge (IntOp.addi (Scalar.muli (BitVec.ofNat 32 (i 1).val) 512#32) (BitVec.ofNat 32 p.val))
        (IntOp.addi (Scalar.muli (BitVec.ofNat 32 (i 2).val) 512#32) (BitVec.ofNat 32 kk.val)) = 1#1
      ↔ (i 2).val * 512 + kk.val ≤ (i 1).val * 512 + p.val := by
  have h1 : (i 1).val < 4 := (i 1).isLt
  have h2 : (i 2).val < 4 := (i 2).isLt
  have e1 := rowWord_toNat (i 1).val p.val h1 p.isLt
  have e2 := rowWord_toNat (i 2).val kk.val h2 kk.isLt
  rw [StableHlo.Predicate.sge_iff_toNat (by rw [e1]; omega) (by rw [e2]; omega), e1, e2]

/-- The reset stores zeros. -/
theorem pay1_apply (p : Fin 512) (d : Fin 128) : k1_pay1 (F := Ideal) (ix2 p d) = 0 := by
  unfold k1_pay1
  rw [shapeCast_self]
  exact Ideal.ofBits_zero_f32

/-- The step's payload at an element. -/
theorem pay2_apply (i : grid1.Coords) (q k v : Vec Ideal S1x512x128 .bf16) (s : Vec Ideal S512x128 .f32) (p : Fin 512) (d : Fin 128) :
    k1_pay2 (F := Ideal) i q k v s (ix2 p d)
      = s (ix2 p d) + ∑ kk : Fin 512, blockScore i q k p kk * v (ix3 (0 : Fin 1) kk d) := by
  unfold k1_pay2
  dsimp only
  rw [shapeCast_self, addf_apply, dot2_apply]
  congr 1
  refine Finset.sum_congr rfl fun kk _ => ?_
  rw [truncf_apply, select_apply, shapeCast_1ab_ab_apply]
  congr 1
  rw [maximumf_apply, mulf_apply, dot1_apply]
  have hkT : ∀ dd : Fin 128, transpose S128x512 [1, 0] (shapeCast S512x128 k shapeCasts_S1x512x128_S512x128)
      transposes_S512x128_p1_0_S128x512 (ix2 dd kk) = k (ix3 (0 : Fin 1) kk dd) := fun dd =>
    (transpose_ix2_apply (shapeCast S512x128 k shapeCasts_S1x512x128_S512x128) transposes_S512x128_p1_0_S128x512 dd kk).trans
      (shapeCast_1ab_ab_apply k shapeCasts_S1x512x128_S512x128 kk dd)
  simp only [broadcast_apply, hkT, shapeCast_1ab_ab_apply]
  have hz : (FloatOps.ofBits (F := Ideal) FTy.f32 0x00000000#32 : EReal) = 0 := Ideal.ofBits_zero_f32
  rw [hz]
  have hcond : cmpi CmpIPredicate.sge
        (addi (broadcast S512x512 (Scalar.muli (BitVec.ofNat 32 (i 1).val) 512#32))
          (iota Kind.tc S512x512 32 [0] iota_S512x512_d0_w32))
        (addi (broadcast S512x512 (Scalar.muli (BitVec.ofNat 32 (i 2).val) 512#32))
          (iota Kind.tc S512x512 32 [1] iota_S512x512_d1_w32))
        (ix2 p kk)
      = IntOp.cmpi .sge (IntOp.addi (Scalar.muli (BitVec.ofNat 32 (i 1).val) 512#32) (BitVec.ofNat 32 p.val))
        (IntOp.addi (Scalar.muli (BitVec.ofNat 32 (i 2).val) 512#32) (BitVec.ofNat 32 kk.val)) := by
    show IntOp.cmpi .sge (IntOp.addi _ (iota Kind.tc S512x512 32 [0] iota_S512x512_d0_w32 (ix2 p kk)))
        (IntOp.addi _ (iota Kind.tc S512x512 32 [1] iota_S512x512_d1_w32 (ix2 p kk))) = _
    rw [iota_single_apply, iota_single_apply]
    rfl
  rw [hcond]
  unfold blockScore
  by_cases h : (i 2).val * 512 + kk.val ≤ (i 1).val * 512 + p.val
  · rw [if_pos h, (mask_iff i p kk).mpr h, select_one]
    rfl
  · rw [if_neg h, eq_zero_of_ne_one (fun hc => h ((mask_iff i p kk).mp hc)), select_zero]

/-- The store's payload is the accumulator under the window's shape. -/
theorem pay3_apply (s : Vec Ideal S512x128 .f32) (p : Fin 512) (d : Fin 128) :
    k1_pay3 (F := Ideal) s (ix3 (0 : Fin 1) p d) = s (ix2 p d) := by
  unfold k1_pay3
  exact shapeCast_ab_1ab_apply s _ 0 p d

end Cert.KernelIdeal.AttnPayload

end
-- ==== Proof.AttnValue.lean ====
/-
  The second pallas_call read as a value, at the ideal instance: after the region the output array holds, for head g,
  query row t and feature d, the sum over all 2048 key rows s of score[g, t, s] · v[g, s, d], the score the scaled
  dot product of the query and key rows, rectified, and zero above the diagonal. The body's accumulator after the
  four key blocks of a query block is 0 + the contributions of the key blocks not after the query block; a key
  block wholly above the diagonal, which the body skips, contributes only zero scores (0 · x = 0 on the extended
  reals, whatever x), so the ordered sum over the blocks taken is the one sum over all key rows; the blocks, each
  written back at its fourth step, tile the array.
-/
import proofs.«113924_j1580547972719_1_alg».proof.Proof.AttnBody
import proofs.«113924_j1580547972719_1_alg».proof.Proof.AttnPayload
import proofs.«113924_j1580547972719_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AttnValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The blocks read through their windows

A point t of the grid (32, 4, 4) has head t / 16, query block t / 4 % 4, key block t % 4. -/

/-- The grid's coordinates of a point, and the four windows' block indices there, decided once over the grid. -/
theorem coords_val : ∀ t : Fin cfg1.N, ((grid1.coords t) 0).val = t.val / 16 ∧ ((grid1.coords t) 1).val = t.val / 4 % 4 ∧ ((grid1.coords t) 2).val = t.val % 4 :=
  (by decide +kernel : ∀ t : Fin grid1.N, ((grid1.coords t) 0).val = t.val / 16 ∧ ((grid1.coords t) 1).val = t.val / 4 % 4 ∧ ((grid1.coords t) 2).val = t.val % 4)

theorem idx_q : ∀ t : Fin cfg1.N, win1_0.index t 0 = t.val / 16 ∧ win1_0.index t 1 = t.val / 4 % 4 ∧ win1_0.index t 2 = 0 :=
  (by decide +kernel : ∀ t : Fin grid1.N, win1_0.index t 0 = t.val / 16 ∧ win1_0.index t 1 = t.val / 4 % 4 ∧ win1_0.index t 2 = 0)
theorem idx_k : ∀ t : Fin cfg1.N, win1_1.index t 0 = t.val / 16 ∧ win1_1.index t 1 = t.val % 4 ∧ win1_1.index t 2 = 0 :=
  (by decide +kernel : ∀ t : Fin grid1.N, win1_1.index t 0 = t.val / 16 ∧ win1_1.index t 1 = t.val % 4 ∧ win1_1.index t 2 = 0)
theorem idx_v : ∀ t : Fin cfg1.N, win1_2.index t 0 = t.val / 16 ∧ win1_2.index t 1 = t.val % 4 ∧ win1_2.index t 2 = 0 :=
  (by decide +kernel : ∀ t : Fin grid1.N, win1_2.index t 0 = t.val / 16 ∧ win1_2.index t 1 = t.val % 4 ∧ win1_2.index t 2 = 0)
theorem idx_o : ∀ t : Fin cfg1.N, win1_3.index t 0 = t.val / 16 ∧ win1_3.index t 1 = t.val / 4 % 4 ∧ win1_3.index t 2 = 0 :=
  (by decide +kernel : ∀ t : Fin grid1.N, win1_3.index t 0 = t.val / 16 ∧ win1_3.index t 1 = t.val / 4 % 4 ∧ win1_3.index t 2 = 0)

/-- A query block's element is the query array's at head t / 16, row (t / 4 % 4) · 512 + p. -/
theorem qblk_apply (c : Dev nD) (t : Fin cfg1.N) (p : Fin 512) (d : Fin 128) (g : Fin 32) (r : Fin 2048)
    (hg : g.val = t.val / 16) (hr : r.val = t.val / 4 % 4 * 512 + p.val) :
    Attn.qblk (F := Ideal) V c t (ix3 (0 : Fin 1) p d) = V c main_v11 (ix3 g r d) := by
  obtain ⟨e0, e1, e2⟩ := idx_q t
  show Attn.iblk V c 0 t _ = _
  unfold Attn.iblk
  rw [View.read_apply]
  show V c main_v11 _ = V c main_v11 _
  congr 1
  funext a
  apply Fin.ext
  match a with
  | ⟨0, _⟩ => show win1_0.index t 0 * 1 + 1 * 0 = g.val; rw [e0, hg]; omega
  | ⟨1, _⟩ => show win1_0.index t 1 * 512 + 1 * p.val = r.val; rw [e1, hr]; omega
  | ⟨2, _⟩ => show win1_0.index t 2 * 128 + 1 * d.val = d.val; rw [e2]; omega

/-- A key block's element is the key array's at head t / 16, row (t % 4) · 512 + kk. -/
theorem kblk_apply (c : Dev nD) (t : Fin cfg1.N) (kk : Fin 512) (d : Fin 128) (g : Fin 32) (r : Fin 2048)
    (hg : g.val = t.val / 16) (hr : r.val = t.val % 4 * 512 + kk.val) :
    Attn.kblk (F := Ideal) V c t (ix3 (0 : Fin 1) kk d) = V c main_v14 (ix3 g r d) := by
  obtain ⟨e0, e1, e2⟩ := idx_k t
  show Attn.iblk V c 1 t _ = _
  unfold Attn.iblk
  rw [View.read_apply]
  show V c main_v14 _ = V c main_v14 _
  congr 1
  funext a
  apply Fin.ext
  match a with
  | ⟨0, _⟩ => show win1_1.index t 0 * 1 + 1 * 0 = g.val; rw [e0, hg]; omega
  | ⟨1, _⟩ => show win1_1.index t 1 * 512 + 1 * kk.val = r.val; rw [e1, hr]; omega
  | ⟨2, _⟩ => show win1_1.index t 2 * 128 + 1 * d.val = d.val; rw [e2]; omega

/-- A value block's element is the value array's at head t / 16, row (t % 4) · 512 + kk. -/
theorem vblk_apply (c : Dev nD) (t : Fin cfg1.N) (kk : Fin 512) (d : Fin 128) (g : Fin 32) (r : Fin 2048)
    (hg : g.val = t.val / 16) (hr : r.val = t.val % 4 * 512 + kk.val) :
    Attn.vblk (F := Ideal) V c t (ix3 (0 : Fin 1) kk d) = V c main_v17 (ix3 g r d) := by
  obtain ⟨e0, e1, e2⟩ := idx_v t
  show Attn.iblk V c 2 t _ = _
  unfold Attn.iblk
  rw [View.read_apply]
  show V c main_v17 _ = V c main_v17 _
  congr 1
  funext a
  apply Fin.ext
  match a with
  | ⟨0, _⟩ => show win1_2.index t 0 * 1 + 1 * 0 = g.val; rw [e0, hg]; omega
  | ⟨1, _⟩ => show win1_2.index t 1 * 512 + 1 * kk.val = r.val; rw [e1, hr]; omega
  | ⟨2, _⟩ => show win1_2.index t 2 * 128 + 1 * d.val = d.val; rw [e2]; omega

/-! ## One key block's share of the sum -/

/-- Key row kk of key block j, among the 2048 key rows of a head. -/
def krow (j : Fin 4) (kk : Fin 512) : Fin 2048 := ⟨j.val * 512 + kk.val, by have := j.isLt; have := kk.isLt; omega⟩

/-- Key block j's share of the attention sum at query row r of head g, feature d. -/
def share (q k v : Vec Ideal S32x2048x128 .bf16) (g : Fin 32) (r : Fin 2048) (d : Fin 128) (j : Fin 4) : EReal :=
  ∑ kk : Fin 512, Spec.score q k g r (krow j kk) * v (ix3 g (krow j kk) d)

/-- One point's step at an element adds its key block's share, whether the body takes the block or skips it: a
    skipped block lies wholly above the diagonal, its scores are all zero, and 0 · x = 0 for every extended real. -/
theorem step_apply (c : Dev nD) (u : Fin cfg1.N) (s : Vec Ideal S512x128 .f32) (p : Fin 512) (d : Fin 128)
    (g : Fin 32) (r : Fin 2048) (j : Fin 4) (hg : g.val = u.val / 16) (hr : r.val = u.val / 4 % 4 * 512 + p.val)
    (hj : j.val = u.val % 4) :
    Attn.step (F := Ideal) V c u s (ix2 p d)
      = s (ix2 p d) + share (V c main_v11) (V c main_v14) (V c main_v17) g r d j := by
  obtain ⟨c0, c1, c2⟩ := coords_val u
  unfold Attn.step
  by_cases h : u.val % 4 ≤ u.val / 4 % 4
  · rw [if_pos h, AttnPayload.pay2_apply]
    congr 1
    unfold share
    refine Finset.sum_congr rfl fun kk _ => ?_
    have hk : (krow j kk).val = u.val % 4 * 512 + kk.val := by show j.val * 512 + kk.val = _; rw [hj]
    rw [vblk_apply V c u kk d g (krow j kk) hg hk]
    congr 1
    unfold AttnPayload.blockScore Spec.score
    have hc : ((grid1.coords u 2).val * 512 + kk.val ≤ (grid1.coords u 1).val * 512 + p.val) ↔ ((krow j kk).val ≤ r.val) := by
      rw [c2, c1, hk, hr]
    rw [if_congr hc rfl rfl]
    congr 2
    congr 1
    refine Finset.sum_congr rfl fun dd _ => ?_
    rw [qblk_apply V c u p dd g r hg hr, kblk_apply V c u kk dd g (krow j kk) hg hk]
  · rw [if_neg h]
    have hz : share (V c main_v11) (V c main_v14) (V c main_v17) g r d j = 0 := by
      unfold share
      refine Finset.sum_eq_zero fun kk _ => ?_
      have hk : (krow j kk).val = j.val * 512 + kk.val := rfl
      have hs : Spec.score (V c main_v11) (V c main_v14) g r (krow j kk) = 0 := by
        unfold Spec.score
        rw [if_neg (by rw [hk, hr, hj]; have := p.isLt; omega)]
      rw [hs, zero_mul]
    rw [hz, add_zero]

/-! ## The accumulator at a storing point -/

/-- At the fourth key block of a query block the accumulator is the four steps from the zero block. -/
theorem acc_unroll (c : Dev nD) (q : ℕ) (h : 4 * q + 3 < cfg1.N) :
    Attn.acc (F := Ideal) V c (4 * q + 3) h
      = Attn.step V c ⟨4 * q + 3, h⟩ (Attn.step V c ⟨4 * q + 2, by omega⟩ (Attn.step V c ⟨4 * q + 1, by omega⟩
          (Attn.step V c ⟨4 * q, by omega⟩ (k1_pay1 (F := Ideal))))) :=
  Pipeline.eq_accAt (fun n hn => Attn.acc (F := Ideal) V c n hn) 4
    (fun n hn => Attn.step V c ⟨n, hn⟩ (k1_pay1 (F := Ideal))) (fun n hn s => Attn.step V c ⟨n, hn⟩ s)
    (fun n hn h0 => Attn.acc_first V c ⟨n, hn⟩ h0) (fun n hn hs => Attn.acc_next V c ⟨n + 1, hn⟩ hs) q 3 (by omega) h

/-- So at an element it is 0 + the four key blocks' shares, in order. -/
theorem acc_apply (c : Dev nD) (q : ℕ) (h : 4 * q + 3 < cfg1.N) (p : Fin 512) (d : Fin 128) (g : Fin 32) (r : Fin 2048)
    (hg : g.val = q / 4) (hr : r.val = q % 4 * 512 + p.val) :
    Attn.acc (F := Ideal) V c (4 * q + 3) h (ix2 p d)
      = 0 + share (V c main_v11) (V c main_v14) (V c main_v17) g r d 0
          + share (V c main_v11) (V c main_v14) (V c main_v17) g r d 1
          + share (V c main_v11) (V c main_v14) (V c main_v17) g r d 2
          + share (V c main_v11) (V c main_v14) (V c main_v17) g r d 3 := by
  rw [acc_unroll,
    step_apply V c ⟨4 * q + 3, h⟩ _ p d g r 3 (by show g.val = (4 * q + 3) / 16; omega)
      (by show r.val = (4 * q + 3) / 4 % 4 * 512 + p.val; omega) (by show (3 : ℕ) = (4 * q + 3) % 4; omega),
    step_apply V c ⟨4 * q + 2, by omega⟩ _ p d g r 2 (by show g.val = (4 * q + 2) / 16; omega)
      (by show r.val = (4 * q + 2) / 4 % 4 * 512 + p.val; omega) (by show (2 : ℕ) = (4 * q + 2) % 4; omega),
    step_apply V c ⟨4 * q + 1, by omega⟩ _ p d g r 1 (by show g.val = (4 * q + 1) / 16; omega)
      (by show r.val = (4 * q + 1) / 4 % 4 * 512 + p.val; omega) (by show (1 : ℕ) = (4 * q + 1) % 4; omega),
    step_apply V c ⟨4 * q, by omega⟩ _ p d g r 0 (by show g.val = (4 * q) / 16; omega)
      (by show r.val = (4 * q) / 4 % 4 * 512 + p.val; omega) (by show (0 : ℕ) = (4 * q) % 4; omega),
    AttnPayload.pay1_apply]

/-! ## The 2048 key rows as four blocks of 512 -/

/-- A key row is its block and its row inside the block. -/
def rowEquiv : Fin 4 × Fin 512 ≃ Fin 2048 where
  toFun x := krow x.1 x.2
  invFun s := (⟨s.val / 512, by have := s.isLt; omega⟩, ⟨s.val % 512, by omega⟩)
  left_inv x := by
    obtain ⟨j, kk⟩ := x
    have := j.isLt; have := kk.isLt
    refine Prod.ext (Fin.ext ?_) (Fin.ext ?_)
    · show (j.val * 512 + kk.val) / 512 = j.val; omega
    · show (j.val * 512 + kk.val) % 512 = kk.val; omega
  right_inv s := Fin.ext (by show s.val / 512 * 512 + s.val % 512 = s.val; omega)

/-- A sum over the key rows is the sum of the four blocks' sums. -/
theorem sum_rows (f : Fin 2048 → EReal) :
    ∑ s : Fin 2048, f s = (∑ kk : Fin 512, f (krow 0 kk)) + (∑ kk : Fin 512, f (krow 1 kk))
      + (∑ kk : Fin 512, f (krow 2 kk)) + (∑ kk : Fin 512, f (krow 3 kk)) := by
  rw [← Equiv.sum_comp rowEquiv f, Fintype.sum_prod_type, Fin.sum_univ_four]
  rfl

/-- The attention at an element is the four shares. -/
theorem attn_apply (q k v : Vec Ideal S32x2048x128 .bf16) (g : Fin 32) (r : Fin 2048) (d : Fin 128) :
    Spec.attn q k v (ix3 g r d) = share q k v g r d 0 + share q k v g r d 1 + share q k v g r d 2 + share q k v g r d 3 :=
  sum_rows fun s => Spec.score q k g r s * v (ix3 g s d)

/-! ## What a storing point writes back, and the cover -/

/-- An output block's element sits in the output array at head t / 16, row (t / 4 % 4) · 512 + p. -/
theorem oblk_emb (t : Fin cfg1.N) (p : Fin 512) (d : Fin 128) (g : Fin 32) (r : Fin 2048)
    (hg : g.val = t.val / 16) (hr : r.val = t.val / 4 % 4 * 512 + p.val) :
    ((cfg1.win 3).blk t).view.emb (ix3 (0 : Fin 1) p d) = ix3 g r d := by
  obtain ⟨e0, e1, e2⟩ := idx_o t
  funext a
  apply Fin.ext
  match a with
  | ⟨0, _⟩ => show win1_3.index t 0 * 1 + 1 * 0 = g.val; rw [e0, hg]; omega
  | ⟨1, _⟩ => show win1_3.index t 1 * 512 + 1 * p.val = r.val; rw [e1, hr]; omega
  | ⟨2, _⟩ => show win1_3.index t 2 * 128 + 1 * d.val = d.val; rw [e2]; omega

/-- A storing point writes back its block of the attention of the three arrays. -/
theorem flushed_eq (c : Dev nD) (t : Fin cfg1.N) (hf : (cfg1.win 3).flush t = true) :
    (Attn.dat (F := Ideal) V c).flushed 3 t
      = ((cfg1.win 3).blk t).view.read (Elt Ideal) (Spec.attn (V c main_v11) (V c main_v14) (V c main_v17)) := by
  have h3 : t.val % 4 = 3 := (flush1_3 t).mp hf
  obtain ⟨n, hn⟩ := t
  obtain ⟨q, rfl⟩ : ∃ q, n = 4 * q + 3 := ⟨n / 4, by dsimp only at h3; omega⟩
  have hN : cfg1.N = 512 := N_1
  show (cfg1.win 3).cut (grid1.coords ⟨4 * q + 3, hn⟩) ((Attn.dat V c).after 3 ⟨4 * q + 3, hn⟩) = _
  rw [Attn.after_3]
  refine funext fun (y : S1x512x128.Idx) => ?_
  obtain ⟨z, p, d, rfl⟩ : ∃ z p d, y = ix3 z p d := ⟨y 0, y 1, y 2, eq_ix3 y⟩
  obtain rfl : z = 0 := Subsingleton.elim _ _
  have hg : q / 4 < 32 := by omega
  have hr : q % 4 * 512 + p.val < 2048 := by have := p.isLt; omega
  rw [View.read_apply]
  show Attn.outAt V c ⟨4 * q + 3, hn⟩ ((cfg1.win 3).xinj _ (ix3 (0 : Fin 1) p d))
    = Spec.attn (V c main_v11) (V c main_v14) (V c main_v17) (((cfg1.win 3).blk ⟨4 * q + 3, hn⟩).view.emb (ix3 (0 : Fin 1) p d))
  have hx : (cfg1.win 3).xinj (grid1.coords ⟨4 * q + 3, hn⟩) (ix3 (0 : Fin 1) p d) = ix3 (0 : Fin 1) p d := by
    funext a
    match a with
    | ⟨0, _⟩ => rfl
    | ⟨1, _⟩ => rfl
    | ⟨2, _⟩ => rfl
  rw [hx, oblk_emb ⟨4 * q + 3, hn⟩ p d ⟨q / 4, hg⟩ ⟨q % 4 * 512 + p.val, hr⟩
      (by show q / 4 = (4 * q + 3) / 16; omega) (by show q % 4 * 512 + p.val = (4 * q + 3) / 4 % 4 * 512 + p.val; omega),
    attn_apply]
  unfold Attn.outAt
  rw [AttnPayload.pay3_apply]
  show Attn.acc V c (4 * q + 3) hn (ix2 p d) = _
  rw [acc_apply V c q hn p d ⟨q / 4, hg⟩ ⟨q % 4 * 512 + p.val, hr⟩ rfl rfl, zero_add]

/-- Every element of the output array lies in the block of the storing point of its head and query block. -/
theorem cover (i : S32x2048x128.Idx) :
    ∃ t : Fin cfg1.N, (cfg1.win 3).flush t = true ∧ i ∈ ((cfg1.win 3).blk t).view.set := by
  have hN : cfg1.N = 512 := N_1
  have h0 : (i 0).val < 32 := (i 0).isLt
  have h1 : (i 1).val < 2048 := (i 1).isLt
  have h2 : (i 2).val < 128 := (i 2).isLt
  have ht : ((i 0).val * 4 + (i 1).val / 512) * 4 + 3 < cfg1.N := by rw [hN]; omega
  refine ⟨⟨_, ht⟩, (flush1_3 _).mpr (by show (((i 0).val * 4 + (i 1).val / 512) * 4 + 3) % 4 = 3; omega), ?_⟩
  have e0 : win1_3.index ⟨_, ht⟩ 0 = (((i 0).val * 4 + (i 1).val / 512) * 4 + 3) / 16 := (idx_o ⟨_, ht⟩).1
  have e1 : win1_3.index ⟨_, ht⟩ 1 = (((i 0).val * 4 + (i 1).val / 512) * 4 + 3) / 4 % 4 := (idx_o ⟨_, ht⟩).2.1
  have e2 : win1_3.index ⟨_, ht⟩ 2 = 0 := (idx_o ⟨_, ht⟩).2.2
  show i ∈ ((View.whole main_v18).slice (win1_3.rect ⟨_, ht⟩)).set
  rw [View.set_slice_whole, Rect.mem_set_unit]
  intro a
  match a with
  | ⟨0, _⟩ => show win1_3.index ⟨_, ht⟩ 0 * 1 ≤ (i 0).val ∧ (i 0).val < win1_3.index ⟨_, ht⟩ 0 * 1 + 1; rw [e0]; omega
  | ⟨1, _⟩ => show win1_3.index ⟨_, ht⟩ 1 * 512 ≤ (i 1).val ∧ (i 1).val < win1_3.index ⟨_, ht⟩ 1 * 512 + 512; rw [e1]; omega
  | ⟨2, _⟩ => show win1_3.index ⟨_, ht⟩ 2 * 128 ≤ (i 2).val ∧ (i 2).val < win1_3.index ⟨_, ht⟩ 2 * 128 + 128; rw [e2]; omega

/-- What the attention leaves in its output array. -/
theorem final (c : Dev nD) :
    (Attn.dat (F := Ideal) V c).arrAt 3 cfg1.N = Spec.attn (V c main_v11) (V c main_v14) (V c main_v17) :=
  (Attn.dat (F := Ideal) V c).arrAt_eq_of_cover 3 (Spec.attn (V c main_v11) (V c main_v14) (V c main_v17))
    (flushed_eq V c) cover

end Cert.KernelIdeal.AttnValue

end
-- ==== Proof.RefRead.lean ====
/-
  The reference's run, read one operation at a time: the generated read-at-an-index lemmas, brought in here so that
  the modules that compare the reference with the kernel's specification import one name.
-/
import proofs.«113924_j1580547972719_1_alg».proof.Proof.Gen.ReferenceIdeal.Read
-- ==== Proof.ProjRef.lean ====
/-
  The reference's projection is the kernel's. The reference computes  x[b, t, ·] against every row of W as one
  `dot_general` over the 2048 features, plus the bias broadcast along the two leading axes, into [2, 2048, 6144]; the
  kernel's first pallas_call computes  Spec.proj  on x flattened to [4096, 2048] (row b·2048 + t), W and the bias as
  a [1, 6144] row, into [4096, 6144], which the program then reshapes to [2, 2048, 6144]. Index by index both are
  Σ_k x[b, t, k] · W[n, k] + bias[n]: a reshape that merges or splits leading axes keeps the row-major position, and
  the changes of float format are the identity at the ideal instance.
-/
import proofs.«113924_j1580547972719_1_alg».proof.Proof.RefRead
import proofs.«113924_j1580547972719_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ProjRef

open Idealize.ShloMosaic Idealize.ShloMosaic.TcCoe Idealize.ShloMosaic.ValueIdx
open Cert.ReferenceIdeal Cert.ReferenceIdeal.Gen Cert.ReferenceIdeal.Read

variable [hR : Cert.ReferenceIdeal.Facts]

/-- The row b·2048 + t of an array whose two leading axes [2, 2048] are merged into one of 4096. -/
def row (bb : Fin 2) (t : Fin 2048) : Fin 4096 := ⟨bb.val * 2048 + t.val, by have := bb.isLt; have := t.isLt; omega⟩

/-- x flattened to [4096, 2048], read at (b·2048 + t, k), is x at (b, t, k): both have row-major position
    (b·2048 + t)·2048 + k. -/
theorem cast_x_apply {α : Type} (h1 : Cert.KernelIdeal.S2x2048x2048.ShapeCasts Cert.KernelIdeal.S4096x2048)
    (x : Cert.KernelIdeal.S2x2048x2048.Idx → α) (bb : Fin 2) (t : Fin 2048) (k : Fin 2048) :
    shapeCast Cert.KernelIdeal.S4096x2048 x h1 (ix2 (row bb t) k) = x (ix3 bb t k) := by
  refine shapeCast_apply x h1 _ _ ?_
  rw [Shape.rowMajor_val_three, Shape.rowMajor_val_two]
  show (bb.val * 2048 + t.val) * 2048 + k.val = (bb.val * 2048 + t.val) * 2048 + k.val
  rfl

/-- The bias as a [1, 6144] row, read at (0, n), is the bias at n: both have row-major position n. -/
theorem cast_b_apply {α : Type} (h2 : Cert.KernelIdeal.S6144.ShapeCasts Cert.KernelIdeal.S1x6144)
    (b : Cert.KernelIdeal.S6144.Idx → α) (n : Fin 6144) :
    shapeCast Cert.KernelIdeal.S1x6144 b h2 (ix2 (0 : Fin 1) n) = b (ix1 n) := by
  refine shapeCast_apply b h2 _ _ ?_
  rw [Shape.rowMajor_val_one, Shape.rowMajor_val_two]
  show n.val = 0 * 6144 + n.val
  omega

/-- A [4096, 6144] array split to [2, 2048, 6144], read at (b, t, n), is the array at (b·2048 + t, n): both have
    row-major position (b·2048 + t)·6144 + n. -/
theorem cast_out_apply {α : Type} (h3 : Cert.KernelIdeal.S4096x6144.ShapeCasts Cert.KernelIdeal.S2x2048x6144)
    (y : Cert.KernelIdeal.S4096x6144.Idx → α) (bb : Fin 2) (t : Fin 2048) (n : Fin 6144) :
    shapeCast Cert.KernelIdeal.S2x2048x6144 y h3 (ix3 bb t n) = y (ix2 (row bb t) n) := by
  refine shapeCast_apply y h3 _ _ ?_
  rw [Shape.rowMajor_val_three, Shape.rowMajor_val_two]
  show (bb.val * 2048 + t.val) * 6144 + n.val = (bb.val * 2048 + t.val) * 6144 + n.val
  rfl

/-- The kernel's projection, reshaped, is the reference's projection stage. The side conditions of the kernel
    program's reshapes and format changes are taken as hypotheses (any proofs of them will do). -/
theorem proj_eq (h1 : Cert.KernelIdeal.S2x2048x2048.ShapeCasts Cert.KernelIdeal.S4096x2048)
    (h2 : Cert.KernelIdeal.S6144.ShapeCasts Cert.KernelIdeal.S1x6144)
    (h3 : Cert.KernelIdeal.S4096x6144.ShapeCasts Cert.KernelIdeal.S2x2048x6144)
    (hb : FTy.bits .bf16 < FTy.bits .f32)
    (x : Vec Ideal Cert.KernelIdeal.S2x2048x2048 .f32) (W : Vec Ideal Cert.KernelIdeal.S6144x2048 .f32)
    (b : Vec Ideal Cert.KernelIdeal.S6144 .f32) :
    shapeCast Cert.KernelIdeal.S2x2048x6144
        (Cert.KernelIdeal.Spec.proj (truncf (F := Ideal) .bf16 (shapeCast Cert.KernelIdeal.S4096x2048 x h1) hb) (truncf (F := Ideal) .bf16 W hb)
          (shapeCast Cert.KernelIdeal.S1x6144 b h2)) h3
      = val_main_v3 (F := Ideal) x W b := by
  funext i
  obtain ⟨bb, t, n, rfl⟩ : ∃ bb t n, i = ix3 bb t n := ⟨i 0, i 1, i 2, eq_ix3 i⟩
  -- the reference at (b, t, n): the contraction of x[b, t, ·] with W[n, ·], plus the broadcast bias
  rw [val_main_v3_apply, val_main_v0_apply, val_main_v2_apply, val_main_v1_apply]
  -- the kernel's side at (b, t, n) is the [4096, 6144] array at (b·2048 + t, n)
  rw [cast_out_apply]
  -- the reference's operand indices at (b, t, n), by coordinates
  have el : ∀ k : Fin 2048, lidx_main_v0 (ix3 bb t n) k = ix3 bb t k := fun k => funext fun a => Fin.ext (by
    match a with
    | ⟨0, _⟩ => rfl
    | ⟨1, _⟩ => rfl
    | ⟨2, _⟩ => rfl)
  have er : ∀ k : Fin 2048, ridx_main_v0 (ix3 bb t n) k = ix2 n k := fun k => funext fun a => Fin.ext (by
    match a with
    | ⟨0, _⟩ => rfl
    | ⟨1, _⟩ => rfl)
  have eb : idx_main_v1 (idx_main_v2 (ix3 bb t n)) = ix1 n := funext fun a => Fin.ext (by
    match a with
    | ⟨0, _⟩ => rfl)
  rw [eb]
  -- both sides as  Σ_k (·) · W[n, k] + (·); the changes of float format are the identity
  show (∑ k : Fin 2048, shapeCast Cert.KernelIdeal.S4096x2048 x h1 (ix2 (row bb t) k) * W (ix2 n k))
        + shapeCast Cert.KernelIdeal.S1x6144 b h2 (ix2 (0 : Fin 1) n)
      = (∑ k : Fin 2048, x (lidx_main_v0 (ix3 bb t n) k) * W (ridx_main_v0 (ix3 bb t n) k)) + b (ix1 n)
  rw [cast_b_apply]
  congr 1
  refine Finset.sum_congr rfl fun k _ => ?_
  rw [cast_x_apply, el, er]

end Cert.ProjRef

end
-- ==== Proof.AttnRef.lean ====
/-
  The reference's attention is the kernel's. From its projection stage the reference takes the query, key and value
  arrays q, k, v : [2, 16, 2048, 128] (batch, head, row, feature), the scores  q · kᵀ  per (batch, head) as one
  `dot_general`, scales them, rectifies them (`max(·, 0)`), zeroes them above the diagonal (a lower-triangular mask made
  of two iotas, broadcast over batch and head) and multiplies with v as a second `dot_general`. The kernel's second
  pallas_call computes  Spec.attn  on the same three arrays with batch and head merged into one axis of 32
  (g = batch·16 + head), and the program splits that axis again. Index by index both are
  Σ_s score[t, s] · v[s, d]: merging or splitting the two leading axes keeps the row-major position.
-/
import proofs.«113924_j1580547972719_1_alg».proof.Proof.RefRead
import proofs.«113924_j1580547972719_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open scoped BigOperators

namespace Cert.AttnRef

open Idealize.ShloMosaic Idealize.ShloMosaic.TcCoe Idealize.ShloMosaic.ValueIdx
open Cert.ReferenceIdeal Cert.ReferenceIdeal.Gen Cert.ReferenceIdeal.Read

variable [hR : Cert.ReferenceIdeal.Facts]

open Idealize.ShloMosaic.StableHlo.Predicate in
/-- The lower-triangular mask word at row t, column s (any batch, any head) is 1 exactly when s ≤ t: the two iotas are
    the row and the column as 32-bit words below 2048, whose signed order is the order of naturals. -/
theorem mask_word (bb : Fin 2) (h : Fin 16) (t s : Fin 2048) :
    val_main_call2_v1 (F := Ideal) (ix4 bb h t s) = if s.val ≤ t.val then 1#1 else 0#1 := by
  rw [val_main_call2_v1_apply, val_main_v18_apply, val_main_v17_apply, val_main_call0_v4_apply,
    val_main_call0_v2_apply, val_main_call0_v0_apply, val_main_call0_v1_apply, val_main_call0_c_apply,
    val_main_call0_v3_apply, val_main_v16_apply, val_main_c_apply, val_main_call0_v5_apply, val_main_call0_c_0_apply]
  show Scalar.select (IntOp.cmpi .sge (IntOp.addi (BitVec.ofNat 32 t.val) 0#32) (BitVec.ofNat 32 s.val)) 1#1 0#1 = _
  have ht : t.val < 2048 := t.isLt
  have hs : s.val < 2048 := s.isLt
  have e0 : IntOp.addi (BitVec.ofNat 32 t.val) 0#32 = BitVec.ofNat 32 t.val := by
    unfold IntOp.addi; exact BitVec.add_zero _
  have nt : (BitVec.ofNat 32 t.val).toNat = t.val := by
    rw [BitVec.toNat_ofNat]; exact Nat.mod_eq_of_lt (by omega)
  have ns : (BitVec.ofNat 32 s.val).toNat = s.val := by
    rw [BitVec.toNat_ofNat]; exact Nat.mod_eq_of_lt (by omega)
  have key := sge_iff_toNat (a := BitVec.ofNat 32 t.val) (b := BitVec.ofNat 32 s.val) (by rw [nt]; omega) (by rw [ns]; omega)
  rw [nt, ns] at key
  rw [e0]
  by_cases hst : s.val ≤ t.val
  · rw [if_pos hst, key.2 hst, select_one]
  · rw [if_neg hst, eq_zero_of_ne_one (fun e => hst (key.1 e)), select_zero]

/-- Merging batch and head: the array [2, 16, 2048, 128] read as [32, 2048, 128] at (bb·16 + h, r, c) is the array at
    (bb, h, r, c): the two indices have the same row-major position. -/
theorem merge_apply {α : Type} (X : Cert.KernelIdeal.S2x16x2048x128.Idx → α)
    (h1 : Cert.KernelIdeal.S2x16x2048x128.ShapeCasts Cert.KernelIdeal.S32x2048x128)
    (bb : Fin 2) (h : Fin 16) (r : Fin 2048) (c : Fin 128) (hg : bb.val * 16 + h.val < 32) :
    shapeCast Cert.KernelIdeal.S32x2048x128 X h1 (ix3 (⟨bb.val * 16 + h.val, hg⟩ : Fin 32) r c) = X (ix4 bb h r c) := by
  refine shapeCast_apply X h1 _ (ix4 bb h r c) ?_
  rw [Shape.rowMajor_val_four, Shape.rowMajor_val_three]
  show ((bb.val * 16 + h.val) * 2048 + r.val) * 128 + c.val = ((bb.val * 16 + h.val) * 2048 + r.val) * 128 + c.val
  rfl

/-- Splitting them again: the array [32, 2048, 128] read as [2, 16, 2048, 128] at (bb, h, r, c) is the array at
    (bb·16 + h, r, c). -/
theorem split_apply {α : Type} (Y : Cert.KernelIdeal.S32x2048x128.Idx → α)
    (h2 : Cert.KernelIdeal.S32x2048x128.ShapeCasts Cert.KernelIdeal.S2x16x2048x128)
    (bb : Fin 2) (h : Fin 16) (r : Fin 2048) (c : Fin 128) (hg : bb.val * 16 + h.val < 32) :
    shapeCast Cert.KernelIdeal.S2x16x2048x128 Y h2 (ix4 bb h r c) = Y (ix3 (⟨bb.val * 16 + h.val, hg⟩ : Fin 32) r c) := by
  refine shapeCast_apply Y h2 _ (ix3 (⟨bb.val * 16 + h.val, hg⟩ : Fin 32) r c) ?_
  rw [Shape.rowMajor_val_four, Shape.rowMajor_val_three]
  show ((bb.val * 16 + h.val) * 2048 + r.val) * 128 + c.val = ((bb.val * 16 + h.val) * 2048 + r.val) * 128 + c.val
  rfl

/-- The reference's masked, rectified, scaled score at (bb, h, t, s): the kernel's score formula on the reference's own
    query and key arrays. The rectifier's and the mask's zero splats are 0, the scale splat is the printed word, and at
    the ideal instance a maximum is the extended reals' max. -/
theorem score_ref (x : Vec Ideal Cert.KernelIdeal.S2x2048x2048 .f32) (W : Vec Ideal Cert.KernelIdeal.S6144x2048 .f32)
    (b : Vec Ideal Cert.KernelIdeal.S6144 .f32) (bb : Fin 2) (h : Fin 16) (t s : Fin 2048) :
    val_main_v20 (F := Ideal) x W b (ix4 bb h t s)
      = if s.val ≤ t.val then
          max ((∑ dd : Fin 128, val_main_v8 (F := Ideal) x W b (ix4 bb h t dd) * val_main_v10 (F := Ideal) x W b (ix4 bb h s dd))
            * Cert.KernelIdeal.Spec.scale) 0
        else 0 := by
  rw [val_main_v20_apply, mask_word]
  by_cases hst : s.val ≤ t.val
  · rw [if_pos hst, if_pos hst, select_one, val_main_v19_apply, val_main_v15_apply, val_main_v13_apply,
      val_main_v14_apply, val_main_cst_apply, val_main_call1_v0_apply, val_main_call1_cst_apply]
    have el : ∀ dd : Fin 128, lidx_main_v13 (ix4 bb h t s) dd = ix4 bb h t dd := fun dd => by
      funext a; match a with | ⟨0, _⟩ => rfl | ⟨1, _⟩ => rfl | ⟨2, _⟩ => rfl | ⟨3, _⟩ => rfl
    have er : ∀ dd : Fin 128, ridx_main_v13 (ix4 bb h t s) dd = ix4 bb h s dd := fun dd => by
      funext a; match a with | ⟨0, _⟩ => rfl | ⟨1, _⟩ => rfl | ⟨2, _⟩ => rfl | ⟨3, _⟩ => rfl
    simp only [el, er]
    show max ((∑ dd : Fin 128, val_main_v8 (F := Ideal) x W b (ix4 bb h t dd) * val_main_v10 (F := Ideal) x W b (ix4 bb h s dd))
        * Cert.KernelIdeal.Spec.scale) (Ideal.ofBits .f32 0x00000000#32) = _
    rw [Ideal.ofBits_zero_f32]
  · rw [if_neg hst, if_neg hst, select_zero, val_main_call2_v2_apply, val_main_call2_v0_apply, val_main_cst_0_apply]
    exact Ideal.ofBits_zero_f32

/-- The kernel's attention on the reference's own query, key and value stages, with batch and head merged and split
    again, is the reference's attention stage. The reshapes' side conditions are taken as hypotheses. -/
theorem attn_eq (h1 : Cert.KernelIdeal.S2x16x2048x128.ShapeCasts Cert.KernelIdeal.S32x2048x128)
    (h2 : Cert.KernelIdeal.S32x2048x128.ShapeCasts Cert.KernelIdeal.S2x16x2048x128)
    (x : Vec Ideal Cert.KernelIdeal.S2x2048x2048 .f32) (W : Vec Ideal Cert.KernelIdeal.S6144x2048 .f32)
    (b : Vec Ideal Cert.KernelIdeal.S6144 .f32) :
    shapeCast Cert.KernelIdeal.S2x16x2048x128
        (Cert.KernelIdeal.Spec.attn
          (shapeCast Cert.KernelIdeal.S32x2048x128 (val_main_v8 (F := Ideal) x W b) h1)
          (shapeCast Cert.KernelIdeal.S32x2048x128 (val_main_v10 (F := Ideal) x W b) h1)
          (shapeCast Cert.KernelIdeal.S32x2048x128 (val_main_v12 (F := Ideal) x W b) h1)) h2
      = val_main_v21 (F := Ideal) x W b := by
  funext i
  obtain ⟨bb, h, t, d, rfl⟩ : ∃ bb h t d, i = ix4 bb h t d := ⟨i 0, i 1, i 2, i 3, eq_ix4 i⟩
  have hg : bb.val * 16 + h.val < 32 := by have := bb.isLt; have := h.isLt; omega
  -- the reference's side: the contraction over the key rows s, its two operands at explicit coordinates
  have el : ∀ s : Fin 2048, lidx_main_v21 (ix4 bb h t d) s = ix4 bb h t s := fun s => by
    funext a; match a with | ⟨0, _⟩ => rfl | ⟨1, _⟩ => rfl | ⟨2, _⟩ => rfl | ⟨3, _⟩ => rfl
  have er : ∀ s : Fin 2048, ridx_main_v21 (ix4 bb h t d) s = ix4 bb h s d := fun s => by
    funext a; match a with | ⟨0, _⟩ => rfl | ⟨1, _⟩ => rfl | ⟨2, _⟩ => rfl | ⟨3, _⟩ => rfl
  rw [val_main_v21_apply, split_apply _ h2 bb h t d hg]
  show (∑ s : Fin 2048, Cert.KernelIdeal.Spec.score _ _ (⟨bb.val * 16 + h.val, hg⟩ : Fin 32) t s
      * shapeCast Cert.KernelIdeal.S32x2048x128 (val_main_v12 (F := Ideal) x W b) h1 (ix3 (⟨bb.val * 16 + h.val, hg⟩ : Fin 32) s d)) = _
  refine Finset.sum_congr rfl fun s _ => ?_
  rw [el, er, score_ref, merge_apply _ h1 bb h s d hg]
  unfold Cert.KernelIdeal.Spec.score
  simp only [merge_apply _ h1 bb h _ _ hg]

end Cert.AttnRef

end
-- ==== Proof.KernelValue.lean ====
/-
  The kernel program's result, at the ideal instance, is the reference's last stage. Read off the run's fold: the
  first host stretch hands the projection x flattened to [4096, 2048], W and the bias as a row (the changes of
  format the identity); the projection leaves `Spec.proj` of them; the second stretch reshapes that to [2, 2048, 6144],
  takes its three 2048-wide slices and splits each into heads, [32, 2048, 128]; the attention leaves `Spec.attn` of
  them; the last stretch merges the heads again. The reference applies the SAME slices, reshapes and transposes
  around its own projection and attention stages, so once the projection and the attention are identified
  (`ProjRef.proj_eq`, `AttnRef.attn_eq`) the two chains are one term.
-/
import proofs.«113924_j1580547972719_1_alg».proof.Proof.Run
import proofs.«113924_j1580547972719_1_alg».proof.Proof.ProjValue
import proofs.«113924_j1580547972719_1_alg».proof.Proof.AttnValue
import proofs.«113924_j1580547972719_1_alg».proof.Proof.ProjRef
import proofs.«113924_j1580547972719_1_alg».proof.Proof.AttnRef
import Idealize.ShloMosaic.Lib.StableHlo.Run

set_option maxRecDepth 16384

noncomputable section

namespace Cert.KernelIdeal.Result

open Cert.KernelIdeal Cert.KernelIdeal.Gen Cert.KernelIdeal.Run
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What each stretch hands on -/

theorem entry_a (c : Dev nD) :
    V1 m ρ c main_v1 = truncf (F := Ideal) .bf16 (shapeCast S4096x2048 (m ((c : Thread nD τ).loc main_arg0)) shapeCasts_S2x2048x2048_S4096x2048) bitsLt_bf16_f32 := by
  show StableHlo.after hostOps0 (W0 m ρ c) (Proc.devRef .tc main_v1) = _
  after_results <;> rfl
theorem entry_w (c : Dev nD) :
    V1 m ρ c main_v2 = truncf (F := Ideal) .bf16 (m ((c : Thread nD τ).loc main_arg1)) bitsLt_bf16_f32 := by
  show StableHlo.after hostOps0 (W0 m ρ c) (Proc.devRef .tc main_v2) = _
  after_results <;> rfl
theorem entry_b (c : Dev nD) :
    V1 m ρ c main_v3 = shapeCast S1x6144 (m ((c : Thread nD τ).loc main_arg2)) shapeCasts_S6144_S1x6144 := by
  show StableHlo.after hostOps0 (W0 m ρ c) (Proc.devRef .tc main_v3) = _
  after_results <;> rfl

/-- The projection's output array after the first pallas_call. -/
theorem proj_out (c : Dev nD) :
    W2 m ρ c main_v4 = Spec.proj (V1 m ρ c main_v1) (V1 m ρ c main_v2) (V1 m ρ c main_v3) :=
  (W2_arr m ρ c 3).trans (ProjValue.final (V1 m ρ) c)

/-- One third of the projection split into heads: a 2048-wide slice at column `off`, reshaped to 16 heads of 128
    features, the head axis moved before the row axis, batch and head merged. -/
abbrev heads (off : Nat) (h : S2x2048x6144.Slices ![0, 0, off] S2x2048x2048) (Pj : Vec Ideal S2x2048x6144 .bf16) : Vec Ideal S32x2048x128 .bf16 :=
  shapeCast S32x2048x128 (transpose S2x16x2048x128 [0, 2, 1, 3] (shapeCast S2x2048x16x128 (extractStridedSlice S2x2048x2048 ![0, 0, off] Pj h)
    shapeCasts_S2x2048x2048_S2x2048x16x128) transposes_S2x2048x16x128_S2x16x2048x128_0_2_1_3) shapeCasts_S2x16x2048x128_S32x2048x128

theorem entry_q (c : Dev nD) :
    V3 m ρ c main_v11 = heads 0 slices_S2x2048x6144_S2x2048x2048_0_0_0 (shapeCast S2x2048x6144 (W2 m ρ c main_v4) shapeCasts_S4096x6144_S2x2048x6144) := by
  show StableHlo.after hostOps1 (W2 m ρ c) (Proc.devRef .tc main_v11) = _
  after_results <;> rfl
theorem entry_k (c : Dev nD) :
    V3 m ρ c main_v14 = heads 2048 slices_S2x2048x6144_S2x2048x2048_0_0_2048 (shapeCast S2x2048x6144 (W2 m ρ c main_v4) shapeCasts_S4096x6144_S2x2048x6144) := by
  show StableHlo.after hostOps1 (W2 m ρ c) (Proc.devRef .tc main_v14) = _
  after_results <;> rfl
theorem entry_v (c : Dev nD) :
    V3 m ρ c main_v17 = heads 4096 slices_S2x2048x6144_S2x2048x2048_0_0_4096 (shapeCast S2x2048x6144 (W2 m ρ c main_v4) shapeCasts_S4096x6144_S2x2048x6144) := by
  show StableHlo.after hostOps1 (W2 m ρ c) (Proc.devRef .tc main_v17) = _
  after_results <;> rfl

/-- The attention's output array after the second pallas_call. -/
theorem attn_out (c : Dev nD) :
    W4 m ρ c main_v18 = Spec.attn (V3 m ρ c main_v11) (V3 m ρ c main_v14) (V3 m ρ c main_v17) :=
  (W4_arr m ρ c 3).trans (AttnValue.final (V3 m ρ) c)

/-- The program's result: the attention's output with batch and head split, the head axis moved back, the heads
    merged into the 2048 features. -/
theorem result_merge (c : Dev nD) :
    W5 m ρ c main_v21 = shapeCast S2x2048x2048 (transpose S2x2048x16x128 [0, 2, 1, 3]
      (shapeCast S2x16x2048x128 (W4 m ρ c main_v18) shapeCasts_S32x2048x128_S2x16x2048x128)
      transposes_S2x16x2048x128_S2x2048x16x128_0_2_1_3) shapeCasts_S2x2048x16x128_S2x2048x2048 := by
  show StableHlo.after hostOps2 (W4 m ρ c) (Proc.devRef .tc main_v21) = _
  after_results <;> rfl

/-! ## The kernel program's result is the reference's last stage -/

theorem result_eq [hR : Cert.ReferenceIdeal.Facts] (c : Dev nD) :
    W5 m ρ c main_v21 = Cert.ReferenceIdeal.Read.val_main_v23 (F := Ideal) (m ((c : Thread nD τ).loc main_arg0)) (m ((c : Thread nD τ).loc main_arg1)) (m ((c : Thread nD τ).loc main_arg2)) := by
  rw [result_merge, attn_out, entry_q, entry_k, entry_v, proj_out, entry_a, entry_w, entry_b]
  rw [Cert.ProjRef.proj_eq]
  rw [show Cert.ReferenceIdeal.Read.val_main_v23 (F := Ideal) (m ((c : Thread nD τ).loc main_arg0)) (m ((c : Thread nD τ).loc main_arg1)) (m ((c : Thread nD τ).loc main_arg2))
      = shapeCast S2x2048x2048 (transpose S2x2048x16x128 [0, 2, 1, 3]
          (Cert.ReferenceIdeal.Read.val_main_v21 (F := Ideal) (m ((c : Thread nD τ).loc main_arg0)) (m ((c : Thread nD τ).loc main_arg1)) (m ((c : Thread nD τ).loc main_arg2)))
          transposes_S2x16x2048x128_S2x2048x16x128_0_2_1_3) shapeCasts_S2x2048x16x128_S2x2048x2048 from rfl,
    ← Cert.AttnRef.attn_eq shapeCasts_S2x16x2048x128_S32x2048x128 shapeCasts_S32x2048x128_S2x16x2048x128]
  rfl

end Cert.KernelIdeal.Result

end
-- ==== Proof.BitsProjBody.lean ====
/-
  The first pallas_call: the projection  out[r, n] = (Σ_k a[r, k] · w[n, k]) + b[n]  on a grid (8, 12, 4) of
  512 × 512 blocks, the contraction cut in four along the grid's last axis. The body keeps a 512 × 512 accumulator
  in a scratch buffer across the four steps of one output block: reset to zero at step 0, the step's block product
  added at every step, and at step 3 the bias row added and the block stored into the output window.

  This module states, for any contents `V` of the device's buffers at the region's entry, what the scratch holds
  after each grid point (`acc`, by recursion on the point), what the output window's staging buffer holds after the
  points that store it (`outAt`), the region's invariant (`Phi`: the scratch at `acc`, every other scoped buffer at
  anything), the proof data, and the body obligation: three runs of the body, one per way its two conditionals
  fall (first step, middle steps, last step).
-/
import proofs.«113924_j1580547972719_1_alg».proof.Proof.Gen.Kernel.Launch
import proofs.«113924_j1580547972719_1_alg».proof.Proof.Gen.Kernel.Skeleton
import proofs.«113924_j1580547972719_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at their literal types: the 512 × 512 block of the left operand, of the right operand,
    and the 1 × 512 piece of the bias row. -/
abbrev ablk (c : Dev nD) (t : Fin cfg0.N) : Vec F S512x512 .bf16 := iblk V c 0 t
abbrev wblk (c : Dev nD) (t : Fin cfg0.N) : Vec F S512x512 .bf16 := iblk V c 1 t
abbrev bblk (c : Dev nD) (t : Fin cfg0.N) : Vec F S1x512 .f32 := iblk V c 2 t

/-- An input window's staging buffer holds its block at every point, fetched there or not (where it is not fetched
    its block index has not moved): for any proof data whose array is `V`'s and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions, in closed form over the grid -/

/-- The condition of the reset, `program_id(2) == 0`, as the body computes it. -/
abbrev condFirst (i : grid0.Coords) : BitVec 1 :=
  Scalar.cmpi .ne (Scalar.extui (Scalar.cmpi .eq (BitVec.ofNat 32 (i 2).val) 0#32)) 0#32

theorem condFirst_iff : ∀ t : Fin cfg0.N, condFirst (grid0.coords t) = 1#1 ↔ t.val % 4 = 0 :=
  (by decide +kernel : ∀ t : Fin grid0.N, condFirst (grid0.coords t) = 1#1 ↔ t.val % 4 = 0)
theorem condLast_iff : ∀ t : Fin cfg0.N, k0_cond2 (grid0.coords t) = 1#1 ↔ t.val % 4 = 3 :=
  (by decide +kernel : ∀ t : Fin grid0.N, k0_cond2 (grid0.coords t) = 1#1 ↔ t.val % 4 = 3)

/-! ## What the scratch and the output window hold -/

/-- The scratch accumulator after the body at point `n`: at the first of a block's four steps the step's block
    product added to the zero block, afterwards added to what the step before left. -/
def acc (c : Dev nD) : (n : ℕ) → n < cfg0.N → Vec F S512x512 .f32
  | 0, h => k0_pay2 (k0_pay1 (F := F)) (ablk V c ⟨0, h⟩) (wblk V c ⟨0, h⟩)
  | n + 1, h =>
    if (n + 1) % 4 = 0 then k0_pay2 (k0_pay1 (F := F)) (ablk V c ⟨n + 1, h⟩) (wblk V c ⟨n + 1, h⟩)
    else k0_pay2 (acc c n (Nat.lt_of_succ_lt h)) (ablk V c ⟨n + 1, h⟩) (wblk V c ⟨n + 1, h⟩)

theorem acc_first (c : Dev nD) (t : Fin cfg0.N) (h : t.val % 4 = 0) :
    acc V c t.val t.isLt = k0_pay2 (k0_pay1 (F := F)) (ablk V c t) (wblk V c t) := by
  obtain ⟨n, hn⟩ := t
  cases n with
  | zero => rfl
  | succ n => exact if_pos h

theorem acc_next (c : Dev nD) (t : Fin cfg0.N) (h : ¬ t.val % 4 = 0) :
    acc V c t.val t.isLt = k0_pay2 (acc V c (t.val - 1) (Nat.lt_of_le_of_lt (Nat.sub_le _ _) t.isLt)) (ablk V c t) (wblk V c t) := by
  obtain ⟨n, hn⟩ := t
  cases n with
  | zero => exact absurd (Nat.zero_mod _) h
  | succ n => exact if_neg h

/-- What the output window's staging buffer holds after the body at a last step: the accumulator plus the bias row,
    at the output's format. (At the other points the window is idle and this is not consulted.) -/
def outAt (c : Dev nD) (t : Fin cfg0.N) : Vec F S512x512 .bf16 :=
  k0_pay3 (acc V c t.val t.isLt) (bblk V c t)

/-! ## The invariant -/

/-- The kernel's scratch accumulator, whole. -/
abbrev scr : Memref sig .tc .vmem S512x512 .f32 := Memref.whole cc0_scratch0

/-- Every scoped buffer that is neither a staging buffer of this call nor its accumulator, at some contents: the
    other call's staging buffers and scratch, carried unopened. -/
abbrev others (c : Dev nD) : sProp 𝕄 :=
  Pipeline.scopedRestBut (Ix := Unit) (Name := ℕ) (U := UR sig nD τ) (Lvl := ℕ) (Val := Elt F) spec0 c [cc0_scratch0]

/-- The class invariant split at the accumulator: its buffer at some contents, the other scoped buffers, the
    generator register at some state. -/
theorem PhiA_eq (c : Dev nD) :
    (Pipeline.ΦA spec0 c : sProp 𝕄)
      = iprop(iprop((∃ d, owns (c : Thread nD τ) scr fullShare d) ∗ others (F := F) c) ∗ (∃ r, prngReg c r)) := by
  unfold Pipeline.ΦA
  rw [Pipeline.scopedRest_split_of_list spec0 c [cc0_scratch0] (by decide) (by decide)]
  simp only [scr, owns_whole]; try rfl

/-- The region's invariant before position `n`: before the first point the class's (the accumulator at anything);
    afterwards the accumulator at what the point before left in it, the other scoped buffers at anything, the generator
    register at some state. -/
def Phi (c : Dev nD) : (n : ℕ) → n ≤ cfg0.N → sProp 𝕄
  | 0, _ => Pipeline.ΦA spec0 c
  | n + 1, hn => iprop(iprop(owns (c : Thread nD τ) scr fullShare (acc V c n hn) ∗ others (F := F) c) ∗ (∃ r, prngReg c r))

theorem Phi_zero (c : Dev nD) (n : ℕ) (h : n ≤ cfg0.N) (hz : n = 0) : Phi V c n h = Pipeline.ΦA spec0 c := by
  subst hz; rfl
theorem Phi_succ (c : Dev nD) (n : ℕ) (hn : n < cfg0.N) :
    Phi V c (n + 1) hn = iprop(iprop(owns (c : Thread nD τ) scr fullShare (acc V c n hn) ∗ others (F := F) c) ∗ (∃ r, prngReg c r)) := rfl
theorem Phi_pos (c : Dev nD) (n : ℕ) (h : n ≤ cfg0.N) (hz : n ≠ 0) :
    Phi V c n h = iprop(iprop(owns (c : Thread nD τ) scr fullShare (acc V c (n - 1) (by omega)) ∗ others (F := F) c) ∗ (∃ r, prngReg c r)) := by
  cases n with
  | zero => exact absurd rfl hz
  | succ n => rfl

/-- Whatever the position, the invariant holds the accumulator at SOME contents. -/
theorem Phi_any (c : Dev nD) (n : ℕ) (h : n ≤ cfg0.N) :
    Phi V c n h ⊢ iprop(iprop((∃ d, owns (c : Thread nD τ) scr fullShare d) ∗ others (F := F) c) ∗ (∃ r, prngReg c r)) := by
  by_cases hz : n = 0
  · rw [Phi_zero V c n h hz, PhiA_eq]
  · rw [Phi_pos V c n h hz]
    iintro ⟨⟨HS, Ho⟩, Hg⟩
    isplitl [HS Ho]
    · isplitl [HS]
      · iexists _; iexact HS
      iexact Ho
    iexact Hg

/-! ## The pipeline's proof data -/

/-- The proof data of the projection's pipeline on core `c`: the arrays as the region finds them; after the body
    each input's buffer at its block and the output's at `outAt`; the invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = Phi V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outAt V c t := by dsimp only [dat]
theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d
theorem before_2 (c : Dev nD) (t : Fin cfg0.N) (d) : (dat V c).before 2 t d = iblk V c 2 t :=
  before2_of V (dat V c) (A_eq V c 2) (after_2 V c) t d

/-! ## The body, once per way its conditionals fall -/

theorem hz2 : (![0, 0] : Fin 2 → Nat) = fun _ => 0 := funext fun a => by fin_cases a <;> rfl

abbrev rAcc : Rect S512x512 := Rect.unit (s := S512x512) ![0, 0] S512x512.size inb_S512x512_S512x512_0_0

/-- One store of the whole 512 × 512 rectangle covers the buffer. -/
theorem cover1 {e : EltTy} (p : Vec F S512x512 e) (y : S512x512.Idx) :
    ∃ pc ∈ ([⟨rAcc, p⟩] : List (View.Piece (Elt F) S512x512 e)), y ∈ pc.1.set :=
  View.cover_of_tiled [⟨rAcc, p⟩] S512x512.size (by rfl) y

/-- Of two stores of the whole rectangle the later one already covers the buffer. -/
theorem cover2 {e : EltTy} (p q : Vec F S512x512 e) (y : S512x512.Idx) :
    ∃ pc ∈ ([⟨rAcc, p⟩, ⟨rAcc, q⟩] : List (View.Piece (Elt F) S512x512 e)), y ∈ pc.1.set := by
  obtain ⟨pc, hpc, hy⟩ := cover1 p y
  rw [List.mem_singleton] at hpc; subst hpc
  exact ⟨_, List.mem_cons_self .., hy⟩

set_option maxHeartbeats 1000000 in
/-- A MIDDLE step (neither the first nor the last of a block's four): the accumulator, holding `s`, ends holding
    `s` plus the product of the two input blocks; nothing else is touched. -/
theorem run_mid (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .bf16) (harg6 : arg6.IsWhole)
    (arg7 : Memref sig .tc .vmem S512x512 .f32) (harg7 : arg7.IsWhole)
    (hfirst : ¬ condFirst i = 1#1) (hlast : ¬ k0_cond2 i = 1#1)
    (a w : Vec F S512x512 .bf16) (s : Vec F S512x512 .f32) (K : PUnit → sProp 𝕄) :
    iprop(owns (c : Thread nD τ) arg3 fullShare a ∗ owns (c : Thread nD τ) arg4 fullShare w ∗ owns (c : Thread nD τ) arg7 fullShare s
        ∗ (iprop(owns (c : Thread nD τ) arg3 fullShare a ∗ owns (c : Thread nD τ) arg4 fullShare w
            ∗ owns (c : Thread nD τ) arg7 fullShare (k0_pay2 s a w)) -∗ K ⟨⟩))
      ⊢ wp frame (wpE (defs₀ (F := F)) Variants.none c none) E (cc0_matmul_bias_kernel i arg3 harg3 arg4 harg4 arg5 harg5 arg6 harg6 arg7 harg7) K := by
  simp only [cc0_matmul_bias_kernel_eq_skeleton]; unfold cc0_matmul_bias_kernel_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact hfirst | exact hlast)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (cover1 _), View.canon_unit_zero hz2]
  simp only [View.readAt_eq_ld, harg3.read_unread, harg4.read_unread, harg7.read_unread, View.ld_unit_zero (S := S512x512) hz2]

set_option maxHeartbeats 1000000 in
/-- The FIRST step: the accumulator, holding anything, is reset to zero and ends holding zero plus the product. -/
theorem run_first (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .bf16) (harg6 : arg6.IsWhole)
    (arg7 : Memref sig .tc .vmem S512x512 .f32) (harg7 : arg7.IsWhole)
    (hfirst : condFirst i = 1#1) (hlast : ¬ k0_cond2 i = 1#1)
    (a w : Vec F S512x512 .bf16) (K : PUnit → sProp 𝕄) :
    iprop(owns (c : Thread nD τ) arg3 fullShare a ∗ owns (c : Thread nD τ) arg4 fullShare w ∗ (∃ d, owns (c : Thread nD τ) arg7 fullShare d)
        ∗ (iprop(owns (c : Thread nD τ) arg3 fullShare a ∗ owns (c : Thread nD τ) arg4 fullShare w
            ∗ owns (c : Thread nD τ) arg7 fullShare (k0_pay2 (k0_pay1 (F := F)) a w)) -∗ K ⟨⟩))
      ⊢ wp frame (wpE (defs₀ (F := F)) Variants.none c none) E (cc0_matmul_bias_kernel i arg3 harg3 arg4 harg4 arg5 harg5 arg6 harg6 arg7 harg7) K := by
  simp only [cc0_matmul_bias_kernel_eq_skeleton]; unfold cc0_matmul_bias_kernel_skel
  unfold owns
  iintro ⟨⟨%f3, %hf3, H3⟩, ⟨%f4, %hf4, H4⟩, ⟨%d7, %f7, -, H7⟩, Hk⟩
  obtain rfl := harg3.eq_unread hf3; obtain rfl := harg4.eq_unread hf4
  sl_exec (disch := first | exact hfirst | exact hlast)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (cover2 _ _)]
  rw [View.canon_cons_unit_zero (S := S512x512) hz2, View.readCov_unit_zero (S := S512x512) _ hz2]
  simp only [View.readAt_eq_ld, harg3.read_unread, harg4.read_unread, View.ld_unit_zero (S := S512x512) hz2]

set_option maxHeartbeats 1000000 in
/-- The LAST step: the accumulator, holding `s`, ends holding `s` plus the product, and the output window's buffer,
    holding anything, ends holding that sum plus the bias row, at the output's format. -/
theorem run_last (c : Dev nD) (E : Set ℕ) (i : grid0.Coords)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x512 .bf16) (harg6 : arg6.IsWhole)
    (arg7 : Memref sig .tc .vmem S512x512 .f32) (harg7 : arg7.IsWhole)
    (hfirst : ¬ condFirst i = 1#1) (hlast : k0_cond2 i = 1#1)
    (a w : Vec F S512x512 .bf16) (bb : Vec F S1x512 .f32) (s : Vec F S512x512 .f32) (K : PUnit → sProp 𝕄) :
    iprop(owns (c : Thread nD τ) arg3 fullShare a ∗ owns (c : Thread nD τ) arg4 fullShare w ∗ owns (c : Thread nD τ) arg5 fullShare bb
        ∗ (∃ d, owns (c : Thread nD τ) arg6 fullShare d) ∗ owns (c : Thread nD τ) arg7 fullShare s
        ∗ (iprop(owns (c : Thread nD τ) arg3 fullShare a ∗ owns (c : Thread nD τ) arg4 fullShare w ∗ owns (c : Thread nD τ) arg5 fullShare bb
            ∗ owns (c : Thread nD τ) arg6 fullShare (k0_pay3 (k0_pay2 s a w) bb)
            ∗ owns (c : Thread nD τ) arg7 fullShare (k0_pay2 s a w)) -∗ K ⟨⟩))
      ⊢ wp frame (wpE (defs₀ (F := F)) Variants.none c none) E (cc0_matmul_bias_kernel i arg3 harg3 arg4 harg4 arg5 harg5 arg6 harg6 arg7 harg7) K := by
  simp only [cc0_matmul_bias_kernel_eq_skeleton]; unfold cc0_matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact hfirst | exact hlast)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (cover1 _), View.canon_unit_zero hz2]
    simp only [View.readAt_eq_ld, harg3.read_unread, harg4.read_unread, harg5.read_unread, harg7.read_unread,
      View.ld_unit_zero (S := S512x512) hz2, View.ld_unit_zero (S := S1x512) hz2, View.readCov_unit_zero (S := S512x512) _ hz2]
  iexists _; isplitr
  swap; · iexact H7
  ipureintro
  sl_unfold_words
  rw [View.read_writes_eq_canon _ _ _ (cover1 _), View.canon_unit_zero hz2]
  simp only [View.readAt_eq_ld, harg3.read_unread, harg4.read_unread, harg7.read_unread, View.ld_unit_zero (S := S512x512) hz2]

/-! ## The schedule, in closed form: which windows the body leaves untouched where -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The output window is idle off the last step, and not written back there; -/
theorem idle_3 : ∀ t : Fin cfg0.N, ¬ t.val % 4 = 3 → cfg0.idle 3 (grid0.coords t) = true :=
  (by decide +kernel : ∀ t : Fin grid0.N, ¬ t.val % 4 = 3 → cfg0.idle 3 (grid0.coords t) = true)
theorem noFlush_3 (t : Fin cfg0.N) (h : ¬ t.val % 4 = 3) : (cfg0.win 3).flush t = false := by
  cases hf : (cfg0.win 3).flush t
  · rfl
  · exact absurd ((flush0_3 t).mp hf) h
/-- and live at the last step. -/
theorem live_3 : ∀ t : Fin cfg0.N, t.val % 4 = 3 → cfg0.idle 3 (grid0.coords t) = false :=
  (by decide +kernel : ∀ t : Fin grid0.N, t.val % 4 = 3 → cfg0.idle 3 (grid0.coords t) = false)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg0.N) :
    (dat V c).leavesExact 0 t = owns (c : Thread nD τ) (st0_0 t) fullShare (iblk V c 0 t) := by
  unfold Dat.leavesExact; rw [live_0 t, after_0]
theorem leaves_1 (c : Dev nD) (t : Fin cfg0.N) :
    (dat V c).leavesExact 1 t = owns (c : Thread nD τ) (st0_1 t) fullShare (iblk V c 1 t) := by
  unfold Dat.leavesExact; rw [live_1 t, after_1]
theorem leaves_2 (c : Dev nD) (t : Fin cfg0.N) :
    (dat V c).leavesExact 2 t = owns (c : Thread nD τ) (st0_2 t) fullShare (iblk V c 2 t) := by
  unfold Dat.leavesExact; rw [live_2 t, after_2]
theorem leaves_3_last (c : Dev nD) (t : Fin cfg0.N) (h : t.val % 4 = 3) :
    (dat V c).leavesExact 3 t = owns (c : Thread nD τ) (st0_3 t) fullShare (outAt V c t) := by
  unfold Dat.leavesExact; rw [live_3 t h, after_3]

set_option maxHeartbeats 4000000 in
/-- The body at any point. The inputs' buffers hold their blocks; the step (the point modulo 4) says which of the
    three runs applies; the invariant hands the body the accumulator at what the point before left (at anything, at a
    first step) and takes it back at this point's contents; off the last step the output window's buffer passes
    through untouched; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2, Phi_castSucc]
  by_cases h0 : t.val % 4 = 0
  · -- a first step
    have h3 : ¬ t.val % 4 = 3 := by omega
    rw [Dat.leavesExact_idle (dat V c) 3 t (idle_3 t h3) (noFlush_3 t h3), acc_first V c t h0]
    iintro ⟨HΦ, Ho, ⟨%d0, H0⟩, ⟨%d1, H1⟩, ⟨%d2, H2⟩, H3⟩
    ihave HΦ' := Phi_any V c _ _ $$ HΦ
    icases HΦ' with ⟨⟨HS, Hoth⟩, Hg⟩
    iapply (run_first c Set.univ (grid0.coords t) _ _ _ _ _ _ _ _ _ _ ((condFirst_iff t).mpr h0) (fun h => h3 ((condLast_iff t).mp h))
      (ablk V c t) (wblk V c t) _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hz : t.val ≠ 0 := fun e => h0 (by rw [e])
    rw [Phi_pos V c _ _ hz, acc_next V c t h0]
    by_cases h3 : t.val % 4 = 3
    · -- a last step
      rw [leaves_3_last V c t h3]
      unfold outAt
      rw [acc_next V c t h0]
      iintro ⟨⟨⟨HS, Hoth⟩, Hg⟩, Ho, ⟨%d0, H0⟩, ⟨%d1, H1⟩, ⟨%d2, H2⟩, ⟨%d3, H3⟩⟩
      iapply (run_last c Set.univ (grid0.coords t) _ _ _ _ _ _ _ _ _ _ (fun h => h0 ((condFirst_iff t).mp h)) ((condLast_iff t).mpr h3)
        (ablk V c t) (wblk V c t) (bblk V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · -- a middle step
      rw [Dat.leavesExact_idle (dat V c) 3 t (idle_3 t h3) (noFlush_3 t h3)]
      iintro ⟨⟨⟨HS, Hoth⟩, Hg⟩, Ho, ⟨%d0, H0⟩, ⟨%d1, H1⟩, ⟨%d2, H2⟩, H3⟩
      iapply (run_mid c Set.univ (grid0.coords t) _ _ _ _ _ _ _ _ _ _ (fun h => h0 ((condFirst_iff t).mp h)) (fun h => h3 ((condLast_iff t).mp h))
        (ablk V c t) (wblk V c t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant's two ends -/

/-- What the region's entry hands the body (the class invariant) is the invariant before the first point. -/
theorem Phi_in (c : Dev nD) : Pipeline.ΦA spec0 c ⊢ (dat V c).Φ 0 := by
  rw [show (dat V c).Φ 0 = Phi V c 0 (Nat.zero_le _) from rfl, Phi_zero V c 0 _ rfl]

/-- After the last point the invariant gives the class invariant back: the accumulator's contents are forgotten. -/
theorem Phi_out (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl, PhiA_eq]
  exact Phi_any V c _ _

end Cert.Kernel.Proj

end
-- ==== Proof.BitsAttnBody.lean ====
/-
  The second pallas_call: causal attention with rectified scores, per head, on a grid (32, 4, 4) — head, query block,
  key block — of 512-row blocks. The body keeps a 512 × 128 accumulator in a scratch buffer across the four key
  blocks of one query block: reset to zero at key block 0; at a key block not after the query block (`ki ≤ qi`) the
  block's scores, scaled, rectified and masked to the causal triangle, are multiplied with the value block and
  added; key blocks wholly above the diagonal are skipped; at key block 3 the accumulator is stored into the
  output window.

  This module states, for any contents `V` of the device's buffers at the region's entry, what the scratch holds
  after each grid point (`acc`, by recursion on the point), what the output window's staging buffer holds after the
  points that store it (`outAt`), the region's invariant (`Phi`), the proof data, and the body obligation: five
  runs of the body, one per way its three conditionals fall on the grid.
-/
import proofs.«113924_j1580547972719_1_alg».proof.Proof.Gen.Kernel.Launch
import proofs.«113924_j1580547972719_1_alg».proof.Proof.Gen.Kernel.Skeleton
import proofs.«113924_j1580547972719_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at their literal types: 512 query rows, 512 key rows, 512 value rows of one head. -/
abbrev qblk (c : Dev nD) (t : Fin cfg1.N) : Vec F S1x512x128 .bf16 := iblk V c 0 t
abbrev kblk (c : Dev nD) (t : Fin cfg1.N) : Vec F S1x512x128 .bf16 := iblk V c 1 t
abbrev vblk (c : Dev nD) (t : Fin cfg1.N) : Vec F S1x512x128 .bf16 := iblk V c 2 t

/-- An input window's staging buffer holds its block at every point, fetched there or not (where it is not fetched
    its block index has not moved): for any proof data whose array is `V`'s and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The three conditions, in closed form over the grid

A point `t` of the grid (32, 4, 4) has key block `t % 4` and query block `(t / 4) % 4`. -/

/-- The condition of the reset, `ki == 0`, as the body computes it. -/
abbrev condFirst (i : grid1.Coords) : BitVec 1 :=
  Scalar.cmpi .ne (Scalar.extui (Scalar.cmpi .eq (BitVec.ofNat 32 (i 2).val) 0#32)) 0#32
/-- The condition of the accumulation, `ki <= qi`, as the body computes it. -/
abbrev condTri (i : grid1.Coords) : BitVec 1 :=
  Scalar.cmpi .ne (Scalar.extui (Scalar.cmpi .sle (BitVec.ofNat 32 (i 2).val) (BitVec.ofNat 32 (i 1).val))) 0#32

theorem condFirst_iff : ∀ t : Fin cfg1.N, condFirst (grid1.coords t) = 1#1 ↔ t.val % 4 = 0 :=
  (by decide +kernel : ∀ t : Fin grid1.N, condFirst (grid1.coords t) = 1#1 ↔ t.val % 4 = 0)
theorem condTri_iff : ∀ t : Fin cfg1.N, condTri (grid1.coords t) = 1#1 ↔ t.val % 4 ≤ (t.val / 4) % 4 :=
  (by decide +kernel : ∀ t : Fin grid1.N, condTri (grid1.coords t) = 1#1 ↔ t.val % 4 ≤ (t.val / 4) % 4)
theorem condLast_iff : ∀ t : Fin cfg1.N, k1_cond3 (grid1.coords t) = 1#1 ↔ t.val % 4 = 3 :=
  (by decide +kernel : ∀ t : Fin grid1.N, k1_cond3 (grid1.coords t) = 1#1 ↔ t.val % 4 = 3)

/-! ## What the scratch and the output window hold -/

/-- One point's step on the accumulator: at a key block not after the query block the block's contribution added
    to `s`; at a key block above the diagonal nothing. -/
def step (c : Dev nD) (t : Fin cfg1.N) (s : Vec F S512x128 .f32) : Vec F S512x128 .f32 :=
  if t.val % 4 ≤ (t.val / 4) % 4 then k1_pay2 (grid1.coords t) (qblk V c t) (kblk V c t) (vblk V c t) s else s

/-- The scratch accumulator after the body at point `n`: the point's step from the zero block at key block 0,
    from what the point before left otherwise. -/
def acc (c : Dev nD) : (n : ℕ) → n < cfg1.N → Vec F S512x128 .f32
  | 0, h => step V c ⟨0, h⟩ (k1_pay1 (F := F))
  | n + 1, h =>
    if (n + 1) % 4 = 0 then step V c ⟨n + 1, h⟩ (k1_pay1 (F := F))
    else step V c ⟨n + 1, h⟩ (acc c n (Nat.lt_of_succ_lt h))

theorem acc_first (c : Dev nD) (t : Fin cfg1.N) (h : t.val % 4 = 0) :
    acc V c t.val t.isLt = step V c t (k1_pay1 (F := F)) := by
  obtain ⟨n, hn⟩ := t
  cases n with
  | zero => rfl
  | succ n => exact if_pos h

theorem acc_next (c : Dev nD) (t : Fin cfg1.N) (h : ¬ t.val % 4 = 0) :
    acc V c t.val t.isLt = step V c t (acc V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at key block 3: the accumulator, as a 1 × 512 × 128
    block. (At the other points the window is idle and this is not consulted.) -/
def outAt (c : Dev nD) (t : Fin cfg1.N) : Vec F S1x512x128 .f32 :=
  k1_pay3 (acc V c t.val t.isLt)

/-! ## The invariant -/

/-- The kernel's scratch accumulator, whole. -/
abbrev scr : Memref sig .tc .vmem S512x128 .f32 := Memref.whole cc1_scratch0

/-- Every scoped buffer that is neither a staging buffer of this call nor its accumulator, at some contents. -/
abbrev others (c : Dev nD) : sProp 𝕄 :=
  Pipeline.scopedRestBut (Ix := Unit) (Name := ℕ) (U := UR sig nD τ) (Lvl := ℕ) (Val := Elt F) spec1 c [cc1_scratch0]

/-- The class invariant split at the accumulator. -/
theorem PhiA_eq (c : Dev nD) :
    (Pipeline.ΦA spec1 c : sProp 𝕄)
      = iprop(iprop((∃ d, owns (c : Thread nD τ) scr fullShare d) ∗ others (F := F) c) ∗ (∃ r, prngReg c r)) := by
  unfold Pipeline.ΦA
  rw [Pipeline.scopedRest_split_of_list spec1 c [cc1_scratch0] (by decide) (by decide)]
  simp only [scr, owns_whole]; try rfl

/-- The region's invariant before position `n`: before the first point the class's (the accumulator at anything);
    afterwards the accumulator at what the point before left in it, the other scoped buffers at anything, the generator
    register at some state. -/
def Phi (c : Dev nD) : (n : ℕ) → n ≤ cfg1.N → sProp 𝕄
  | 0, _ => Pipeline.ΦA spec1 c
  | n + 1, hn => iprop(iprop(owns (c : Thread nD τ) scr fullShare (acc V c n hn) ∗ others (F := F) c) ∗ (∃ r, prngReg c r))

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = iprop(iprop(owns (c : Thread nD τ) scr fullShare (acc V c n hn) ∗ others (F := F) c) ∗ (∃ r, prngReg c r)) := rfl
theorem Phi_pos (c : Dev nD) (n : ℕ) (h : n ≤ cfg1.N) (hz : n ≠ 0) :
    Phi V c n h = iprop(iprop(owns (c : Thread nD τ) scr fullShare (acc V c (n - 1) (by omega)) ∗ others (F := F) c) ∗ (∃ r, prngReg c r)) := by
  cases n with
  | zero => exact absurd rfl hz
  | succ n => rfl

/-- Whatever the position, the invariant holds the accumulator at SOME contents. -/
theorem Phi_any (c : Dev nD) (n : ℕ) (h : n ≤ cfg1.N) :
    Phi V c n h ⊢ iprop(iprop((∃ d, owns (c : Thread nD τ) scr fullShare d) ∗ others (F := F) c) ∗ (∃ r, prngReg c r)) := by
  by_cases hz : n = 0
  · rw [Phi_zero V c n h hz, PhiA_eq]
  · rw [Phi_pos V c n h hz]
    iintro ⟨⟨HS, Ho⟩, Hg⟩
    isplitl [HS Ho]
    · isplitl [HS]
      · iexists _; iexact HS
      iexact Ho
    iexact Hg

/-! ## The pipeline's proof data -/

/-- The proof data of the attention's pipeline on core `c`: the arrays as the region finds them; after the body
    each input's buffer at its block and the output's at `outAt`; the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = Phi V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t := by dsimp only [dat]
theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d

/-! ## The body, once per way its conditionals fall

The body has three conditionals: the reset at key block 0, the accumulation at a key block not after the query
block, the store at key block 3. On the grid they fall five ways. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The whole accumulator, and a whole window buffer, as the rectangles the body loads and stores through. -/
abbrev rAcc : Rect S512x128 := Rect.unit (s := S512x128) ![0, 0] S512x128.size inb_S512x128_S512x128_0_0
abbrev rWin : Rect S1x512x128 := Rect.unit (s := S1x512x128) ![0, 0, 0] S1x512x128.size inb_S1x512x128_S1x512x128_0_0_0

/-- One store of the whole 512 × 128 rectangle covers the accumulator. -/
theorem cover1 {e : EltTy} (p : Vec F S512x128 e) (y : S512x128.Idx) :
    ∃ pc ∈ ([⟨rAcc, p⟩] : List (View.Piece (Elt F) S512x128 e)), y ∈ pc.1.set :=
  ⟨_, List.mem_singleton_self _, View.mem_set_unit_zero hz2 inb_S512x128_S512x128_0_0 y⟩

/-- Of two stores of the whole rectangle the later one already covers it. -/
theorem cover2 {e : EltTy} (p q : Vec F S512x128 e) (y : S512x128.Idx) :
    ∃ pc ∈ ([⟨rAcc, p⟩, ⟨rAcc, q⟩] : List (View.Piece (Elt F) S512x128 e)), y ∈ pc.1.set :=
  ⟨_, List.mem_cons_self .., View.mem_set_unit_zero hz2 inb_S512x128_S512x128_0_0 y⟩

/-- One store of the whole 1 × 512 × 128 rectangle covers a window's buffer. -/
theorem coverW {e : EltTy} (p : Vec F S1x512x128 e) (y : S1x512x128.Idx) :
    ∃ pc ∈ ([⟨rWin, p⟩] : List (View.Piece (Elt F) S1x512x128 e)), y ∈ pc.1.set :=
  ⟨_, List.mem_singleton_self _, View.mem_set_unit_zero hz3 inb_S1x512x128_S1x512x128_0_0_0 y⟩

set_option maxHeartbeats 1000000 in
/-- Key block 0 (it is never after the query block, and never the last): the accumulator, holding anything, is reset
    to zero and ends holding zero plus the block's contribution. -/
theorem run_first (c : Dev nD) (E : Set ℕ) (i : grid1.Coords)
    (arg3 : Memref sig .tc .vmem S1x512x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x512x128 .f32) (harg6 : arg6.IsWhole)
    (arg7 : Memref sig .tc .vmem S512x128 .f32) (harg7 : arg7.IsWhole)
    (hfirst : condFirst i = 1#1) (htri : condTri i = 1#1) (hlast : ¬ k1_cond3 i = 1#1)
    (q k v : Vec F S1x512x128 .bf16) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg7 fullShare d)
        ∗ (iprop(owns (c : Thread nD τ) arg3 fullShare q ∗ owns (c : Thread nD τ) arg4 fullShare k ∗ owns (c : Thread nD τ) arg5 fullShare v
            ∗ owns (c : Thread nD τ) arg7 fullShare (k1_pay2 i q k v (k1_pay1 (F := F)))) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%d7, %f7, -, H7⟩, Hk⟩
  obtain rfl := harg3.eq_unread hf3; obtain rfl := harg4.eq_unread hf4; obtain rfl := harg5.eq_unread hf5
  sl_exec (disch := first | sl_exact hfirst | sl_exact htri | sl_exact hlast)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H7
  ipureintro
  sl_unfold_words
  rw [View.read_writes_eq_canon _ _ _ (cover2 _ _)]
  rw [View.canon_cons_unit_zero (S := S512x128) hz2, View.readCov_unit_zero (S := S512x128) _ hz2]
  simp only [View.readAt_eq_ld, harg3.read_unread, harg4.read_unread, harg5.read_unread,
    View.ld_unit_zero (S := S1x512x128) hz3, View.ld_unit_zero (S := S512x128) hz2]

set_option maxHeartbeats 1000000 in
/-- A MIDDLE key block (neither 0 nor 3) not after the query block: the accumulator, holding `s`, ends holding `s`
    plus the block's contribution; nothing else is touched. -/
theorem run_mid_acc (c : Dev nD) (E : Set ℕ) (i : grid1.Coords)
    (arg3 : Memref sig .tc .vmem S1x512x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x512x128 .f32) (harg6 : arg6.IsWhole)
    (arg7 : Memref sig .tc .vmem S512x128 .f32) (harg7 : arg7.IsWhole)
    (hfirst : ¬ condFirst i = 1#1) (htri : condTri i = 1#1) (hlast : ¬ k1_cond3 i = 1#1)
    (q k v : Vec F S1x512x128 .bf16) (s : Vec F S512x128 .f32) (K : PUnit → sProp 𝕄) :
    iprop(owns (c : Thread nD τ) arg3 fullShare q ∗ owns (c : Thread nD τ) arg4 fullShare k ∗ owns (c : Thread nD τ) arg5 fullShare v
        ∗ owns (c : Thread nD τ) arg7 fullShare s
        ∗ (iprop(owns (c : Thread nD τ) arg3 fullShare q ∗ owns (c : Thread nD τ) arg4 fullShare k ∗ owns (c : Thread nD τ) arg5 fullShare v
            ∗ owns (c : Thread nD τ) arg7 fullShare (k1_pay2 i q k v s)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%f7, %hf7, H7⟩, Hk⟩
  obtain rfl := harg3.eq_unread hf3; obtain rfl := harg4.eq_unread hf4; obtain rfl := harg5.eq_unread hf5
  obtain rfl := harg7.eq_unread hf7
  sl_exec (disch := first | sl_exact hfirst | sl_exact htri | sl_exact hlast)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H7
  ipureintro
  sl_unfold_words
  rw [View.read_writes_eq_canon _ _ _ (cover1 _), View.canon_unit_zero hz2]
  simp only [View.readAt_eq_ld, harg3.read_unread, harg4.read_unread, harg5.read_unread, harg7.read_unread,
    View.ld_unit_zero (S := S1x512x128) hz3, View.ld_unit_zero (S := S512x128) hz2]

set_option maxHeartbeats 1000000 in
/-- A MIDDLE key block after the query block: the body runs through three untaken branches and touches nothing. -/
theorem run_mid_skip (c : Dev nD) (E : Set ℕ) (i : grid1.Coords)
    (arg3 : Memref sig .tc .vmem S1x512x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x512x128 .f32) (harg6 : arg6.IsWhole)
    (arg7 : Memref sig .tc .vmem S512x128 .f32) (harg7 : arg7.IsWhole)
    (hfirst : ¬ condFirst i = 1#1) (htri : ¬ condTri i = 1#1) (hlast : ¬ k1_cond3 i = 1#1)
    (K : PUnit → sProp 𝕄) :
    K ⟨⟩ ⊢ wp frame (wpE (defs₀ (F := F)) Variants.none c none) E (cc1_kernel i arg3 harg3 arg4 harg4 arg5 harg5 arg6 harg6 arg7 harg7) K := by
  simp only [cc1_kernel_eq_skeleton]; unfold cc1_kernel_skel
  iintro Hk
  sl_exec (disch := first | sl_exact hfirst | sl_exact htri | sl_exact hlast)
  sl_step
  iexact Hk

set_option maxHeartbeats 1000000 in
/-- Key block 3 at query block 3: the accumulator, holding `s`, ends holding `s` plus the block's contribution, and
    the output window's buffer, holding anything, ends holding that sum as a 1 × 512 × 128 block. -/
theorem run_last_acc (c : Dev nD) (E : Set ℕ) (i : grid1.Coords)
    (arg3 : Memref sig .tc .vmem S1x512x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x512x128 .f32) (harg6 : arg6.IsWhole)
    (arg7 : Memref sig .tc .vmem S512x128 .f32) (harg7 : arg7.IsWhole)
    (hfirst : ¬ condFirst i = 1#1) (htri : condTri i = 1#1) (hlast : k1_cond3 i = 1#1)
    (q k v : Vec F S1x512x128 .bf16) (s : Vec F S512x128 .f32) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d) ∗ owns (c : Thread nD τ) arg7 fullShare s
        ∗ (iprop(owns (c : Thread nD τ) arg3 fullShare q ∗ owns (c : Thread nD τ) arg4 fullShare k ∗ owns (c : Thread nD τ) arg5 fullShare v
            ∗ owns (c : Thread nD τ) arg6 fullShare (k1_pay3 (k1_pay2 i q k v s))
            ∗ owns (c : Thread nD τ) arg7 fullShare (k1_pay2 i q k v s)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | sl_exact hfirst | sl_exact htri | sl_exact hlast)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (coverW _), View.canon_unit_zero hz3]
    simp only [View.readAt_eq_ld, harg3.read_unread, harg4.read_unread, harg5.read_unread, harg7.read_unread,
      View.ld_unit_zero (S := S1x512x128) hz3, View.ld_unit_zero (S := S512x128) hz2,
      View.readCov_unit_zero (S := S512x128) _ hz2]
  iexists _; isplitr
  swap; · iexact H7
  ipureintro
  sl_unfold_words
  rw [View.read_writes_eq_canon _ _ _ (cover1 _), View.canon_unit_zero hz2]
  simp only [View.readAt_eq_ld, harg3.read_unread, harg4.read_unread, harg5.read_unread, harg7.read_unread,
    View.ld_unit_zero (S := S1x512x128) hz3, View.ld_unit_zero (S := S512x128) hz2]

set_option maxHeartbeats 1000000 in
/-- Key block 3 at a query block before it: the accumulation is skipped, the accumulator keeps `s`, and the output
    window's buffer, holding anything, ends holding `s` as a 1 × 512 × 128 block. -/
theorem run_last_skip (c : Dev nD) (E : Set ℕ) (i : grid1.Coords)
    (arg3 : Memref sig .tc .vmem S1x512x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x512x128 .f32) (harg6 : arg6.IsWhole)
    (arg7 : Memref sig .tc .vmem S512x128 .f32) (harg7 : arg7.IsWhole)
    (hfirst : ¬ condFirst i = 1#1) (htri : ¬ condTri i = 1#1) (hlast : k1_cond3 i = 1#1)
    (s : Vec F S512x128 .f32) (K : PUnit → sProp 𝕄) :
    iprop((∃ d, owns (c : Thread nD τ) arg6 fullShare d) ∗ owns (c : Thread nD τ) arg7 fullShare s
        ∗ (iprop(owns (c : Thread nD τ) arg6 fullShare (k1_pay3 s) ∗ owns (c : Thread nD τ) arg7 fullShare s) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%d6, %f6, -, H6⟩, ⟨%f7, %hf7, H7⟩, Hk⟩
  obtain rfl := harg7.eq_unread hf7
  sl_exec (disch := first | sl_exact hfirst | sl_exact htri | sl_exact hlast)
  sl_step
  iapply Hk
  isplitl [H6]
  · iexists _; isplitr
    swap; · iexact H6
    ipureintro
    sl_unfold_words
    rw [View.read_writes_eq_canon _ _ _ (coverW _), View.canon_unit_zero hz3]
    simp only [View.readAt_eq_ld, harg7.read_unread, View.ld_unit_zero (S := S512x128) hz2]
  iexists _; isplitr; · ipureintro; exact harg7.read_unread _
  iexact H7

/-! ## The schedule, in closed form: which windows the body leaves untouched where -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- The output window is idle off key block 3, and not written back there; -/
theorem idle_3 : ∀ t : Fin cfg1.N, ¬ t.val % 4 = 3 → cfg1.idle 3 (grid1.coords t) = true :=
  (by decide +kernel : ∀ t : Fin grid1.N, ¬ t.val % 4 = 3 → cfg1.idle 3 (grid1.coords t) = true)
theorem noFlush_3 (t : Fin cfg1.N) (h : ¬ t.val % 4 = 3) : (cfg1.win 3).flush t = false := by
  cases hf : (cfg1.win 3).flush t
  · rfl
  · exact absurd ((flush1_3 t).mp hf) h
/-- and live at key block 3. -/
theorem live_3 : ∀ t : Fin cfg1.N, t.val % 4 = 3 → cfg1.idle 3 (grid1.coords t) = false :=
  (by decide +kernel : ∀ t : Fin grid1.N, t.val % 4 = 3 → cfg1.idle 3 (grid1.coords t) = false)

/-! ## The body obligation, at a generic point -/

/-- One point's step, at a key block not after the query block and at one after it. -/
theorem step_pos (c : Dev nD) (t : Fin cfg1.N) (s : Vec F S512x128 .f32) (h : t.val % 4 ≤ (t.val / 4) % 4) :
    step V c t s = k1_pay2 (grid1.coords t) (qblk V c t) (kblk V c t) (vblk V c t) s := if_pos h
theorem step_neg (c : Dev nD) (t : Fin cfg1.N) (s : Vec F S512x128 .f32) (h : ¬ t.val % 4 ≤ (t.val / 4) % 4) :
    step V c t s = s := if_neg h

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg1.N) :
    (dat V c).leavesExact 0 t = owns (c : Thread nD τ) (st1_0 t) fullShare (iblk V c 0 t) := by
  unfold Dat.leavesExact; rw [live_0 t, after_0]
theorem leaves_1 (c : Dev nD) (t : Fin cfg1.N) :
    (dat V c).leavesExact 1 t = owns (c : Thread nD τ) (st1_1 t) fullShare (iblk V c 1 t) := by
  unfold Dat.leavesExact; rw [live_1 t, after_1]
theorem leaves_2 (c : Dev nD) (t : Fin cfg1.N) :
    (dat V c).leavesExact 2 t = owns (c : Thread nD τ) (st1_2 t) fullShare (iblk V c 2 t) := by
  unfold Dat.leavesExact; rw [live_2 t, after_2]
theorem leaves_3_last (c : Dev nD) (t : Fin cfg1.N) (h : t.val % 4 = 3) :
    (dat V c).leavesExact 3 t = owns (c : Thread nD τ) (st1_3 t) fullShare (outAt V c t) := by
  unfold Dat.leavesExact; rw [live_3 t h, after_3]

set_option maxHeartbeats 4000000 in
/-- The body at any point. The inputs' buffers hold their blocks; the key block (the point modulo 4) and whether it
    is after the query block say which of the five runs applies; the invariant hands the body the accumulator at what
    the point before left (at anything, at key block 0) and takes it back at this point's contents; off key block 3
    the output window's buffer passes through untouched; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2, Phi_castSucc]
  by_cases h0 : t.val % 4 = 0
  · -- key block 0: never after the query block
    have h3 : ¬ t.val % 4 = 3 := by omega
    have hle : t.val % 4 ≤ (t.val / 4) % 4 := by omega
    rw [Dat.leavesExact_idle (dat V c) 3 t (idle_3 t h3) (noFlush_3 t h3), acc_first V c t h0, step_pos V c t _ hle]
    iintro ⟨HΦ, Ho, ⟨%d0, H0⟩, ⟨%d1, H1⟩, ⟨%d2, H2⟩, H3⟩
    ihave HΦ' := Phi_any V c _ _ $$ HΦ
    icases HΦ' with ⟨⟨HS, Hoth⟩, Hg⟩
    iapply (run_first c Set.univ (grid1.coords t) _ _ _ _ _ _ _ _ _ _ ((condFirst_iff t).mpr h0) ((condTri_iff t).mpr hle)
      (fun h => h3 ((condLast_iff t).mp h)) (qblk V c t) (kblk V c t) (vblk V c t) _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hz : t.val ≠ 0 := fun e => h0 (by rw [e])
    rw [Phi_pos V c _ _ hz, acc_next V c t h0]
    by_cases h3 : t.val % 4 = 3
    · rw [leaves_3_last V c t h3]
      unfold outAt
      rw [acc_next V c t h0]
      by_cases hle : t.val % 4 ≤ (t.val / 4) % 4
      · -- key block 3 at query block 3
        rw [step_pos V c t _ hle]
        iintro ⟨⟨⟨HS, Hoth⟩, Hg⟩, Ho, ⟨%d0, H0⟩, ⟨%d1, H1⟩, ⟨%d2, H2⟩, ⟨%d3, H3⟩⟩
        iapply (run_last_acc c Set.univ (grid1.coords t) _ _ _ _ _ _ _ _ _ _ (fun h => h0 ((condFirst_iff t).mp h)) ((condTri_iff t).mpr hle)
          ((condLast_iff t).mpr h3) (qblk V c t) (kblk V c t) (vblk V c t) _ _)
        isplitl [H0]; · iexact H0
        isplitl [H1]; · iexact H1
        isplitl [H2]; · iexact H2
        isplitl [H3]; · iexists _; iexact H3
        isplitl [HS]; · iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
      · -- key block 3 at an earlier query block
        rw [step_neg V c t _ hle]
        iintro ⟨⟨⟨HS, Hoth⟩, Hg⟩, Ho, ⟨%d0, H0⟩, ⟨%d1, H1⟩, ⟨%d2, H2⟩, ⟨%d3, H3⟩⟩
        iapply (run_last_skip c Set.univ (grid1.coords t) _ _ _ _ _ _ _ _ _ _ (fun h => h0 ((condFirst_iff t).mp h))
          (fun h => hle ((condTri_iff t).mp h)) ((condLast_iff t).mpr h3) _ _)
        isplitl [H3]; · iexists _; iexact H3
        isplitl [HS]; · iexact HS
        iintro ⟨H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
    · rw [Dat.leavesExact_idle (dat V c) 3 t (idle_3 t h3) (noFlush_3 t h3)]
      by_cases hle : t.val % 4 ≤ (t.val / 4) % 4
      · -- a middle key block, accumulating
        rw [step_pos V c t _ hle]
        iintro ⟨⟨⟨HS, Hoth⟩, Hg⟩, Ho, ⟨%d0, H0⟩, ⟨%d1, H1⟩, ⟨%d2, H2⟩, H3⟩
        iapply (run_mid_acc c Set.univ (grid1.coords t) _ _ _ _ _ _ _ _ _ _ (fun h => h0 ((condFirst_iff t).mp h)) ((condTri_iff t).mpr hle)
          (fun h => h3 ((condLast_iff t).mp h)) (qblk V c t) (kblk V c t) (vblk V c t) _ _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
      · -- a middle key block, skipped
        rw [step_neg V c t _ hle]
        iintro ⟨⟨⟨HS, Hoth⟩, Hg⟩, Ho, ⟨%d0, H0⟩, ⟨%d1, H1⟩, ⟨%d2, H2⟩, H3⟩
        iapply (run_mid_skip c Set.univ (grid1.coords t) _ _ _ _ _ _ _ _ _ _ (fun h => h0 ((condFirst_iff t).mp h))
          (fun h => hle ((condTri_iff t).mp h)) (fun h => h3 ((condLast_iff t).mp h)) _)
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant's two ends -/

/-- What the region's entry hands the body (the class invariant) is the invariant before the first point. -/
theorem Phi_in (c : Dev nD) : Pipeline.ΦA spec1 c ⊢ (dat V c).Φ 0 := by
  rw [show (dat V c).Φ 0 = Phi V c 0 (Nat.zero_le _) from rfl, Phi_zero V c 0 _ rfl]

/-- After the last point the invariant gives the class invariant back: the accumulator's contents are forgotten. -/
theorem Phi_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl, PhiA_eq]
  exact Phi_any V c _ _

end Cert.Kernel.Attn

end
-- ==== Proof.BitsRun.lean ====
/-
  The run of @main: three stretches of host operations around the two pallas_calls. The buffers' contents at each
  boundary are a fold from the launch memory — a host stretch applies its operations (`StableHlo.after`), a
  pallas_call leaves its arrays at what its write-backs leave (`Dat.arrAt … N`) and every other buffer as it was —,
  each pallas_call is entered with its proof data at the contents the fold gives at its entry, and every weakly fair
  execution terminates with every unscoped buffer at the fold's last stage. The frame claim reads the three arguments
  off that stage (no item writes one); a value claim reads the result.
-/
import proofs.«113924_j1580547972719_1_alg».proof.Proof.BitsProjBody
import proofs.«113924_j1580547972719_1_alg».proof.Proof.BitsAttnBody
import proofs.«113924_j1580547972719_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention's exit. -/
def W4 (c : Dev nD) : Valuation τ sig (Elt F) :=
  Pipeline.withArrays spec1 c (W3 m ρ c) fun w => (Attn.dat (V3 m ρ) c).arrAt w cfg1.N
theorem W4_arr (c : Dev nD) (w : Fin cfg1.W) :
    W4 m ρ c (Proc.devRef .tc (Pipeline.arrRef spec1 w)) = (Attn.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Attn.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: what the program returns with. -/
abbrev W5 : Dev nD → Valuation τ sig (Elt F) := fun c => StableHlo.after hostOps2 (W4 m ρ c)

/-! ### The arguments end as launched -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

/-- A buffer no host stretch writes and no pallas_call has a window on ends as launched. -/
theorem W5_untouched (c : Dev nD) (r : Ref sig .tc) (h0 : r ∉ hostOps0_W) (h1 : r ∉ hostOps1_W) (h2 : r ∉ hostOps2_W)
    (ha : ∀ w, Pipeline.arrRef spec0 w ≠ r) (hb : ∀ w, Pipeline.arrRef spec1 w ≠ r) :
    W5 m ρ c r = m ((c : Thread nD τ).loc r) :=
  (W5_of m ρ c r h2).trans <| (W4_of_ne m ρ c r hb).trans <| (W3_of m ρ c r h1).trans <| (W2_of_ne m ρ c r ha).trans <|
    (W1_of m ρ c r h0).trans rfl

theorem W5_main_arg0 (c : Dev nD) : W5 m ρ c main_arg0 = m ((c : Thread nD τ).loc main_arg0) :=
  W5_untouched m ρ c main_arg0 (by decide) (by decide) (by decide) (by decide) (by decide)
theorem W5_main_arg1 (c : Dev nD) : W5 m ρ c main_arg1 = m ((c : Thread nD τ).loc main_arg1) :=
  W5_untouched m ρ c main_arg1 (by decide) (by decide) (by decide) (by decide) (by decide)
theorem W5_main_arg2 (c : Dev nD) : W5 m ρ c main_arg2 = m ((c : Thread nD τ).loc main_arg2) :=
  W5_untouched m ρ c main_arg2 (by decide) (by decide) (by decide) (by decide) (by decide)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The pallas_calls as segments -/

set_option backward.isDefEq.respectTransparency.types false in
/-- The projection over the thread state: entered from every unscoped buffer at `W1`, left at `W2`. Its arrays are
    split out of the unscoped buffers and put back at the exit contents; the generator register and the scoped rest go
    into the invariant (the accumulator tracked inside it) and come back; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Proj.Phi_in (V1 m ρ) c)
    unfold Pipeline.ΦA
    iintro ⟨Hp, -, Hr⟩
    isplitl [Hr]; · iexact Hr
    iexact Hp
  hout c := by
    rw [Pipeline.ownSems0_none]
    refine (Proj.Phi_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Attn.Phi_in (V3 m ρ) c)
    unfold Pipeline.ΦA
    iintro ⟨Hp, -, Hr⟩
    isplitl [Hr]; · iexact Hr
    iexact Hp
  hout c := by
    rw [Pipeline.ownSems0_none]
    refine (Attn.Phi_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the fold's last stage `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution of @main terminates, nothing faulting, the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Run

end
-- ==== Proof.lean ====
/-
  The certificate of the fused q/k/v projection followed by causal attention with rectified scores, against its
  jnp reference.

  The kernel program runs two pallas_calls between three stretches of host operations. Its frame, at the word level
  and at the ideal instance alike, is one run of the five segments (`Run.run_all`): each pallas_call's body keeps an
  accumulator in scratch across the steps of one output block, and the region's invariant holds that scratch at the
  running sum (`Proj`, `Attn`); the run ends with every buffer at a fold from the launch memory, and no item of
  the fold writes an argument. The reference's frame is its generated run.

  The ideal pass rewrote nothing, so `preserves` is `True`.

  For the value claim the fold is read at the result: the projection leaves Σ_k a[r, k] · w[n, k] + b[n]
  (`ProjValue`: the four-step accumulation is the one sum over the contraction axis cut in four), the attention leaves
  Σ_s score[t, s] · v[s, d] (`AttnValue`: the skipped key blocks are exactly those whose scores the causal mask
  zeroes, and 0 · x = 0 on the extended reals), the reference's own projection and attention stages are the same
  functions under a reshape of the leading axes (`ProjRef`, `AttnRef`), and the slices, reshapes and transposes
  around them are the same operations in both programs (`Result.result_eq`). Both programs print the same scale
  word, which is never evaluated. No law used needs the inputs to be finite.
-/
import proofs.«113924_j1580547972719_1_alg».proof.Defs
import proofs.«113924_j1580547972719_1_alg».proof.Proof.Gen.Kernel
import proofs.«113924_j1580547972719_1_alg».proof.Proof.Gen.KernelIdeal
import proofs.«113924_j1580547972719_1_alg».proof.Proof.Gen.ReferenceIdeal
import proofs.«113924_j1580547972719_1_alg».proof.Proof.Gen.Pre_finite_inputs
import proofs.«113924_j1580547972719_1_alg».proof.Proof.Gen.ReferenceIdeal.Run
import proofs.«113924_j1580547972719_1_alg».proof.Proof.KernelValue
import proofs.«113924_j1580547972719_1_alg».proof.Proof.BitsRun
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hR : Cert.ReferenceIdeal.Facts] [hP : Cert.Pre_finite_inputs.Facts]

theorem frame_kernel : Cert.frame_Kernel := fun m ρ _ => Cert.Kernel.Run.frame m ρ
theorem frame_kernelIdeal : Cert.frame_KernelIdeal := fun m ρ _ => Cert.KernelIdeal.Run.frame m ρ
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the three arguments, both programs end with the reference's last stage of those
    arguments in their result arrays. -/
theorem algebraic : Cert.algebraic_KernelIdeal_ReferenceIdeal := by
  intro m ρ m' ρ' _ hagree
  refine ⟨fun c => Cert.KernelIdeal.Run.W5 m ρ c Cert.KernelIdeal.main_v21, ?_, ?_⟩
  · refine (θ_run Cert.KernelIdeal.defs _ _).mono (fun r h c => ?_) (Cert.KernelIdeal.Run.run_all (F := Ideal) m ρ)
    exact ⟨h c _ (Cert.KernelIdeal.Run.mem_uc Cert.KernelIdeal.main_v21 (by decide)),
      (h c _ (Cert.KernelIdeal.Run.mem_uc Cert.KernelIdeal.main_arg0 (by decide))).trans (Cert.KernelIdeal.Run.W5_main_arg0 m ρ c),
      (h c _ (Cert.KernelIdeal.Run.mem_uc Cert.KernelIdeal.main_arg1 (by decide))).trans (Cert.KernelIdeal.Run.W5_main_arg1 m ρ c),
      (h c _ (Cert.KernelIdeal.Run.mem_uc Cert.KernelIdeal.main_arg2 (by decide))).trans (Cert.KernelIdeal.Run.W5_main_arg2 m ρ c)⟩
  · refine (θ_run Cert.ReferenceIdeal.defs _ _).mono (fun r h c => ⟨(h c).1.trans ?_, (h c).2⟩)
      (Cert.ReferenceIdeal.Value.run (F := Ideal) m' ρ')
    show _ = Cert.KernelIdeal.Run.W5 m ρ c Cert.KernelIdeal.main_v21
    rw [Cert.KernelIdeal.Result.result_eq m ρ c, ← (hagree c).1, ← (hagree c).2.1, ← (hagree c).2.2]
    exact (Cert.ReferenceIdeal.Read.val_main_v23_eq _ _ _)

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
